-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S64 : Shape := ⟨1, ![64]⟩
abbrev S64x1 : Shape := ⟨2, ![64, 1]⟩
abbrev S1x50000 : Shape := ⟨2, ![1, 50000]⟩
abbrev S64x50000 : Shape := ⟨2, ![64, 50000]⟩
abbrev S64x50176 : Shape := ⟨2, ![64, 50176]⟩
abbrev S50176x128 : Shape := ⟨2, ![50176, 128]⟩
abbrev S64x128 : Shape := ⟨2, ![64, 128]⟩
abbrev S64x6272 : Shape := ⟨2, ![64, 6272]⟩
abbrev S6272x128 : Shape := ⟨2, ![6272, 128]⟩

abbrev nBuf : Space → Nat
  | .hbm => 114
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x128, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x128, .f32⟩
  | .hbm, ⟨57, _⟩ => ⟨S850000x1, .f32⟩
  | .hbm, ⟨58, _⟩ => ⟨S850000x128, .f32⟩
  | .hbm, ⟨59, _⟩ => ⟨S850000x128, .f32⟩
  | .hbm, ⟨60, _⟩ => ⟨S_, .f32⟩
  | .hbm, ⟨61, _⟩ => ⟨S50000x128, .f32⟩
  | .hbm, ⟨62, _⟩ => ⟨S850000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x1, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .hbm, ⟨89, _⟩ => ⟨S50000x128, .f32⟩
  | .hbm, ⟨90, _⟩ => ⟨S64, .i32⟩
  | .hbm, ⟨91, _⟩ => ⟨S64x1, .i32⟩
  | .hbm, ⟨92, _⟩ => ⟨S1x50000, .i32⟩
  | .hbm, ⟨93, _⟩ => ⟨S64x50000, .i32⟩
  | .hbm, ⟨94, _⟩ => ⟨S64x50000, .i32⟩
  | .hbm, ⟨95, _⟩ => ⟨S64x50000, .i1⟩
  | .hbm, ⟨96, _⟩ => ⟨S64x50000, .bf16⟩
  | .hbm, ⟨97, _⟩ => ⟨S64x50000, .f32⟩
  | .hbm, ⟨98, _⟩ => ⟨S_, .f32⟩
  | .hbm, ⟨99, _⟩ => ⟨S64, .f32⟩
  | .hbm, ⟨100, _⟩ => ⟨S_, .i32⟩
  | .hbm, ⟨101, _⟩ => ⟨S_, .bf16⟩
  | .hbm, ⟨102, _⟩ => ⟨S64x50176, .bf16⟩
  | .hbm, ⟨103, _⟩ => ⟨S50000x128, .bf16⟩
  | .hbm, ⟨104, _⟩ => ⟨S_, .i32⟩
  | .hbm, ⟨105, _⟩ => ⟨S_, .bf16⟩
  | .hbm, ⟨106, _⟩ => ⟨S50176x128, .bf16⟩
  | .hbm, ⟨107, _⟩ => ⟨S64x128, .f32⟩
  | .hbm, ⟨108, _⟩ => ⟨S_, .f32⟩
  | .hbm, ⟨109, _⟩ => ⟨S64, .f32⟩
  | .hbm, ⟨110, _⟩ => ⟨S64, .f32⟩
  | .hbm, ⟨111, _⟩ => ⟨S64x1, .f32⟩
  | .hbm, ⟨112, _⟩ => ⟨S64x128, .f32⟩
  | .hbm, ⟨113, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S64x6272, .bf16⟩
  | .local _ .vmem, ⟨11, _⟩ => ⟨S64x6272, .bf16⟩
  | .local _ .vmem, ⟨12, _⟩ => ⟨S6272x128, .bf16⟩
  | .local _ .vmem, ⟨13, _⟩ => ⟨S6272x128, .bf16⟩
  | .local _ .vmem, ⟨14, _⟩ => ⟨S64x128, .f32⟩
  | .local _ .vmem, ⟨15, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_12 : Ref sig .tc := ⟨.hbm, 98, rfl⟩
abbrev main_v73 : Ref sig .tc := ⟨.hbm, 99, rfl⟩
abbrev main_c_13 : Ref sig .tc := ⟨.hbm, 100, rfl⟩
abbrev main_call2_v0 : Ref sig .tc := ⟨.hbm, 101, rfl⟩
abbrev main_v74 : Ref sig .tc := ⟨.hbm, 102, rfl⟩
abbrev main_v75 : Ref sig .tc := ⟨.hbm, 103, rfl⟩
abbrev main_c_14 : Ref sig .tc := ⟨.hbm, 104, rfl⟩
abbrev main_call3_v0 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S64x6272 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6272x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  bcast_S64_S64x1_0 : S64.BroadcastsInDim S64x1 (![0] : Fin 1 → Fin S64x1.rank)
  bcast_S50000_S1x50000_1 : S50000.BroadcastsInDim S1x50000 (![1] : Fin 1 → Fin S1x50000.rank)
  bcast_S1x50000_S64x50000_0_1 : S1x50000.BroadcastsInDim S64x50000 (![0, 1] : Fin 2 → Fin S64x50000.rank)
  bcast_S64x1_S64x50000_0_1 : S64x1.BroadcastsInDim S64x50000 (![0, 1] : Fin 2 → Fin S64x50000.rank)
  reducesTo_S64x50000_S64_d1 : S64x50000.ReducesTo [1] S64
  h_S_ : 0 < S_.numel
  pads_S64x50000_S64x50176_000_01760 : S64x50000.Pads (![0, 0] : Fin 2 → Nat) ![0, 176] ![0, 0] S64x50176
  pads_S50000x128_S50176x128_01760_000 : S50000x128.Pads (![0, 0] : Fin 2 → Nat) ![176, 0] ![0, 0] S50176x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x6272_S64x6272_0_0 : ∀ a, (![0, 0] : Fin 2 → Nat) a + S64x6272.size a ≤ S64x6272.size a
  h_S64x6272 : 0 < S64x6272.numel
  shapeCasts_S64x6272_S64x6272 : S64x6272.ShapeCasts S64x6272
  inb_S6272x128_S6272x128_0_0 : ∀ a, (![0, 0] : Fin 2 → Nat) a + S6272x128.size a ≤ S6272x128.size a
  h_S6272x128 : 0 < S6272x128.numel
  shapeCasts_S6272x128_S6272x128 : S6272x128.ShapeCasts S6272x128
  bcast_S_S64 : S_.BroadcastsInDim S64 (![] : Fin 0 → Fin S64.rank)
  bcast_S64x1_S64x128_0_1 : S64x1.BroadcastsInDim S64x128 (![0, 1] : Fin 2 → Fin S64x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S64x6272_S6272x128_S64x128_1_0_0_1_n_n_wf : DotDims.WF S64x6272 S6272x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x6272.size a ≤ S64x50176.size a
  hwx2_0 : ∀ i : grid2.Coords, EltTy.bits .bf16 = 32 ∨ (Rect.block (s := S64x50176) S64x6272.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6272x128.size a ≤ S50176x128.size a
  hwx2_1 : ∀ i : grid2.Coords, EltTy.bits .bf16 = 32 ∨ (Rect.block (s := S50176x128) S6272x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S64x6272_S6272x128_S64x128_1_0_0_1_n_n : DotDims S64x6272 S6272x128 S64x128 where
  lhsContracting := [1]
  rhsContracting := [0]
  lhsNonContracting := [0]
  rhsNonContracting := [1]
  lhsBatch := []
  rhsBatch := []
  wf := dot_S64x6272_S6272x128_S64x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v74) S64x6272.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S6272x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S64x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S1x800000, .i32⟩
  | 8 => ⟨S800000, .i32⟩
  | 9 => ⟨S1x800000, .i32⟩
  | 10 => ⟨S800000, .i32⟩
  | 11 => ⟨S50000x128, .f32⟩
  | 12 => ⟨S50000, .i32⟩
  | 13 => ⟨S850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x128, .f32⟩
  | 57 => ⟨S850000x1, .f32⟩
  | 58 => ⟨S850000x128, .f32⟩
  | 59 => ⟨S850000x128, .f32⟩
  | 60 => ⟨S_, .f32⟩
  | 61 => ⟨S50000x128, .f32⟩
  | 62 => ⟨S850000x1, .i32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S50000, .i32⟩
  | 72 => ⟨S850000, .i32⟩
  | 73 => ⟨S850000, .i32⟩
  | 74 => ⟨S_, .f32⟩
  | 75 => ⟨S850000, .f32⟩
  | 76 => ⟨S_, .f32⟩
  | 77 => ⟨S50000, .f32⟩
  | 78 => ⟨S850000x1, .i32⟩
  | 79 => ⟨S50000, .f32⟩
  | 80 => ⟨S_, .f32⟩
  | 81 => ⟨S50000, .f32⟩
  | 82 => ⟨S50000, .i1⟩
  | 83 => ⟨S50000, .f32⟩
  | 84 => ⟨S_, .f32⟩
  | 85 => ⟨S_, .f32⟩
  | 86 => ⟨S50000, .f32⟩
  | 87 => ⟨S50000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S_, .i32⟩
  | 98 => ⟨S850000, .i32⟩
  | 99 => ⟨S850000, .i1⟩
  | 100 => ⟨S_, .i32⟩
  | 101 => ⟨S850000, .i32⟩
  | 102 => ⟨S850000, .i32⟩
  | 103 => ⟨S850000, .i32⟩
  | 104 => ⟨S850000x1, .i32⟩
  | 105 => ⟨S850000, .f32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x128, .f32⟩
  | 116 => ⟨S850000x1, .f32⟩
  | 117 => ⟨S850000x128, .f32⟩
  | 118 => ⟨S850000x128, .f32⟩
  | 119 => ⟨S_, .f32⟩
  | 120 => ⟨S50000x128, .f32⟩
  | 121 => ⟨S850000x1, .i32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S64x128, .f32⟩
  | _ => ⟨S50000x128, .f32⟩

abbrev hbmTy0_1 (i : Nat) : BufTy := match i % 128 with
  | 0 => ⟨S50000x1, .i32⟩
  | 1 => ⟨S64x128, .f32⟩
  | 2 => ⟨S_, .f32⟩
  | 3 => ⟨S50000, .f32⟩
  | 4 => ⟨S_, .f32⟩
  | 5 => ⟨S64, .f32⟩
  | 6 => ⟨S50000x1, .i32⟩
  | 7 => ⟨S64, .f32⟩
  | 8 => ⟨S_, .f32⟩
  | 9 => ⟨S64, .f32⟩
  | 10 => ⟨S64, .f32⟩
  | 11 => ⟨S64x1, .f32⟩
  | 12 => ⟨S64x128, .f32⟩
  | 13 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_c_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_15 : Ref sig .tc := ⟨.hbm, 97, rfl⟩
abbrev main_v67 : Ref sig .tc := ⟨.hbm, 98, rfl⟩
abbrev main_v68 : Ref sig .tc := ⟨.hbm, 99, rfl⟩
abbrev main_c_16 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_17 : Ref sig .tc := ⟨.hbm, 107, rfl⟩
abbrev main_v75 : Ref sig .tc := ⟨.hbm, 108, rfl⟩
abbrev main_v76 : Ref sig .tc := ⟨.hbm, 109, rfl⟩
abbrev main_c_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_21 : Ref sig .tc := ⟨.hbm, 130, rfl⟩
abbrev main_v94 : Ref sig .tc := ⟨.hbm, 131, rfl⟩
abbrev main_cst_22 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_23 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.K.LinDefs.lean ====
/- The proof data of the two projection regions (x · W₁ and h · W₂, one row tile of 5000 rows per grid point), stated at
   the buffer contents `V` the region is entered with: a window's block at a point, what the body leaves in the
   output tile (the product of the row tile with the whole weight matrix), and the pipeline record built from them. -/
import proofs.«429279_j53317724013285_2_alg».proof.Proof.Gen.Kernel.Launch
import proofs.«429279_j53317724013285_2_alg».proof.Proof.Gen.Kernel.Skeleton
import proofs.«429279_j53317724013285_2_alg».proof.Proof.Gen.Kernel.Points
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0: x · W₁ -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000×128 tile and the whole 128×128 matrix, as the body's loads and its one store address them. -/
abbrev rT0 : Rect S5000x128 := Rect.unit (s := S5000x128) ![0, 0] S5000x128.size inb_S5000x128_S5000x128_0_0
abbrev rW0 : Rect S128x128 := Rect.unit (s := S128x128) ![0, 0] S128x128.size inb_S128x128_S128x128_0_0

/-- The output tile after the body: its one store, the product of the row tile `x0` with the matrix `x1`. -/
def out0_2 (x0 : Vec F S5000x128 .f32) (x1 : Vec F S128x128 .f32) : Vec F S5000x128 .f32 :=
  View.canon [⟨rT0, k0_pay1 (View.ld x0 rT0) (View.ld x1 rW0)⟩]

/-- Region 0's proof data on core `c`: the arrays as entered; after the body each input's buffer at its block and the
    output's at the product of the two; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: h · W₂ -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output tile after the body of region 1: the product of the row tile with the matrix. -/
def out1_2 (x0 : Vec F S5000x128 .f32) (x1 : Vec F S128x128 .f32) : Vec F S5000x128 .f32 :=
  View.canon [⟨rT0, k1_pay1 (View.ld x0 rT0) (View.ld x1 rW0)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Cert.Kernel.Hand

end
-- ==== Proof.K.PoolDefs.lean ====
/- The proof data of the pooling region: the 64 × 50176 graph-membership matrix times the 50176 × 128 node features,
   contracted 6272 columns per grid point into a 64 × 128 accumulator the kernel keeps in scratch between points — zeroed
   at the first point, added to at every point, copied to the output block at the last. Stated at the buffer contents
   `V` the region is entered with. -/
import proofs.«429279_j53317724013285_2_alg».proof.Proof.Gen.Kernel.Launch
import proofs.«429279_j53317724013285_2_alg».proof.Proof.Gen.Kernel.Skeleton
import proofs.«429279_j53317724013285_2_alg».proof.Proof.Gen.Kernel.Points
import Idealize.ShloMosaic.Lib.Pipeline.FrameBody
import Idealize.ShloMosaic.Lib.Pipeline.Frame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator: the kernel's scratch operand, a whole scoped buffer of its own. -/
abbrev scM2 : Memref sig .tc .vmem S64x128 .f32 := Memref.whole cc2_scratch0

/-- THE ACCUMULATION: what the scratch holds after the body at position `n` — the first point adds its block product
    to the zero it has just stored, every later point adds its own to what the point before left. -/
def acc2 (c : Dev nD) : (n : ℕ) → n < cfg2.N → Vec F S64x128 .f32
  | 0, hn => k2_pay2 (k2_pay1 (F := F)) (iblk2 V c 0 ⟨0, hn⟩) (iblk2 V c 1 ⟨0, hn⟩)
  | n + 1, hn => k2_pay2 (acc2 c n (Nat.lt_of_succ_lt hn)) (iblk2 V c 0 ⟨n + 1, hn⟩) (iblk2 V c 1 ⟨n + 1, hn⟩)

theorem acc2_zero (c : Dev nD) (hn : 0 < cfg2.N) :
    acc2 V c 0 hn = k2_pay2 (k2_pay1 (F := F)) (iblk2 V c 0 ⟨0, hn⟩) (iblk2 V c 1 ⟨0, hn⟩) := rfl
theorem acc2_succ (c : Dev nD) (n : ℕ) (hn : n + 1 < cfg2.N) :
    acc2 V c (n + 1) hn = k2_pay2 (acc2 V c n (Nat.lt_of_succ_lt hn)) (iblk2 V c 0 ⟨n + 1, hn⟩) (iblk2 V c 1 ⟨n + 1, hn⟩) := rfl

/-- The scoped buffers of the core that are neither a staging buffer of this region nor its accumulator (the other two
    regions' staging buffers), each whole at some contents. -/
def restS2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region invariant before position `n`: before the first point the scoped rest at anything and the generator
    register; afterwards the same with the accumulator at what the point before left in it. -/
def PhiS2 (c : Dev nD) : (n : ℕ) → n ≤ cfg2.N → sProp 𝕄
  | 0, _ => Pipeline.ΦA spec2 c
  | n + 1, hn => iprop(restS2 (F := F) c ∗ owns (c : Thread nD τ) scM2 fullShare (acc2 V c n hn) ∗ (∃ r, prngReg c r))

/-- The pooling region's proof data on core `c`: the arrays as entered; after the body each input's buffer at its
    block and the output's at the accumulator (consulted at the last point only: elsewhere the window is idle and not
    written back); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

end Cert.Kernel.Hand

end
-- ==== Proof.K.Lin.lean ====
/- The bodies of the two projection regions (x · W₁ and h · W₂). At each of the ten grid points the body finds the
   point's 5000-row tile in the first window's buffer and the whole 128×128 weight matrix in the second's (the matrix is
   brought in at the first point only; its block index never moves, so the buffer still holds it at the later points),
   and overwrites the whole output tile with the product of the two. Per region: what each input buffer holds when the
   body starts, that the single whole-tile store covers the output tile, the body's triple over arbitrary whole
   buffers, and from these the obligation the pipeline asks of the body at a generic point. -/
import proofs.«429279_j53317724013285_2_alg».proof.Proof.Gen.Kernel.Launch
import proofs.«429279_j53317724013285_2_alg».proof.Proof.Gen.Kernel.Skeleton
import proofs.«429279_j53317724013285_2_alg».proof.Proof.Gen.Kernel.Points
import Idealize.ShloMosaic.Lib.Pipeline.FrameBody
import Idealize.ShloMosaic.Lib.Pipeline.Frame
import proofs.«429279_j53317724013285_2_alg».proof.Proof.K.LinDefs
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0: x · W₁ -/

/-! ### What the body finds in the input buffers -/

/-- The row tile's buffer holds the point's tile at every point: it is brought in at every point, and the body leaves
    it as it found it. Stated for any proof data whose array is the entry contents and whose body keeps the tile. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The matrix's buffer holds the matrix at every point, though it is brought in at the first point only: at a later
    point its block index is the previous point's, the body left the buffer as it found it, and the previous point's
    block is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ### The one store covers the output tile -/

/-- The body's single store is of the whole 5000×128 tile, so every index of the tile lies in it. -/
theorem cover0_2 (p0 : Vec F S5000x128 .f32) (y : S5000x128.Idx) :
    ∃ pc ∈ ([⟨rT0, p0⟩] : List (View.Piece (Elt F) S5000x128 .f32)), y ∈ pc.1.set :=
  View.cover_of_tiled [⟨rT0, p0⟩] S5000x128.size (by rfl) y

/-! ### The body's triple -/

set_option maxHeartbeats 1000000 in
/-- The body on three whole buffers — the tile's reading `x0`, the matrix's reading `x1`, the output's holding
    anything — runs to the continuation with the two inputs as they were and the output reading the product
    `out0_2 x0 x1`. It loads the tile and the matrix, loads the output buffer too (a value it never uses), and
    stores the product over the whole output tile; what is read back after a covering store is the store's payload. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ### The obligation at a generic point -/

/-- What the body is handed at point `t`: the invariant, the core's debts, and the three windows' current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold the point's tile and the matrix, so the triple applies at those
    two; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body of region 0, at every point. -/
theorem body_obligation0 (c : Dev nD) : BodyObligation (dat0 (F := F) V c) (defs₀ (F := F)) Variants.none () Set.univ := fun t => by
  rw [bigSep_W0, bigSep_W0]
  exact sound_body0 V c t

/-! ## Region 1: h · W₂ -/

/-! ### What the body finds in the input buffers -/

/-- The row tile's buffer holds the point's tile at every point: it is brought in at every point, and the body leaves
    it as it found it. Stated for any proof data whose array is the entry contents and whose body keeps the tile. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The matrix's buffer holds the matrix at every point, though it is brought in at the first point only: at a later
    point its block index is the previous point's, the body left the buffer as it found it, and the previous point's
    block is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

/-! ### The one store covers the output tile -/

/-- The body's single store is of the whole 5000×128 tile, so every index of the tile lies in it. -/
theorem cover1_2 (p0 : Vec F S5000x128 .f32) (y : S5000x128.Idx) :
    ∃ pc ∈ ([⟨rT0, p0⟩] : List (View.Piece (Elt F) S5000x128 .f32)), y ∈ pc.1.set :=
  View.cover_of_tiled [⟨rT0, p0⟩] S5000x128.size (by rfl) y

/-! ### The body's triple -/

set_option maxHeartbeats 1000000 in
/-- The body on three whole buffers — the tile's reading `x0`, the matrix's reading `x1`, the output's holding
    anything — runs to the continuation with the two inputs as they were and the output reading the product
    `out1_2 x0 x1`. It loads the tile and the matrix, loads the output buffer too (a value it never uses), and
    stores the product over the whole output tile; what is read back after a covering store is the store's payload. -/
theorem sound_kernel1 (c : Dev nD) (E : Set ℕ) (i : grid1.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ### The obligation at a generic point -/

/-- What the body is handed at point `t`: the invariant, the core's debts, and the three windows' current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold the point's tile and the matrix, so the triple applies at those
    two; the invariant and the debts are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Pool.lean ====
/- The body obligation of the pooling region. At every grid point the kernel adds the product of the point's 64 × 6272 block
   of the membership matrix and its 6272 × 128 block of the features to a 64 × 128 accumulator it keeps in scratch; the first
   point zeroes the accumulator before adding, the last copies it to the output block. Three control cases follow, and in
   each the body's run is stated over arbitrary whole memrefs: the inputs are left as found, the accumulator ends at the sum
   the case computes, the output is left as found (first and middle points) or ends at the accumulator (last point). The
   region invariant carries the accumulator from point to point at the value `acc2` names. -/
import proofs.«429279_j53317724013285_2_alg».proof.Proof.Gen.Kernel.Launch
import proofs.«429279_j53317724013285_2_alg».proof.Proof.Gen.Kernel.Skeleton
import proofs.«429279_j53317724013285_2_alg».proof.Proof.Gen.Kernel.Points
import proofs.«429279_j53317724013285_2_alg».proof.Proof.K.PoolDefs
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## The body's two conditions over the grid -/

/-- The first condition of the body: the grid coordinate is 0. -/
abbrev cond2_0 (i : grid2.Coords) : Prop :=
  (Scalar.cmpi .ne (Scalar.extui (Scalar.cmpi .eq (BitVec.ofNat 32 (i 0).val) 0#32)) 0#32) = 1#1
/-- It holds at the first of the eight points only. -/
theorem hcond2_0 : ∀ t : Fin cfg2.N, cond2_0 (grid2.coords t) ↔ t.val % 8 = 0 :=
  (by decide +kernel : ∀ t : Fin grid2.N, cond2_0 (grid2.coords t) ↔ t.val % 8 = 0)

/-- The second condition of the body: the grid coordinate is 7. -/
abbrev cond2_1 (i : grid2.Coords) : Prop := k2_cond2 i = 1#1
/-- It holds at the last of the eight points only. -/
theorem hcond2_1 : ∀ t : Fin cfg2.N, cond2_1 (grid2.coords t) ↔ t.val % 8 = 7 :=
  (by decide +kernel : ∀ t : Fin grid2.N, cond2_1 (grid2.coords t) ↔ t.val % 8 = 7)

/-- The two input windows are live at every point. -/
theorem liveAt2_0 : ∀ t : Fin cfg2.N, cfg2.idle 0 (grid2.coords t) = false := by decide +kernel
theorem liveAt2_1 : ∀ t : Fin cfg2.N, cfg2.idle 1 (grid2.coords t) = false := by decide +kernel
/-- The output window is idle wherever the second condition fails, and is not written back there; -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- it is live where the condition holds. -/
theorem liveAt2_2 : ∀ t : Fin cfg2.N, cond2_1 (grid2.coords t) → cfg2.idle 2 (grid2.coords t) = false := by decide +kernel

/-! ## The staging memrefs at a point -/

/-- Each window's current staging memref at point `t`, and its wholeness. -/
abbrev ms2_0 (t : Fin cfg2.N) : Memref sig .tc .vmem S64x6272 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S6272x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x128 .f32 := win2_2.stage (cfg2.slots t 2)
abbrev hs2_2 (t : Fin cfg2.N) : (ms2_2 t).IsWhole := hstage2_2 ((cfg2.slots t 2).cast nbuf2_2)

/-! ## The invariant -/

/-- What the launch hands the region: the ten other scoped buffers at anything, the accumulator at anything, the
    generator register at some state. The scoped rest lists the accumulator last; `∗` is associative. -/
theorem PhiA2_eq (c : Dev nD) :
    (Pipeline.ΦA spec2 c : sProp 𝕄)
      = iprop(restS2 (F := F) c ∗ (∃ d, owns (c : Thread nD τ) scM2 fullShare d) ∗ (∃ r, prngReg c r)) := by
  have assoc : ∀ P Q R' : sProp 𝕄, iprop((P ∗ Q) ∗ R') = iprop(P ∗ Q ∗ R') :=
    fun _ _ _ => Idealize.SL.BI.Entails.antisymm Idealize.SL.BI.sep_assoc Idealize.SL.BI.sep_assoc'
  unfold Pipeline.ΦA restS2; rw [scopedRest2_eq]
  -- both sides are now the same right-nested chain, up to the spelling of the accumulator's contents type
  simp only [scM2, owns_whole, assoc]
  rfl

theorem PhiS2_zero (c : Dev nD) (n : ℕ) (h : n ≤ cfg2.N) (hz : n = 0) : PhiS2 V c n h = Pipeline.ΦA spec2 c := by
  subst hz; rfl

/-- After point `n`: the accumulator at what that point left. -/
theorem PhiS2_succ (c : Dev nD) (n : ℕ) (hn : n < cfg2.N) :
    PhiS2 V c (n + 1) hn
      = iprop(restS2 (F := F) c ∗ owns (c : Thread nD τ) scM2 fullShare (acc2 V c n hn) ∗ (∃ r, prngReg c r)) := rfl

/-- Before a point that is not the first: the accumulator at what the point before left. -/
theorem PhiS2_pos (c : Dev nD) (n : ℕ) (h : n ≤ cfg2.N) (hz : n ≠ 0) :
    PhiS2 V c n h
      = iprop(restS2 (F := F) c ∗ owns (c : Thread nD τ) scM2 fullShare (acc2 V c (n - 1) (by omega)) ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## The accumulation, point by point -/

/-- At the first point the accumulator ends at zero plus the point's block product. -/
theorem acc2_first (c : Dev nD) (t : Fin cfg2.N) (h0 : t.val = 0) :
    acc2 V c t.val t.isLt = k2_pay2 (k2_pay1 (F := F)) (iblk2 V c 0 t) (iblk2 V c 1 t) := by
  obtain ⟨n, hn⟩ := t
  cases n with
  | zero => exact acc2_zero V c hn
  | succ n => exact absurd h0 (Nat.succ_ne_zero n)

/-- At a later point it ends at what the point before left plus the point's block product. -/
theorem acc2_later (c : Dev nD) (t : Fin cfg2.N) (h0 : t.val ≠ 0) :
    acc2 V c t.val t.isLt
      = k2_pay2 (acc2 V c (t.val - 1) (Nat.lt_of_le_of_lt (Nat.sub_le _ _) t.isLt)) (iblk2 V c 0 t) (iblk2 V c 1 t) := by
  obtain ⟨n, hn⟩ := t
  cases n with
  | zero => exact absurd rfl h0
  | succ n => exact acc2_succ V c n hn

/-! ## What the inputs' staging buffers hold -/

/-- Each input's current staging buffer holds its block at every point, fetched there or not: the body leaves the block in
    place and an unfetched window's block index has not moved. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## A whole store read back -/

/-- The offsets of every access of the body are zero. -/
theorem pool_off0 : (![0, 0] : Fin 2 → ℕ) = fun _ => 0 := funext fun a => by fin_cases a <;> rfl

/-- A store through the whole 64 × 128 rectangle covers every index, whatever was stored before it. -/
theorem pool_cover_cons (inb : ∀ a, (![0, 0] : Fin 2 → ℕ) a + S64x128.size a ≤ S64x128.size a)
    (w : S64x128.Idx → Elt F .f32) (L : List (View.Piece (Elt F) S64x128 .f32)) (y : S64x128.Idx) :
    ∃ pc ∈ ((⟨Rect.unit (s := S64x128) ![0, 0] S64x128.size inb, w⟩ : View.Piece (Elt F) S64x128 .f32) :: L), y ∈ pc.1.set :=
  ⟨⟨Rect.unit (s := S64x128) ![0, 0] S64x128.size inb, w⟩, List.mem_cons.mpr (Or.inl rfl), View.mem_set_unit_zero pool_off0 inb y⟩

/-- So a buffer whose last store went through the whole rectangle reads as that store's value. -/
theorem pool_read_store_whole {κ : Kind} {sp : Space} (v : View sig κ sp S64x128 .f32) (f : v.ty.Contents (Elt F))
    (inb : ∀ a, (![0, 0] : Fin 2 → ℕ) a + S64x128.size a ≤ S64x128.size a)
    (w : S64x128.Idx → Elt F .f32) (L : List (View.Piece (Elt F) S64x128 .f32)) :
    v.read (Elt F) (v.writes (Elt F) f ((⟨Rect.unit (s := S64x128) ![0, 0] S64x128.size inb, w⟩ : View.Piece (Elt F) S64x128 .f32) :: L)) = w := by
  rw [View.read_writes_eq_canon _ _ _ (pool_cover_cons inb w L), View.canon_cons_unit_zero pool_off0]

/-! ## The body's run, case by case -/

set_option maxHeartbeats 1000000 in
/-- THE FIRST POINT (first condition holds, second fails): on whole memrefs, the inputs at `x0`, `x1`, the output at `xi`, the
    accumulator at anything, the body zeroes the accumulator, reads it back, adds the block product and stores the sum: it
    ends with the inputs and the output as found and the accumulator at zero plus the product. -/
theorem pool_run_first (c : Dev nD) (i : grid2.Coords)
    (arg1 : Memref sig .tc .vmem S64x6272 .bf16) (harg1 : arg1.IsWhole)
    (arg2 : Memref sig .tc .vmem S6272x128 .bf16) (harg2 : arg2.IsWhole)
    (arg3 : Memref sig .tc .vmem S64x128 .f32) (harg3 : arg3.IsWhole)
    (arg4 : Memref sig .tc .vmem S64x128 .f32) (harg4 : arg4.IsWhole)
    (hc0 : cond2_0 i) (hc1 : ¬cond2_1 i)
    (x0 : Vec F S64x6272 .bf16) (x1 : Vec F S6272x128 .bf16) (xi : Vec F S64x128 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi
            ∗ owns (c : Thread nD τ) arg4 fullShare (k2_pay2 (k2_pay1 (F := F)) x0 x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_run_names
  simp only [View.readAt_eq_ld, harg1.read_unread, harg2.read_unread,
    View.ld_unit_zero (S := S64x128) pool_off0, View.ld_unit_zero (S := S64x6272) pool_off0, View.ld_unit_zero (S := S6272x128) pool_off0,
    View.readCov_unit_zero (S := S64x128) _ pool_off0]
  exact pool_read_store_whole _ _ _ _ _

set_option maxHeartbeats 1000000 in
/-- A MIDDLE POINT (both conditions fail): the accumulator at `s`; the body adds the block product to it and stores the sum: it
    ends with the inputs and the output as found and the accumulator at `s` plus the product. -/
theorem pool_run_mid (c : Dev nD) (i : grid2.Coords)
    (arg1 : Memref sig .tc .vmem S64x6272 .bf16) (harg1 : arg1.IsWhole)
    (arg2 : Memref sig .tc .vmem S6272x128 .bf16) (harg2 : arg2.IsWhole)
    (arg3 : Memref sig .tc .vmem S64x128 .f32) (harg3 : arg3.IsWhole)
    (arg4 : Memref sig .tc .vmem S64x128 .f32) (harg4 : arg4.IsWhole)
    (hc0 : ¬cond2_0 i) (hc1 : ¬cond2_1 i)
    (x0 : Vec F S64x6272 .bf16) (x1 : Vec F S6272x128 .bf16) (xi : Vec F S64x128 .f32) (s : Vec F S64x128 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare s
        ∗ (iprop(owns (c : Thread nD τ) arg1 fullShare x0 ∗ owns (c : Thread nD τ) arg2 fullShare x1
            ∗ owns (c : Thread nD τ) arg3 fullShare xi
            ∗ owns (c : Thread nD τ) arg4 fullShare (k2_pay2 s x0 x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1
  obtain rfl := harg3.eq_unread hf2; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_run_names
  simp only [View.readAt_eq_ld, harg1.read_unread, harg2.read_unread, harg4.read_unread,
    View.ld_unit_zero (S := S64x128) pool_off0, View.ld_unit_zero (S := S64x6272) pool_off0, View.ld_unit_zero (S := S6272x128) pool_off0,
    View.readCov_unit_zero (S := S64x128) _ pool_off0]
  exact pool_read_store_whole _ _ _ _ _

set_option maxHeartbeats 1000000 in
/-- THE LAST POINT (first condition fails, second holds): the accumulator at `s`, the output at anything; the body adds the
    block product, stores the sum, reads it back and stores it into the output: it ends with the inputs as found and both the
    accumulator and the output at `s` plus the product. -/
theorem pool_run_last (c : Dev nD) (i : grid2.Coords)
    (arg1 : Memref sig .tc .vmem S64x6272 .bf16) (harg1 : arg1.IsWhole)
    (arg2 : Memref sig .tc .vmem S6272x128 .bf16) (harg2 : arg2.IsWhole)
    (arg3 : Memref sig .tc .vmem S64x128 .f32) (harg3 : arg3.IsWhole)
    (arg4 : Memref sig .tc .vmem S64x128 .f32) (harg4 : arg4.IsWhole)
    (hc0 : ¬cond2_0 i) (hc1 : cond2_1 i)
    (x0 : Vec F S64x6272 .bf16) (x1 : Vec F S6272x128 .bf16) (s : Vec F S64x128 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare s
        ∗ (iprop(owns (c : Thread nD τ) arg1 fullShare x0 ∗ owns (c : Thread nD τ) arg2 fullShare x1
            ∗ owns (c : Thread nD τ) arg3 fullShare (k2_pay2 s x0 x1)
            ∗ owns (c : Thread nD τ) arg4 fullShare (k2_pay2 s x0 x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    simp only [View.readAt_eq_ld, harg1.read_unread, harg2.read_unread, harg4.read_unread,
      View.ld_unit_zero (S := S64x128) pool_off0, View.ld_unit_zero (S := S64x6272) pool_off0, View.ld_unit_zero (S := S6272x128) pool_off0,
      View.readCov_unit_zero (S := S64x128) _ pool_off0]
    exact pool_read_store_whole _ _ _ _ _
  iexists _; isplitr
  swap; · iexact HS
  ipureintro
  sl_unfold_run_names
  simp only [View.readAt_eq_ld, harg1.read_unread, harg2.read_unread, harg4.read_unread,
    View.ld_unit_zero (S := S64x128) pool_off0, View.ld_unit_zero (S := S64x6272) pool_off0, View.ld_unit_zero (S := S6272x128) pool_off0,
    View.readCov_unit_zero (S := S64x128) _ pool_off0]
  exact pool_read_store_whole _ _ _ _ _

/-! ## The body obligation, at a generic point -/

/-- What the body is called with at point `t`: the invariant, what the core owes, each window's current buffer, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the conditions' closed forms say which of the three cases the
    point is in. At the first point the invariant hands over the accumulator at anything, afterwards at what the point before
    left; the case's run returns it at this point's value of the accumulation, which the invariant takes back. The output's
    buffer is handed back untouched at the points that do not write it back, and at the last point holds the accumulator. The
    core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 8 := lt_of_lt_of_eq t.isLt (show cfg2.N = 8 from N_2)
  by_cases h0 : t.val % 8 = 0
  · -- the first point
    have hz : t.val = 0 := by omega
    have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1)]
    rw [acc2_first V c t hz]
    rw [PhiS2_castSucc V c t, PhiS2_zero V c _ _ hz, PhiA2_eq]
    iintro ⟨⟨HR, HS, Hg⟩, Ho, ⟨%d0, H0⟩, ⟨%d1, H1⟩, ⟨%d2, H2⟩⟩
    iapply (pool_run_first c (grid2.coords t) (ms2_0 t) (hs2_0 t) (ms2_1 t) (hs2_1 t) (ms2_2 t) (hs2_2 t) scM2 (Memref.isWhole_whole _)
      hc0 hc1 (iblk2 V c 0 t) (iblk2 V c 1 t) ((dat2 V c).before 2 t d2) Set.univ _)
    isplitl [H0]; · iexact H0
    isplitl [H1]; · iexact H1
    isplitl [H2]; · iexact H2
    isplitl [HS]; · iexact HS
    iintro ⟨H0, H1, H2, HS⟩
    isplitl [HR HS Hg]
    · isplitl [HR]; · iexact HR
      isplitl [HS]; · iexact HS
      iexact Hg
    isplitl [Ho]; · iexact Ho
    isplitl [H0]; · iexact H0
    isplitl [H1]; · iexact H1
    iexists _; iexact H2
  · have hz : t.val ≠ 0 := by omega
    have hc0 : ¬cond2_0 (grid2.coords t) := fun h => h0 ((hcond2_0 t).mp h)
    by_cases h1 : t.val % 8 = 7
    · -- the last point
      have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2]
      rw [acc2_later V c t hz]
      rw [PhiS2_castSucc V c t, PhiS2_pos V c _ _ hz]
      iintro ⟨⟨HR, HS, Hg⟩, Ho, ⟨%d0, H0⟩, ⟨%d1, H1⟩, ⟨%d2, H2⟩⟩
      iapply (pool_run_last c (grid2.coords t) (ms2_0 t) (hs2_0 t) (ms2_1 t) (hs2_1 t) (ms2_2 t) (hs2_2 t) scM2 (Memref.isWhole_whole _)
        hc0 hc1 (iblk2 V c 0 t) (iblk2 V c 1 t) (acc2 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexact H2
    · -- a middle point
      have hc1 : ¬cond2_1 (grid2.coords t) := fun h => h1 ((hcond2_1 t).mp h)
      rw [Dat.leavesExact_idle (dat2 V c) 2 t (idleAt2_2 t hc1) (noFlush2_2 t hc1)]
      rw [acc2_later V c t hz]
      rw [PhiS2_castSucc V c t, PhiS2_pos V c _ _ hz]
      iintro ⟨⟨HR, HS, Hg⟩, Ho, ⟨%d0, H0⟩, ⟨%d1, H1⟩, ⟨%d2, H2⟩⟩
      iapply (pool_run_mid c (grid2.coords t) (ms2_0 t) (hs2_0 t) (ms2_1 t) (hs2_1 t) (ms2_2 t) (hs2_2 t) scM2 (Memref.isWhole_whole _)
        hc0 hc1 (iblk2 V c 0 t) (iblk2 V c 1 t) ((dat2 V c).before 2 t d2)
        (acc2 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2

/-- The body obligation of the pooling region, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's value is forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨HR, HS, Hg⟩
  isplitl [HR]; · iexact HR
  isplitl [HS]; · iexists _; iexact HS
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 8 := N_2; omega)

end Cert.Kernel.Hand

end
-- ==== Proof.K.Run.lean ====
/- The kernel program's run, assembled: what each kernel region leaves in its output array (the array its write-backs
   fold into), the proof-data family of the three regions at their entry contents, each region as a segment of @main
   between the host stretches, and the launch — every execution terminates with each unscoped buffer at the last
   valuation. -/
import proofs.«429279_j53317724013285_2_alg».proof.Proof.K.RunCond
import proofs.«429279_j53317724013285_2_alg».proof.Proof.K.LinDefs
import proofs.«429279_j53317724013285_2_alg».proof.Proof.K.PoolDefs
import proofs.«429279_j53317724013285_2_alg».proof.Proof.K.Lin
import proofs.«429279_j53317724013285_2_alg».proof.Proof.K.Pool
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave, region by region -/

/-- Region 0's entry contents, read at the TensorCore's references. -/
abbrev En0 : (c : Dev nD) → (b : Ref sig .tc) → Buf (Elt F) ((c : Thread nD τ).loc b) := fun c b => V3 m c b

/-- What region 0 leaves in `main_v30`: the array its ten write-backs fold into. -/
def o4 (c : Dev nD) : Buf (Elt F) ((c : Thread nD τ).loc main_v30) := (dat0 (En0 m) c).arrAt 2 cfg0.N

/-- The regions' results when only region 0's is known. -/
def outs4 : Outs (F := F) := fun _ r c => Function.update (V3 m c) main_v30 (o4 m c) r

/-- Region 1's entry contents. -/
abbrev En1 : (c : Dev nD) → (b : Ref sig .tc) → Buf (Elt F) ((c : Thread nD τ).loc b) := fun c b => V6 m (outs4 m) c b

/-- What region 1 leaves in `main_v48`. -/
def o7 (c : Dev nD) : Buf (Elt F) ((c : Thread nD τ).loc main_v48) := (dat1 (En1 m) c).arrAt 2 cfg1.N

/-- The regions' results when regions 0's and 1's are known. -/
def outs7 : Outs (F := F) := fun J r c =>
  match J with
  | 4 => outs4 m 4 r c
  | _ => Function.update (V6 m (outs4 m) c) main_v48 (o7 m c) r

/-- Region 2's entry contents. -/
abbrev En2 : (c : Dev nD) → (b : Ref sig .tc) → Buf (Elt F) ((c : Thread nD τ).loc b) := fun c b => V11 m (outs7 m) c b

/-- What region 2 leaves in `main_v77`. -/
def o12 (c : Dev nD) : Buf (Elt F) ((c : Thread nD τ).loc main_v77) := (dat2 (En2 m) c).arrAt 2 cfg2.N

/-- What the three regions leave, by the item after which it is read. -/
def outs : Outs (F := F) := fun J r c =>
  match J with
  | 4 => outs4 m 4 r c
  | 7 => outs7 m 7 r c
  | _ => Function.update (V11 m (outs7 m) c) main_v77 (o12 m c) r

theorem outs_4 (c : Dev nD) : outs m 4 main_v30 c = o4 m c := by
  show Function.update (V3 m c) main_v30 (o4 m c) main_v30 = _
  exact Function.update_self ..
theorem outs_7 (c : Dev nD) : outs m 7 main_v48 c = o7 m c := by
  show Function.update (V6 m (outs4 m) c) main_v48 (o7 m c) main_v48 = _
  exact Function.update_self ..
theorem outs_12 (c : Dev nD) : outs m 12 main_v77 c = o12 m c := by
  show Function.update (V11 m (outs7 m) c) main_v77 (o12 m c) main_v77 = _
  exact Function.update_self ..

/-- Up to region 1's entry only region 0's result is read, -/
theorem V6_outs (c : Dev nD) : V6 m (outs m) c = V6 m (outs4 m) c := by
  show StableHlo.after hostOps1_1 (StableHlo.after hostOps1 (Function.update (V3 m c) main_v30 (outs m 4 main_v30 c)))
    = StableHlo.after hostOps1_1 (StableHlo.after hostOps1 (Function.update (V3 m c) main_v30 (outs4 m 4 main_v30 c)))
  rw [outs_4]; rfl
/-- and up to region 2's entry only regions 0's and 1's. -/
theorem V11_outs (c : Dev nD) : V11 m (outs m) c = V11 m (outs7 m) c := by
  show StableHlo.after hostOps2_3 (StableHlo.after hostOps2_2 (StableHlo.after hostOps2_1 (StableHlo.after hostOps2 (Function.update (V6 m (outs m) c) main_v48 (outs m 7 main_v48 c)))))
    = StableHlo.after hostOps2_3 (StableHlo.after hostOps2_2 (StableHlo.after hostOps2_1 (StableHlo.after hostOps2 (Function.update (V6 m (outs7 m) c) main_v48 (outs7 m 7 main_v48 c)))))
  rw [outs_7, V6_outs]; rfl

/-- Each region's exit contents, read at the TensorCore's references. -/
abbrev Ex0 : (c : Dev nD) → (b : Ref sig .tc) → Buf (Elt F) ((c : Thread nD τ).loc b) := fun c b => V4 m (outs m) c b
abbrev Ex1 : (c : Dev nD) → (b : Ref sig .tc) → Buf (Elt F) ((c : Thread nD τ).loc b) := fun c b => V7 m (outs m) c b
abbrev Ex2 : (c : Dev nD) → (b : Ref sig .tc) → Buf (Elt F) ((c : Thread nD τ).loc b) := fun c b => V12 m (outs m) c b

/-! ## The proof data family -/

/-- Every region's proof data, each at its region's entry contents — a literal match on the pipeline index. -/
def pdats : (p : Fin 3) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c

/-- No core owes another anything: no level is assigned. -/
abbrev L0 : GSem nD τ sig → Finset Unit := fun _ => ∅
abbrev lv0 : GSem nD τ sig → Unit → ℕ := fun _ _ => 0
/-- What rides beside the buffers through every segment: the core's generator register at some state and its
    `owes`, at nothing. -/
abbrev R0 (c : Dev nD) : sProp 𝕄 := iprop((∃ r, prngReg c r) ∗ ∃ W, owes (c : Thread nD τ) (0 : CellTallies nD τ sig Unit) W)

/-! ## Each region's arrays at its exit: the outputs at what the write-backs leave, every other buffer as entered -/

theorem hF0 (c : Dev nD) (w : Fin cfg0.W) : (pdats m 0 c).arrAt w cfg0.N = Ex0 m c (Pipeline.arrRef spec0 w) := by
  match w with
  | ⟨0, _⟩ =>
    refine ((pdats m 0 c).arrAt_in 0 rfl _).trans ?_
    show V3 m c main_arg0 = V4 m (outs m) c main_arg0
    rw [V4_of m (outs m) c main_arg0 (by decide)]
  | ⟨1, _⟩ =>
    refine ((pdats m 0 c).arrAt_in 1 rfl _).trans ?_
    show V3 m c main_arg3 = V4 m (outs m) c main_arg3
    rw [V4_of m (outs m) c main_arg3 (by decide)]
  | ⟨2, _⟩ =>
    show o4 m c = Function.update (V3 m c) main_v30 (outs m 4 main_v30 c) main_v30
    rw [Function.update_self]; exact (outs_4 m c).symm
theorem hrest0 (c : Dev nD) : ∀ b, b ∉ Finset.univ.image (Pipeline.arrRef spec0) → Ex0 m c b = En0 m c b :=
  fun b hb => V4_of m (outs m) c b (fun h => hb (Finset.mem_image.mpr ⟨2, Finset.mem_univ _, (List.mem_singleton.mp h).symm⟩))

theorem hF1 (c : Dev nD) (w : Fin cfg1.W) : (pdats m 1 c).arrAt w cfg1.N = Ex1 m c (Pipeline.arrRef spec1 w) := by
  match w with
  | ⟨0, _⟩ =>
    refine ((pdats m 1 c).arrAt_in 0 rfl _).trans ?_
    show V6 m (outs4 m) c main_v47 = V7 m (outs m) c main_v47
    rw [V7_of m (outs m) c main_v47 (by decide), V6_outs]
  | ⟨1, _⟩ =>
    refine ((pdats m 1 c).arrAt_in 1 rfl _).trans ?_
    show V6 m (outs4 m) c main_arg5 = V7 m (outs m) c main_arg5
    rw [V7_of m (outs m) c main_arg5 (by decide), V6_outs]
  | ⟨2, _⟩ =>
    show o7 m c = Function.update (V6 m (outs m) c) main_v48 (outs m 7 main_v48 c) main_v48
    rw [Function.update_self]; exact (outs_7 m c).symm
theorem hrest1 (c : Dev nD) : ∀ b, b ∉ Finset.univ.image (Pipeline.arrRef spec1) → Ex1 m c b = En1 m c b :=
  fun b hb => by
    show V7 m (outs m) c b = V6 m (outs4 m) c b
    rw [V7_of m (outs m) c b (fun h => hb (Finset.mem_image.mpr ⟨2, Finset.mem_univ _, (List.mem_singleton.mp h).symm⟩)), V6_outs]

theorem hF2 (c : Dev nD) (w : Fin cfg2.W) : (pdats m 2 c).arrAt w cfg2.N = Ex2 m c (Pipeline.arrRef spec2 w) := by
  match w with
  | ⟨0, _⟩ =>
    refine ((pdats m 2 c).arrAt_in 0 rfl _).trans ?_
    show V11 m (outs7 m) c main_v74 = V12 m (outs m) c main_v74
    rw [V12_of m (outs m) c main_v74 (by decide), V11_outs]
  | ⟨1, _⟩ =>
    refine ((pdats m 2 c).arrAt_in 1 rfl _).trans ?_
    show V11 m (outs7 m) c main_v76 = V12 m (outs m) c main_v76
    rw [V12_of m (outs m) c main_v76 (by decide), V11_outs]
  | ⟨2, _⟩ =>
    show o12 m c = Function.update (V11 m (outs m) c) main_v77 (outs m 12 main_v77 c) main_v77
    rw [Function.update_self]; exact (outs_12 m c).symm
theorem hrest2 (c : Dev nD) : ∀ b, b ∉ Finset.univ.image (Pipeline.arrRef spec2) → Ex2 m c b = En2 m c b :=
  fun b hb => by
    show V12 m (outs m) c b = V11 m (outs7 m) c b
    rw [V12_of m (outs m) c b (fun h => hb (Finset.mem_image.mpr ⟨2, Finset.mem_univ _, (List.mem_singleton.mp h).symm⟩)), V11_outs]

/-! ## The regions as segments -/

-- a library lemma stated over the pinned configuration unifies with the printed one only when unification may unfold
-- plain definitions in a metavariable's type
set_option backward.isDefEq.respectTransparency.types false in
/-- Region 0 over the thread state: entered from every unscoped buffer at `V3 m`, left at `V4 m (outs m)`. Its arrays are
    split out of the unscoped buffers and put back at what the write-backs leave; the generator register goes into the
    region's invariant and comes back; nothing is owed; the kernel has no semaphore of its own. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L0 lv0 0 fun _ _ => rfl
  pre c := iprop(StableHlo.held (c : Thread nD τ) (Pipeline.ucRefs τ sig) (V3 m c) ∗ R0 c)
  post c := iprop(StableHlo.held (c : Thread nD τ) (Pipeline.ucRefs τ sig) (V4 m (outs m) c) ∗ R0 c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (Ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `V6 m (outs4 m)` (which is `V6 m (outs m)`: `V6_outs`), left at `V7 m (outs m)`. Its arrays are
    split out of the unscoped buffers and put back at what the write-backs leave; the generator register goes into the
    region's invariant and comes back; nothing is owed; the kernel has no semaphore of its own. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L0 lv0 1 fun _ _ => rfl
  pre c := iprop(StableHlo.held (c : Thread nD τ) (Pipeline.ucRefs τ sig) (V6 m (outs4 m) c) ∗ R0 c)
  post c := iprop(StableHlo.held (c : Thread nD τ) (Pipeline.ucRefs τ sig) (V7 m (outs m) c) ∗ R0 c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (Ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `V11 m (outs7 m)` (which is `V11 m (outs m)`: `V11_outs`), left at `V12 m (outs m)`. Its arrays are
    split out of the unscoped buffers and put back at what the write-backs leave; the generator register goes into the
    region's invariant and comes back; nothing is owed; the kernel has no semaphore of its own. -/
def reg2 : RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L0 lv0 2 fun _ _ => rfl
  pre c := iprop(StableHlo.held (c : Thread nD τ) (Pipeline.ucRefs τ sig) (V11 m (outs7 m) c) ∗ R0 c)
  post c := iprop(StableHlo.held (c : Thread nD τ) (Pipeline.ucRefs τ sig) (V12 m (outs m) c) ∗ R0 c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (En2 m) c)
    unfold Pipeline.ΦA
    iintro ⟨Hp, -, Hr⟩
    isplitl [Hr]; · iexact Hr
    iexact Hp
  hout c := by
    rw [Pipeline.ownSems0_none]
    refine (hout2 (En2 m) c).trans (?_ : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (Ex2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

-- the launch theorem's implicit arguments are found by unifying its conclusion with this one
set_option backward.isDefEq.respectTransparency.types false in
/-- THE RUN: from any memory `m` with zero counters every weakly fair execution of @main on the TensorCores terminates,
    nothing faulting, and every unscoped buffer of every core ends at the last valuation over what the regions leave. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V13 m (outs m) c b) :=
  run_cond m (Ix := Unit) (U := UR sig nD τ) (Lvl := ℕ) emb₁ () Variants.none L0 lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R0 c)
    (hE0 := by
      refine Pipeline.initEach L0 lv0 fun c => ?_
      iintro ⟨⟨-, HO, -, Hp, -⟩, -⟩
      imodintro
      isplitl [Hp]; · iexists _; iexact Hp
      iexists ∅; iexact HO)
    (hE3 := fun c => by
      iintro ⟨-, HO⟩; iexact HO)
    (R0 := reg0 m) (hpre0 := fun _ => .rfl) (hpost0 := fun _ => .rfl)
    (R1 := reg1 m) (hpre1 := fun c => by rw [V6_outs m c]; exact BI.Entails.refl _) (hpost1 := fun _ => .rfl)
    (R2 := reg2 m) (hpre2 := fun c => by rw [V11_outs m c]; exact BI.Entails.refl _) (hpost2 := fun _ => .rfl)

/-- THE FRAME: every execution terminates and every argument array ends as launched (no item of @main writes one). -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c (Proc.devRef .tc main_arg0) (Finset.mem_filter.mpr ⟨StableHlo.devRef_mem_tcRefs main_arg0, by decide⟩)).trans (V13_main_arg0 m (outs m) c),
      (h c (Proc.devRef .tc main_arg1) (Finset.mem_filter.mpr ⟨StableHlo.devRef_mem_tcRefs main_arg1, by decide⟩)).trans (V13_main_arg1 m (outs m) c),
      (h c (Proc.devRef .tc main_arg2) (Finset.mem_filter.mpr ⟨StableHlo.devRef_mem_tcRefs main_arg2, by decide⟩)).trans (V13_main_arg2 m (outs m) c),
      (h c (Proc.devRef .tc main_arg3) (Finset.mem_filter.mpr ⟨StableHlo.devRef_mem_tcRefs main_arg3, by decide⟩)).trans (V13_main_arg3 m (outs m) c),
      (h c (Proc.devRef .tc main_arg4) (Finset.mem_filter.mpr ⟨StableHlo.devRef_mem_tcRefs main_arg4, by decide⟩)).trans (V13_main_arg4 m (outs m) c),
      (h c (Proc.devRef .tc main_arg5) (Finset.mem_filter.mpr ⟨StableHlo.devRef_mem_tcRefs main_arg5, by decide⟩)).trans (V13_main_arg5 m (outs m) c),
      (h c (Proc.devRef .tc main_arg6) (Finset.mem_filter.mpr ⟨StableHlo.devRef_mem_tcRefs main_arg6, by decide⟩)).trans (V13_main_arg6 m (outs m) c)⟩)
    (run_all m ρ)

/-- THE RESULT: every execution terminates with the result buffer at the last host stretch's term over what the
    regions leave, and every argument array as launched. -/
theorem result_all (ρ : Dev nD → PrngReg) :
    θ_run defs (onTc (τ := τ) (main (F := F))) ⟨m, fun _ => 0, ρ⟩ (fun r => ∀ c : Dev nD,
      r.2.mem ((c.tc : Thread nD τ).loc main_v82) = V13 m (outs m) c main_v82
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c (Proc.devRef .tc main_v82) (Finset.mem_filter.mpr ⟨StableHlo.devRef_mem_tcRefs main_v82, by decide⟩),
      (h c (Proc.devRef .tc main_arg0) (Finset.mem_filter.mpr ⟨StableHlo.devRef_mem_tcRefs main_arg0, by decide⟩)).trans (V13_main_arg0 m (outs m) c),
      (h c (Proc.devRef .tc main_arg1) (Finset.mem_filter.mpr ⟨StableHlo.devRef_mem_tcRefs main_arg1, by decide⟩)).trans (V13_main_arg1 m (outs m) c),
      (h c (Proc.devRef .tc main_arg2) (Finset.mem_filter.mpr ⟨StableHlo.devRef_mem_tcRefs main_arg2, by decide⟩)).trans (V13_main_arg2 m (outs m) c),
      (h c (Proc.devRef .tc main_arg3) (Finset.mem_filter.mpr ⟨StableHlo.devRef_mem_tcRefs main_arg3, by decide⟩)).trans (V13_main_arg3 m (outs m) c),
      (h c (Proc.devRef .tc main_arg4) (Finset.mem_filter.mpr ⟨StableHlo.devRef_mem_tcRefs main_arg4, by decide⟩)).trans (V13_main_arg4 m (outs m) c),
      (h c (Proc.devRef .tc main_arg5) (Finset.mem_filter.mpr ⟨StableHlo.devRef_mem_tcRefs main_arg5, by decide⟩)).trans (V13_main_arg5 m (outs m) c),
      (h c (Proc.devRef .tc main_arg6) (Finset.mem_filter.mpr ⟨StableHlo.devRef_mem_tcRefs main_arg6, by decide⟩)).trans (V13_main_arg6 m (outs m) c)⟩)
    (run_all m ρ)

end Cert.Kernel.Hand

end
-- ==== Proof.KI.LinDefs.lean ====
/- The proof data of the two projection regions (x · W₁ and h · W₂, one row tile of 5000 rows per grid point), stated at
   the buffer contents `V` the region is entered with: a window's block at a point, what the body leaves in the
   output tile (the product of the row tile with the whole weight matrix), and the pipeline record built from them. -/
import proofs.«429279_j53317724013285_2_alg».proof.Proof.Gen.KernelIdeal.Launch
import proofs.«429279_j53317724013285_2_alg».proof.Proof.Gen.KernelIdeal.Skeleton
import proofs.«429279_j53317724013285_2_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0: x · W₁ -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 5000×128 tile and the whole 128×128 matrix, as the body's loads and its one store address them. -/
abbrev rT0 : Rect S5000x128 := Rect.unit (s := S5000x128) ![0, 0] S5000x128.size inb_S5000x128_S5000x128_0_0
abbrev rW0 : Rect S128x128 := Rect.unit (s := S128x128) ![0, 0] S128x128.size inb_S128x128_S128x128_0_0

/-- The output tile after the body: its one store, the product of the row tile `x0` with the matrix `x1`. -/
def out0_2 (x0 : Vec F S5000x128 .f32) (x1 : Vec F S128x128 .f32) : Vec F S5000x128 .f32 :=
  View.canon [⟨rT0, k0_pay1 (View.ld x0 rT0) (View.ld x1 rW0)⟩]

/-- Region 0's proof data on core `c`: the arrays as entered; after the body each input's buffer at its block and the
    output's at the product of the two; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: h · W₂ -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output tile after the body of region 1: the product of the row tile with the matrix. -/
def out1_2 (x0 : Vec F S5000x128 .f32) (x1 : Vec F S128x128 .f32) : Vec F S5000x128 .f32 :=
  View.canon [⟨rT0, k1_pay1 (View.ld x0 rT0) (View.ld x1 rW0)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

end Cert.KernelIdeal.Hand

end
-- ==== Proof.KI.PoolDefs.lean ====
/- The proof data of the pooling region: the 64 × 50176 graph-membership matrix times the 50176 × 128 node features,
   contracted 6272 columns per grid point into a 64 × 128 accumulator the kernel keeps in scratch between points — zeroed
   at the first point, added to at every point, copied to the output block at the last. Stated at the buffer contents
   `V` the region is entered with. -/
import proofs.«429279_j53317724013285_2_alg».proof.Proof.Gen.KernelIdeal.Launch
import proofs.«429279_j53317724013285_2_alg».proof.Proof.Gen.KernelIdeal.Skeleton
import proofs.«429279_j53317724013285_2_alg».proof.Proof.Gen.KernelIdeal.Points
import Idealize.ShloMosaic.Lib.Pipeline.FrameBody
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator: the kernel's scratch operand, a whole scoped buffer of its own. -/
abbrev scM2 : Memref sig .tc .vmem S64x128 .f32 := Memref.whole cc2_scratch0

/-- THE ACCUMULATION: what the scratch holds after the body at position `n` — the first point adds its block product
    to the zero it has just stored, every later point adds its own to what the point before left. -/
def acc2 (c : Dev nD) : (n : ℕ) → n < cfg2.N → Vec F S64x128 .f32
  | 0, hn => k2_pay2 (k2_pay1 (F := F)) (iblk2 V c 0 ⟨0, hn⟩) (iblk2 V c 1 ⟨0, hn⟩)
  | n + 1, hn => k2_pay2 (acc2 c n (Nat.lt_of_succ_lt hn)) (iblk2 V c 0 ⟨n + 1, hn⟩) (iblk2 V c 1 ⟨n + 1, hn⟩)

theorem acc2_zero (c : Dev nD) (hn : 0 < cfg2.N) :
    acc2 V c 0 hn = k2_pay2 (k2_pay1 (F := F)) (iblk2 V c 0 ⟨0, hn⟩) (iblk2 V c 1 ⟨0, hn⟩) := rfl
theorem acc2_succ (c : Dev nD) (n : ℕ) (hn : n + 1 < cfg2.N) :
    acc2 V c (n + 1) hn = k2_pay2 (acc2 V c n (Nat.lt_of_succ_lt hn)) (iblk2 V c 0 ⟨n + 1, hn⟩) (iblk2 V c 1 ⟨n + 1, hn⟩) := rfl

/-- The scoped buffers of the core that are neither a staging buffer of this region nor its accumulator (the other two
    regions' staging buffers), each whole at some contents. -/
def restS2 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f))

/-- The region invariant before position `n`: before the first point the scoped rest at anything and the generator
    register; afterwards the same with the accumulator at what the point before left in it. -/
def PhiS2 (c : Dev nD) : (n : ℕ) → n ≤ cfg2.N → sProp 𝕄
  | 0, _ => Pipeline.ΦA spec2 c
  | n + 1, hn => iprop(restS2 (F := F) c ∗ owns (c : Thread nD τ) scM2 fullShare (acc2 V c n hn) ∗ (∃ r, prngReg c r))

/-- The pooling region's proof data on core `c`: the arrays as entered; after the body each input's buffer at its
    block and the output's at the accumulator (consulted at the last point only: elsewhere the window is idle and not
    written back); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

end Cert.KernelIdeal.Hand

end
-- ==== Proof.KI.Lin.lean ====
/- The bodies of the two projection regions (x · W₁ and h · W₂). At each of the ten grid points the body finds the
   point's 5000-row tile in the first window's buffer and the whole 128×128 weight matrix in the second's (the matrix is
   brought in at the first point only; its block index never moves, so the buffer still holds it at the later points),
   and overwrites the whole output tile with the product of the two. Per region: what each input buffer holds when the
   body starts, that the single whole-tile store covers the output tile, the body's triple over arbitrary whole
   buffers, and from these the obligation the pipeline asks of the body at a generic point. -/
import proofs.«429279_j53317724013285_2_alg».proof.Proof.Gen.KernelIdeal.Launch
import proofs.«429279_j53317724013285_2_alg».proof.Proof.Gen.KernelIdeal.Skeleton
import proofs.«429279_j53317724013285_2_alg».proof.Proof.Gen.KernelIdeal.Points
import Idealize.ShloMosaic.Lib.Pipeline.FrameBody
import Idealize.ShloMosaic.Lib.Pipeline.Frame
import proofs.«429279_j53317724013285_2_alg».proof.Proof.KI.LinDefs
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0: x · W₁ -/

/-! ### What the body finds in the input buffers -/

/-- The row tile's buffer holds the point's tile at every point: it is brought in at every point, and the body leaves
    it as it found it. Stated for any proof data whose array is the entry contents and whose body keeps the tile. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The matrix's buffer holds the matrix at every point, though it is brought in at the first point only: at a later
    point its block index is the previous point's, the body left the buffer as it found it, and the previous point's
    block is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ### The one store covers the output tile -/

/-- The body's single store is of the whole 5000×128 tile, so every index of the tile lies in it. -/
theorem cover0_2 (p0 : Vec F S5000x128 .f32) (y : S5000x128.Idx) :
    ∃ pc ∈ ([⟨rT0, p0⟩] : List (View.Piece (Elt F) S5000x128 .f32)), y ∈ pc.1.set :=
  View.cover_of_tiled [⟨rT0, p0⟩] S5000x128.size (by rfl) y

/-! ### The body's triple -/

set_option maxHeartbeats 1000000 in
/-- The body on three whole buffers — the tile's reading `x0`, the matrix's reading `x1`, the output's holding
    anything — runs to the continuation with the two inputs as they were and the output reading the product
    `out0_2 x0 x1`. It loads the tile and the matrix, loads the output buffer too (a value it never uses), and
    stores the product over the whole output tile; what is read back after a covering store is the store's payload. -/
theorem sound_kernel0 (c : Dev nD) (E : Set ℕ) (i : grid0.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ### The obligation at a generic point -/

/-- What the body is handed at point `t`: the invariant, the core's debts, and the three windows' current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the two input buffers hold the point's tile and the matrix, so the triple applies at those
    two; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body of region 0, at every point. -/
theorem body_obligation0 (c : Dev nD) : BodyObligation (dat0 (F := F) V c) (defs₀ (F := F)) Variants.none () Set.univ := fun t => by
  rw [bigSep_W0, bigSep_W0]
  exact sound_body0 V c t

/-! ## Region 1: h · W₂ -/

/-! ### What the body finds in the input buffers -/

/-- The row tile's buffer holds the point's tile at every point: it is brought in at every point, and the body leaves
    it as it found it. Stated for any proof data whose array is the entry contents and whose body keeps the tile. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The matrix's buffer holds the matrix at every point, though it is brought in at the first point only: at a later
    point its block index is the previous point's, the body left the buffer as it found it, and the previous point's
    block is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d

theorem before1_1 (c : Dev nD) (t : Fin cfg1.N) (d) : (dat1 V c).before 1 t d = iblk1 V c 1 t :=
  before1_1_of V (dat1 V c) (A_eq1 V c 1) (after1_1 V c) t d

/-! ### The one store covers the output tile -/

/-- The body's single store is of the whole 5000×128 tile, so every index of the tile lies in it. -/
theorem cover1_2 (p0 : Vec F S5000x128 .f32) (y : S5000x128.Idx) :
    ∃ pc ∈ ([⟨rT0, p0⟩] : List (View.Piece (Elt F) S5000x128 .f32)), y ∈ pc.1.set :=
  View.cover_of_tiled [⟨rT0, p0⟩] S5000x128.size (by rfl) y

/-! ### The body's triple -/

set_option maxHeartbeats 1000000 in
/-- The body on three whole buffers — the tile's reading `x0`, the matrix's reading `x1`, the output's holding
    anything — runs to the continuation with the two inputs as they were and the output reading the product
    `out1_2 x0 x1`. It loads the tile and the matrix, loads the output buffer too (a value it never uses), and
    stores the product over the whole output tile; what is read back after a covering store is the store's payload. -/
theorem sound_kernel1 (c : Dev nD) (E : Set ℕ) (i : grid1.Coords)
    (arg1 : Memref sig .tc .vmem S5000x128 .f32) (harg1 : arg1.IsWhole)
    (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__linear_kernel i arg1 harg1 arg2 harg2 arg3 harg3) K := by
  simp only [cc1__linear_kernel_eq_skeleton]; unfold cc1__linear_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ### The obligation at a generic point -/

/-- What the body is handed at point `t`: the invariant, the core's debts, and the three windows' current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the two input buffers hold the point's tile and the matrix, so the triple applies at those
    two; the invariant and the debts are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Pool.lean ====
/- The body obligation of the pooling region. At every grid point the kernel adds the product of the point's 64 × 6272 block
   of the membership matrix and its 6272 × 128 block of the features to a 64 × 128 accumulator it keeps in scratch; the first
   point zeroes the accumulator before adding, the last copies it to the output block. Three control cases follow, and in
   each the body's run is stated over arbitrary whole memrefs: the inputs are left as found, the accumulator ends at the sum
   the case computes, the output is left as found (first and middle points) or ends at the accumulator (last point). The
   region invariant carries the accumulator from point to point at the value `acc2` names. -/
import proofs.«429279_j53317724013285_2_alg».proof.Proof.Gen.KernelIdeal.Launch
import proofs.«429279_j53317724013285_2_alg».proof.Proof.Gen.KernelIdeal.Skeleton
import proofs.«429279_j53317724013285_2_alg».proof.Proof.Gen.KernelIdeal.Points
import proofs.«429279_j53317724013285_2_alg».proof.Proof.KI.PoolDefs
import Idealize.ShloMosaic.Lib.Pipeline.FrameBody
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## The body's two conditions over the grid -/

/-- The first condition of the body: the grid coordinate is 0. -/
abbrev cond2_0 (i : grid2.Coords) : Prop :=
  (Scalar.cmpi .ne (Scalar.extui (Scalar.cmpi .eq (BitVec.ofNat 32 (i 0).val) 0#32)) 0#32) = 1#1
/-- It holds at the first of the eight points only. -/
theorem hcond2_0 : ∀ t : Fin cfg2.N, cond2_0 (grid2.coords t) ↔ t.val % 8 = 0 :=
  (by decide +kernel : ∀ t : Fin grid2.N, cond2_0 (grid2.coords t) ↔ t.val % 8 = 0)

/-- The second condition of the body: the grid coordinate is 7. -/
abbrev cond2_1 (i : grid2.Coords) : Prop := k2_cond2 i = 1#1
/-- It holds at the last of the eight points only. -/
theorem hcond2_1 : ∀ t : Fin cfg2.N, cond2_1 (grid2.coords t) ↔ t.val % 8 = 7 :=
  (by decide +kernel : ∀ t : Fin grid2.N, cond2_1 (grid2.coords t) ↔ t.val % 8 = 7)

/-- The two input windows are live at every point. -/
theorem liveAt2_0 : ∀ t : Fin cfg2.N, cfg2.idle 0 (grid2.coords t) = false := by decide +kernel
theorem liveAt2_1 : ∀ t : Fin cfg2.N, cfg2.idle 1 (grid2.coords t) = false := by decide +kernel
/-- The output window is idle wherever the second condition fails, and is not written back there; -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- it is live where the condition holds. -/
theorem liveAt2_2 : ∀ t : Fin cfg2.N, cond2_1 (grid2.coords t) → cfg2.idle 2 (grid2.coords t) = false := by decide +kernel

/-! ## The staging memrefs at a point -/

/-- Each window's current staging memref at point `t`, and its wholeness. -/
abbrev ms2_0 (t : Fin cfg2.N) : Memref sig .tc .vmem S64x6272 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S6272x128 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x128 .f32 := win2_2.stage (cfg2.slots t 2)
abbrev hs2_2 (t : Fin cfg2.N) : (ms2_2 t).IsWhole := hstage2_2 ((cfg2.slots t 2).cast nbuf2_2)

/-! ## The invariant -/

/-- What the launch hands the region: the ten other scoped buffers at anything, the accumulator at anything, the
    generator register at some state. The scoped rest lists the accumulator last; `∗` is associative. -/
theorem PhiA2_eq (c : Dev nD) :
    (Pipeline.ΦA spec2 c : sProp 𝕄)
      = iprop(restS2 (F := F) c ∗ (∃ d, owns (c : Thread nD τ) scM2 fullShare d) ∗ (∃ r, prngReg c r)) := by
  have assoc : ∀ P Q R' : sProp 𝕄, iprop((P ∗ Q) ∗ R') = iprop(P ∗ Q ∗ R') :=
    fun _ _ _ => Idealize.SL.BI.Entails.antisymm Idealize.SL.BI.sep_assoc Idealize.SL.BI.sep_assoc'
  unfold Pipeline.ΦA restS2; rw [scopedRest2_eq]
  -- both sides are now the same right-nested chain, up to the spelling of the accumulator's contents type
  simp only [scM2, owns_whole, assoc]
  rfl

theorem PhiS2_zero (c : Dev nD) (n : ℕ) (h : n ≤ cfg2.N) (hz : n = 0) : PhiS2 V c n h = Pipeline.ΦA spec2 c := by
  subst hz; rfl

/-- After point `n`: the accumulator at what that point left. -/
theorem PhiS2_succ (c : Dev nD) (n : ℕ) (hn : n < cfg2.N) :
    PhiS2 V c (n + 1) hn
      = iprop(restS2 (F := F) c ∗ owns (c : Thread nD τ) scM2 fullShare (acc2 V c n hn) ∗ (∃ r, prngReg c r)) := rfl

/-- Before a point that is not the first: the accumulator at what the point before left. -/
theorem PhiS2_pos (c : Dev nD) (n : ℕ) (h : n ≤ cfg2.N) (hz : n ≠ 0) :
    PhiS2 V c n h
      = iprop(restS2 (F := F) c ∗ owns (c : Thread nD τ) scM2 fullShare (acc2 V c (n - 1) (by omega)) ∗ (∃ r, prngReg c r)) := by
  cases n with
  | zero => exact absurd rfl hz
  | succ n => rfl

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

/-! ## The accumulation, point by point -/

/-- At the first point the accumulator ends at zero plus the point's block product. -/
theorem acc2_first (c : Dev nD) (t : Fin cfg2.N) (h0 : t.val = 0) :
    acc2 V c t.val t.isLt = k2_pay2 (k2_pay1 (F := F)) (iblk2 V c 0 t) (iblk2 V c 1 t) := by
  obtain ⟨n, hn⟩ := t
  cases n with
  | zero => exact acc2_zero V c hn
  | succ n => exact absurd h0 (Nat.succ_ne_zero n)

/-- At a later point it ends at what the point before left plus the point's block product. -/
theorem acc2_later (c : Dev nD) (t : Fin cfg2.N) (h0 : t.val ≠ 0) :
    acc2 V c t.val t.isLt
      = k2_pay2 (acc2 V c (t.val - 1) (Nat.lt_of_le_of_lt (Nat.sub_le _ _) t.isLt)) (iblk2 V c 0 t) (iblk2 V c 1 t) := by
  obtain ⟨n, hn⟩ := t
  cases n with
  | zero => exact absurd rfl h0
  | succ n => exact acc2_succ V c n hn

/-! ## What the inputs' staging buffers hold -/

/-- Each input's current staging buffer holds its block at every point, fetched there or not: the body leaves the block in
    place and an unfetched window's block index has not moved. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## A whole store read back -/

/-- The offsets of every access of the body are zero. -/
theorem pool_off0 : (![0, 0] : Fin 2 → ℕ) = fun _ => 0 := funext fun a => by fin_cases a <;> rfl

/-- A store through the whole 64 × 128 rectangle covers every index, whatever was stored before it. -/
theorem pool_cover_cons (inb : ∀ a, (![0, 0] : Fin 2 → ℕ) a + S64x128.size a ≤ S64x128.size a)
    (w : S64x128.Idx → Elt F .f32) (L : List (View.Piece (Elt F) S64x128 .f32)) (y : S64x128.Idx) :
    ∃ pc ∈ ((⟨Rect.unit (s := S64x128) ![0, 0] S64x128.size inb, w⟩ : View.Piece (Elt F) S64x128 .f32) :: L), y ∈ pc.1.set :=
  ⟨⟨Rect.unit (s := S64x128) ![0, 0] S64x128.size inb, w⟩, List.mem_cons.mpr (Or.inl rfl), View.mem_set_unit_zero pool_off0 inb y⟩

/-- So a buffer whose last store went through the whole rectangle reads as that store's value. -/
theorem pool_read_store_whole {κ : Kind} {sp : Space} (v : View sig κ sp S64x128 .f32) (f : v.ty.Contents (Elt F))
    (inb : ∀ a, (![0, 0] : Fin 2 → ℕ) a + S64x128.size a ≤ S64x128.size a)
    (w : S64x128.Idx → Elt F .f32) (L : List (View.Piece (Elt F) S64x128 .f32)) :
    v.read (Elt F) (v.writes (Elt F) f ((⟨Rect.unit (s := S64x128) ![0, 0] S64x128.size inb, w⟩ : View.Piece (Elt F) S64x128 .f32) :: L)) = w := by
  rw [View.read_writes_eq_canon _ _ _ (pool_cover_cons inb w L), View.canon_cons_unit_zero pool_off0]

/-! ## The body's run, case by case -/

set_option maxHeartbeats 1000000 in
/-- THE FIRST POINT (first condition holds, second fails): on whole memrefs, the inputs at `x0`, `x1`, the output at `xi`, the
    accumulator at anything, the body zeroes the accumulator, reads it back, adds the block product and stores the sum: it
    ends with the inputs and the output as found and the accumulator at zero plus the product. -/
theorem pool_run_first (c : Dev nD) (i : grid2.Coords)
    (arg1 : Memref sig .tc .vmem S64x6272 .bf16) (harg1 : arg1.IsWhole)
    (arg2 : Memref sig .tc .vmem S6272x128 .bf16) (harg2 : arg2.IsWhole)
    (arg3 : Memref sig .tc .vmem S64x128 .f32) (harg3 : arg3.IsWhole)
    (arg4 : Memref sig .tc .vmem S64x128 .f32) (harg4 : arg4.IsWhole)
    (hc0 : cond2_0 i) (hc1 : ¬cond2_1 i)
    (x0 : Vec F S64x6272 .bf16) (x1 : Vec F S6272x128 .bf16) (xi : Vec F S64x128 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ (∃ d, owns (c : Thread nD τ) arg4 fullShare d)
        ∗ (iprop(owns (c : Thread nD τ) arg1 fullShare x0 ∗ owns (c : Thread nD τ) arg2 fullShare x1
            ∗ owns (c : Thread nD τ) arg3 fullShare xi
            ∗ owns (c : Thread nD τ) arg4 fullShare (k2_pay2 (k2_pay1 (F := F)) x0 x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_run_names
  simp only [View.readAt_eq_ld, harg1.read_unread, harg2.read_unread,
    View.ld_unit_zero (S := S64x128) pool_off0, View.ld_unit_zero (S := S64x6272) pool_off0, View.ld_unit_zero (S := S6272x128) pool_off0,
    View.readCov_unit_zero (S := S64x128) _ pool_off0]
  exact pool_read_store_whole _ _ _ _ _

set_option maxHeartbeats 1000000 in
/-- A MIDDLE POINT (both conditions fail): the accumulator at `s`; the body adds the block product to it and stores the sum: it
    ends with the inputs and the output as found and the accumulator at `s` plus the product. -/
theorem pool_run_mid (c : Dev nD) (i : grid2.Coords)
    (arg1 : Memref sig .tc .vmem S64x6272 .bf16) (harg1 : arg1.IsWhole)
    (arg2 : Memref sig .tc .vmem S6272x128 .bf16) (harg2 : arg2.IsWhole)
    (arg3 : Memref sig .tc .vmem S64x128 .f32) (harg3 : arg3.IsWhole)
    (arg4 : Memref sig .tc .vmem S64x128 .f32) (harg4 : arg4.IsWhole)
    (hc0 : ¬cond2_0 i) (hc1 : ¬cond2_1 i)
    (x0 : Vec F S64x6272 .bf16) (x1 : Vec F S6272x128 .bf16) (xi : Vec F S64x128 .f32) (s : Vec F S64x128 .f32)
    (E : Set ℕ) (K : PUnit → sProp 𝕄) :
    iprop(owns (c : Thread nD τ) arg1 fullShare x0 ∗ owns (c : Thread nD τ) arg2 fullShare x1
        ∗ owns (c : Thread nD τ) arg3 fullShare xi ∗ owns (c : Thread nD τ) arg4 fullShare s
        ∗ (iprop(owns (c : Thread nD τ) arg1 fullShare x0 ∗ owns (c : Thread nD τ) arg2 fullShare x1
            ∗ owns (c : Thread nD τ) arg3 fullShare xi
            ∗ owns (c : Thread nD τ) arg4 fullShare (k2_pay2 s x0 x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1
  obtain rfl := harg3.eq_unread hf2; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_run_names
  simp only [View.readAt_eq_ld, harg1.read_unread, harg2.read_unread, harg4.read_unread,
    View.ld_unit_zero (S := S64x128) pool_off0, View.ld_unit_zero (S := S64x6272) pool_off0, View.ld_unit_zero (S := S6272x128) pool_off0,
    View.readCov_unit_zero (S := S64x128) _ pool_off0]
  exact pool_read_store_whole _ _ _ _ _

set_option maxHeartbeats 1000000 in
/-- THE LAST POINT (first condition fails, second holds): the accumulator at `s`, the output at anything; the body adds the
    block product, stores the sum, reads it back and stores it into the output: it ends with the inputs as found and both the
    accumulator and the output at `s` plus the product. -/
theorem pool_run_last (c : Dev nD) (i : grid2.Coords)
    (arg1 : Memref sig .tc .vmem S64x6272 .bf16) (harg1 : arg1.IsWhole)
    (arg2 : Memref sig .tc .vmem S6272x128 .bf16) (harg2 : arg2.IsWhole)
    (arg3 : Memref sig .tc .vmem S64x128 .f32) (harg3 : arg3.IsWhole)
    (arg4 : Memref sig .tc .vmem S64x128 .f32) (harg4 : arg4.IsWhole)
    (hc0 : ¬cond2_0 i) (hc1 : cond2_1 i)
    (x0 : Vec F S64x6272 .bf16) (x1 : Vec F S6272x128 .bf16) (s : Vec F S64x128 .f32)
    (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare s
        ∗ (iprop(owns (c : Thread nD τ) arg1 fullShare x0 ∗ owns (c : Thread nD τ) arg2 fullShare x1
            ∗ owns (c : Thread nD τ) arg3 fullShare (k2_pay2 s x0 x1)
            ∗ owns (c : Thread nD τ) arg4 fullShare (k2_pay2 s x0 x1)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    simp only [View.readAt_eq_ld, harg1.read_unread, harg2.read_unread, harg4.read_unread,
      View.ld_unit_zero (S := S64x128) pool_off0, View.ld_unit_zero (S := S64x6272) pool_off0, View.ld_unit_zero (S := S6272x128) pool_off0,
      View.readCov_unit_zero (S := S64x128) _ pool_off0]
    exact pool_read_store_whole _ _ _ _ _
  iexists _; isplitr
  swap; · iexact HS
  ipureintro
  sl_unfold_run_names
  simp only [View.readAt_eq_ld, harg1.read_unread, harg2.read_unread, harg4.read_unread,
    View.ld_unit_zero (S := S64x128) pool_off0, View.ld_unit_zero (S := S64x6272) pool_off0, View.ld_unit_zero (S := S6272x128) pool_off0,
    View.readCov_unit_zero (S := S64x128) _ pool_off0]
  exact pool_read_store_whole _ _ _ _ _

/-! ## The body obligation, at a generic point -/

/-- What the body is called with at point `t`: the invariant, what the core owes, each window's current buffer, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point. The inputs' memrefs hold their blocks; the conditions' closed forms say which of the three cases the
    point is in. At the first point the invariant hands over the accumulator at anything, afterwards at what the point before
    left; the case's run returns it at this point's value of the accumulation, which the invariant takes back. The output's
    buffer is handed back untouched at the points that do not write it back, and at the last point holds the accumulator. The
    core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 8 := lt_of_lt_of_eq t.isLt (show cfg2.N = 8 from N_2)
  by_cases h0 : t.val % 8 = 0
  · -- the first point
    have hz : t.val = 0 := by omega
    have hc0 : cond2_0 (grid2.coords t) := (hcond2_0 t).mpr h0
    have hc1 : ¬cond2_1 (grid2.coords t) := fun h => by have := (hcond2_1 t).mp h; omega
    rw [Dat.leavesExact_idle (dat2 V c) 2 t (idleAt2_2 t hc1) (noFlush2_2 t hc1)]
    rw [acc2_first V c t hz]
    rw [PhiS2_castSucc V c t, PhiS2_zero V c _ _ hz, PhiA2_eq]
    iintro ⟨⟨HR, HS, Hg⟩, Ho, ⟨%d0, H0⟩, ⟨%d1, H1⟩, ⟨%d2, H2⟩⟩
    iapply (pool_run_first c (grid2.coords t) (ms2_0 t) (hs2_0 t) (ms2_1 t) (hs2_1 t) (ms2_2 t) (hs2_2 t) scM2 (Memref.isWhole_whole _)
      hc0 hc1 (iblk2 V c 0 t) (iblk2 V c 1 t) ((dat2 V c).before 2 t d2) Set.univ _)
    isplitl [H0]; · iexact H0
    isplitl [H1]; · iexact H1
    isplitl [H2]; · iexact H2
    isplitl [HS]; · iexact HS
    iintro ⟨H0, H1, H2, HS⟩
    isplitl [HR HS Hg]
    · isplitl [HR]; · iexact HR
      isplitl [HS]; · iexact HS
      iexact Hg
    isplitl [Ho]; · iexact Ho
    isplitl [H0]; · iexact H0
    isplitl [H1]; · iexact H1
    iexists _; iexact H2
  · have hz : t.val ≠ 0 := by omega
    have hc0 : ¬cond2_0 (grid2.coords t) := fun h => h0 ((hcond2_0 t).mp h)
    by_cases h1 : t.val % 8 = 7
    · -- the last point
      have hc1 : cond2_1 (grid2.coords t) := (hcond2_1 t).mpr h1
      rw [show (dat2 V c).leavesExact 2 t = owns (c : Thread nD τ) (ms2_2 t) fullShare ((dat2 V c).after 2 t) from by
        unfold Dat.leavesExact; rw [liveAt2_2 t hc1], after2_2]
      rw [acc2_later V c t hz]
      rw [PhiS2_castSucc V c t, PhiS2_pos V c _ _ hz]
      iintro ⟨⟨HR, HS, Hg⟩, Ho, ⟨%d0, H0⟩, ⟨%d1, H1⟩, ⟨%d2, H2⟩⟩
      iapply (pool_run_last c (grid2.coords t) (ms2_0 t) (hs2_0 t) (ms2_1 t) (hs2_1 t) (ms2_2 t) (hs2_2 t) scM2 (Memref.isWhole_whole _)
        hc0 hc1 (iblk2 V c 0 t) (iblk2 V c 1 t) (acc2 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexact H2
    · -- a middle point
      have hc1 : ¬cond2_1 (grid2.coords t) := fun h => h1 ((hcond2_1 t).mp h)
      rw [Dat.leavesExact_idle (dat2 V c) 2 t (idleAt2_2 t hc1) (noFlush2_2 t hc1)]
      rw [acc2_later V c t hz]
      rw [PhiS2_castSucc V c t, PhiS2_pos V c _ _ hz]
      iintro ⟨⟨HR, HS, Hg⟩, Ho, ⟨%d0, H0⟩, ⟨%d1, H1⟩, ⟨%d2, H2⟩⟩
      iapply (pool_run_mid c (grid2.coords t) (ms2_0 t) (hs2_0 t) (ms2_1 t) (hs2_1 t) (ms2_2 t) (hs2_2 t) scM2 (Memref.isWhole_whole _)
        hc0 hc1 (iblk2 V c 0 t) (iblk2 V c 1 t) ((dat2 V c).before 2 t d2)
        (acc2 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HR HS Hg]
      · isplitl [HR]; · iexact HR
        isplitl [HS]; · iexact HS
        iexact Hg
      isplitl [Ho]; · iexact Ho
      isplitl [H0]; · iexact H0
      isplitl [H1]; · iexact H1
      iexists _; iexact H2

/-- The body obligation of the pooling region, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's back: the accumulator's value is forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨HR, HS, Hg⟩
  isplitl [HR]; · iexact HR
  isplitl [HS]; · iexists _; iexact HS
  iexact Hg

/-- The same after the last point. -/
theorem hout2 (c : Dev nD) : (dat2 V c).Φ (Fin.last cfg2.N) ⊢ (Pipeline.ΦA spec2 c : sProp 𝕄) :=
  Phi_out2 V c _ (by rw [Fin.val_last]; have : cfg2.N = 8 := N_2; omega)

end Cert.KernelIdeal.Hand

end
-- ==== Proof.KI.Run.lean ====
/- The kernel program's run, assembled: what each kernel region leaves in its output array (the array its write-backs
   fold into), the proof-data family of the three regions at their entry contents, each region as a segment of @main
   between the host stretches, and the launch — every execution terminates with each unscoped buffer at the last
   valuation. -/
import proofs.«429279_j53317724013285_2_alg».proof.Proof.KI.RunCond
import proofs.«429279_j53317724013285_2_alg».proof.Proof.KI.LinDefs
import proofs.«429279_j53317724013285_2_alg».proof.Proof.KI.PoolDefs
import proofs.«429279_j53317724013285_2_alg».proof.Proof.KI.Lin
import proofs.«429279_j53317724013285_2_alg».proof.Proof.KI.Pool
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave, region by region -/

/-- Region 0's entry contents, read at the TensorCore's references. -/
abbrev En0 : (c : Dev nD) → (b : Ref sig .tc) → Buf (Elt F) ((c : Thread nD τ).loc b) := fun c b => V3 m c b

/-- What region 0 leaves in `main_v30`: the array its ten write-backs fold into. -/
def o4 (c : Dev nD) : Buf (Elt F) ((c : Thread nD τ).loc main_v30) := (dat0 (En0 m) c).arrAt 2 cfg0.N

/-- The regions' results when only region 0's is known. -/
def outs4 : Outs (F := F) := fun _ r c => Function.update (V3 m c) main_v30 (o4 m c) r

/-- Region 1's entry contents. -/
abbrev En1 : (c : Dev nD) → (b : Ref sig .tc) → Buf (Elt F) ((c : Thread nD τ).loc b) := fun c b => V6 m (outs4 m) c b

/-- What region 1 leaves in `main_v48`. -/
def o7 (c : Dev nD) : Buf (Elt F) ((c : Thread nD τ).loc main_v48) := (dat1 (En1 m) c).arrAt 2 cfg1.N

/-- The regions' results when regions 0's and 1's are known. -/
def outs7 : Outs (F := F) := fun J r c =>
  match J with
  | 4 => outs4 m 4 r c
  | _ => Function.update (V6 m (outs4 m) c) main_v48 (o7 m c) r

/-- Region 2's entry contents. -/
abbrev En2 : (c : Dev nD) → (b : Ref sig .tc) → Buf (Elt F) ((c : Thread nD τ).loc b) := fun c b => V11 m (outs7 m) c b

/-- What region 2 leaves in `main_v77`. -/
def o12 (c : Dev nD) : Buf (Elt F) ((c : Thread nD τ).loc main_v77) := (dat2 (En2 m) c).arrAt 2 cfg2.N

/-- What the three regions leave, by the item after which it is read. -/
def outs : Outs (F := F) := fun J r c =>
  match J with
  | 4 => outs4 m 4 r c
  | 7 => outs7 m 7 r c
  | _ => Function.update (V11 m (outs7 m) c) main_v77 (o12 m c) r

theorem outs_4 (c : Dev nD) : outs m 4 main_v30 c = o4 m c := by
  show Function.update (V3 m c) main_v30 (o4 m c) main_v30 = _
  exact Function.update_self ..
theorem outs_7 (c : Dev nD) : outs m 7 main_v48 c = o7 m c := by
  show Function.update (V6 m (outs4 m) c) main_v48 (o7 m c) main_v48 = _
  exact Function.update_self ..
theorem outs_12 (c : Dev nD) : outs m 12 main_v77 c = o12 m c := by
  show Function.update (V11 m (outs7 m) c) main_v77 (o12 m c) main_v77 = _
  exact Function.update_self ..

/-- Up to region 1's entry only region 0's result is read, -/
theorem V6_outs (c : Dev nD) : V6 m (outs m) c = V6 m (outs4 m) c := by
  show StableHlo.after hostOps1_1 (StableHlo.after hostOps1 (Function.update (V3 m c) main_v30 (outs m 4 main_v30 c)))
    = StableHlo.after hostOps1_1 (StableHlo.after hostOps1 (Function.update (V3 m c) main_v30 (outs4 m 4 main_v30 c)))
  rw [outs_4]; rfl
/-- and up to region 2's entry only regions 0's and 1's. -/
theorem V11_outs (c : Dev nD) : V11 m (outs m) c = V11 m (outs7 m) c := by
  show StableHlo.after hostOps2_3 (StableHlo.after hostOps2_2 (StableHlo.after hostOps2_1 (StableHlo.after hostOps2 (Function.update (V6 m (outs m) c) main_v48 (outs m 7 main_v48 c)))))
    = StableHlo.after hostOps2_3 (StableHlo.after hostOps2_2 (StableHlo.after hostOps2_1 (StableHlo.after hostOps2 (Function.update (V6 m (outs7 m) c) main_v48 (outs7 m 7 main_v48 c)))))
  rw [outs_7, V6_outs]; rfl

/-- Each region's exit contents, read at the TensorCore's references. -/
abbrev Ex0 : (c : Dev nD) → (b : Ref sig .tc) → Buf (Elt F) ((c : Thread nD τ).loc b) := fun c b => V4 m (outs m) c b
abbrev Ex1 : (c : Dev nD) → (b : Ref sig .tc) → Buf (Elt F) ((c : Thread nD τ).loc b) := fun c b => V7 m (outs m) c b
abbrev Ex2 : (c : Dev nD) → (b : Ref sig .tc) → Buf (Elt F) ((c : Thread nD τ).loc b) := fun c b => V12 m (outs m) c b

/-! ## The proof data family -/

/-- Every region's proof data, each at its region's entry contents — a literal match on the pipeline index. -/
def pdats : (p : Fin 3) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c

/-- No core owes another anything: no level is assigned. -/
abbrev L0 : GSem nD τ sig → Finset Unit := fun _ => ∅
abbrev lv0 : GSem nD τ sig → Unit → ℕ := fun _ _ => 0
/-- What rides beside the buffers through every segment: the core's generator register at some state and its
    `owes`, at nothing. -/
abbrev R0 (c : Dev nD) : sProp 𝕄 := iprop((∃ r, prngReg c r) ∗ ∃ W, owes (c : Thread nD τ) (0 : CellTallies nD τ sig Unit) W)

/-! ## Each region's arrays at its exit: the outputs at what the write-backs leave, every other buffer as entered -/

theorem hF0 (c : Dev nD) (w : Fin cfg0.W) : (pdats m 0 c).arrAt w cfg0.N = Ex0 m c (Pipeline.arrRef spec0 w) := by
  match w with
  | ⟨0, _⟩ =>
    refine ((pdats m 0 c).arrAt_in 0 rfl _).trans ?_
    show V3 m c main_arg0 = V4 m (outs m) c main_arg0
    rw [V4_of m (outs m) c main_arg0 (by decide)]
  | ⟨1, _⟩ =>
    refine ((pdats m 0 c).arrAt_in 1 rfl _).trans ?_
    show V3 m c main_arg3 = V4 m (outs m) c main_arg3
    rw [V4_of m (outs m) c main_arg3 (by decide)]
  | ⟨2, _⟩ =>
    show o4 m c = Function.update (V3 m c) main_v30 (outs m 4 main_v30 c) main_v30
    rw [Function.update_self]; exact (outs_4 m c).symm
theorem hrest0 (c : Dev nD) : ∀ b, b ∉ Finset.univ.image (Pipeline.arrRef spec0) → Ex0 m c b = En0 m c b :=
  fun b hb => V4_of m (outs m) c b (fun h => hb (Finset.mem_image.mpr ⟨2, Finset.mem_univ _, (List.mem_singleton.mp h).symm⟩))

theorem hF1 (c : Dev nD) (w : Fin cfg1.W) : (pdats m 1 c).arrAt w cfg1.N = Ex1 m c (Pipeline.arrRef spec1 w) := by
  match w with
  | ⟨0, _⟩ =>
    refine ((pdats m 1 c).arrAt_in 0 rfl _).trans ?_
    show V6 m (outs4 m) c main_v47 = V7 m (outs m) c main_v47
    rw [V7_of m (outs m) c main_v47 (by decide), V6_outs]
  | ⟨1, _⟩ =>
    refine ((pdats m 1 c).arrAt_in 1 rfl _).trans ?_
    show V6 m (outs4 m) c main_arg5 = V7 m (outs m) c main_arg5
    rw [V7_of m (outs m) c main_arg5 (by decide), V6_outs]
  | ⟨2, _⟩ =>
    show o7 m c = Function.update (V6 m (outs m) c) main_v48 (outs m 7 main_v48 c) main_v48
    rw [Function.update_self]; exact (outs_7 m c).symm
theorem hrest1 (c : Dev nD) : ∀ b, b ∉ Finset.univ.image (Pipeline.arrRef spec1) → Ex1 m c b = En1 m c b :=
  fun b hb => by
    show V7 m (outs m) c b = V6 m (outs4 m) c b
    rw [V7_of m (outs m) c b (fun h => hb (Finset.mem_image.mpr ⟨2, Finset.mem_univ _, (List.mem_singleton.mp h).symm⟩)), V6_outs]

theorem hF2 (c : Dev nD) (w : Fin cfg2.W) : (pdats m 2 c).arrAt w cfg2.N = Ex2 m c (Pipeline.arrRef spec2 w) := by
  match w with
  | ⟨0, _⟩ =>
    refine ((pdats m 2 c).arrAt_in 0 rfl _).trans ?_
    show V11 m (outs7 m) c main_v74 = V12 m (outs m) c main_v74
    rw [V12_of m (outs m) c main_v74 (by decide), V11_outs]
  | ⟨1, _⟩ =>
    refine ((pdats m 2 c).arrAt_in 1 rfl _).trans ?_
    show V11 m (outs7 m) c main_v76 = V12 m (outs m) c main_v76
    rw [V12_of m (outs m) c main_v76 (by decide), V11_outs]
  | ⟨2, _⟩ =>
    show o12 m c = Function.update (V11 m (outs m) c) main_v77 (outs m 12 main_v77 c) main_v77
    rw [Function.update_self]; exact (outs_12 m c).symm
theorem hrest2 (c : Dev nD) : ∀ b, b ∉ Finset.univ.image (Pipeline.arrRef spec2) → Ex2 m c b = En2 m c b :=
  fun b hb => by
    show V12 m (outs m) c b = V11 m (outs7 m) c b
    rw [V12_of m (outs m) c b (fun h => hb (Finset.mem_image.mpr ⟨2, Finset.mem_univ _, (List.mem_singleton.mp h).symm⟩)), V11_outs]

/-! ## The regions as segments -/

-- a library lemma stated over the pinned configuration unifies with the printed one only when unification may unfold
-- plain definitions in a metavariable's type
set_option backward.isDefEq.respectTransparency.types false in
/-- Region 0 over the thread state: entered from every unscoped buffer at `V3 m`, left at `V4 m (outs m)`. Its arrays are
    split out of the unscoped buffers and put back at what the write-backs leave; the generator register goes into the
    region's invariant and comes back; nothing is owed; the kernel has no semaphore of its own. -/
def reg0 : RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L0 lv0 0 fun _ _ => rfl
  pre c := iprop(StableHlo.held (c : Thread nD τ) (Pipeline.ucRefs τ sig) (V3 m c) ∗ R0 c)
  post c := iprop(StableHlo.held (c : Thread nD τ) (Pipeline.ucRefs τ sig) (V4 m (outs m) c) ∗ R0 c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (En0 m c) (Ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `V6 m (outs4 m)` (which is `V6 m (outs m)`: `V6_outs`), left at `V7 m (outs m)`. Its arrays are
    split out of the unscoped buffers and put back at what the write-backs leave; the generator register goes into the
    region's invariant and comes back; nothing is owed; the kernel has no semaphore of its own. -/
def reg1 : RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ L0 lv0 1 fun _ _ => rfl
  pre c := iprop(StableHlo.held (c : Thread nD τ) (Pipeline.ucRefs τ sig) (V6 m (outs4 m) c) ∗ R0 c)
  post c := iprop(StableHlo.held (c : Thread nD τ) (Pipeline.ucRefs τ sig) (V7 m (outs m) c) ∗ R0 c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (En1 m c) (Ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `V11 m (outs7 m)` (which is `V11 m (outs m)`: `V11_outs`), left at `V12 m (outs m)`. Its arrays are
    split out of the unscoped buffers and put back at what the write-backs leave; the generator register goes into the
    region's invariant and comes back; nothing is owed; the kernel has no semaphore of its own. -/
def reg2 : RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ L0 lv0 2 fun _ _ => rfl
  pre c := iprop(StableHlo.held (c : Thread nD τ) (Pipeline.ucRefs τ sig) (V11 m (outs7 m) c) ∗ R0 c)
  post c := iprop(StableHlo.held (c : Thread nD τ) (Pipeline.ucRefs τ sig) (V12 m (outs m) c) ∗ R0 c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec2 c : sProp 𝕄)).trans (hin2 (En2 m) c)
    unfold Pipeline.ΦA
    iintro ⟨Hp, -, Hr⟩
    isplitl [Hr]; · iexact Hr
    iexact Hp
  hout c := by
    rw [Pipeline.ownSems0_none]
    refine (hout2 (En2 m) c).trans (?_ : (Pipeline.ΦA spec2 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (En2 m c) (Ex2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

-- the launch theorem's implicit arguments are found by unifying its conclusion with this one
set_option backward.isDefEq.respectTransparency.types false in
/-- THE RUN: from any memory `m` with zero counters every weakly fair execution of @main on the TensorCores terminates,
    nothing faulting, and every unscoped buffer of every core ends at the last valuation over what the regions leave. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V13 m (outs m) c b) :=
  run_cond m (Ix := Unit) (U := UR sig nD τ) (Lvl := ℕ) emb₁ () Variants.none L0 lv0 (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R0 c)
    (hE0 := by
      refine Pipeline.initEach L0 lv0 fun c => ?_
      iintro ⟨⟨-, HO, -, Hp, -⟩, -⟩
      imodintro
      isplitl [Hp]; · iexists _; iexact Hp
      iexists ∅; iexact HO)
    (hE3 := fun c => by
      iintro ⟨-, HO⟩; iexact HO)
    (R0 := reg0 m) (hpre0 := fun _ => .rfl) (hpost0 := fun _ => .rfl)
    (R1 := reg1 m) (hpre1 := fun c => by rw [V6_outs m c]; exact BI.Entails.refl _) (hpost1 := fun _ => .rfl)
    (R2 := reg2 m) (hpre2 := fun c => by rw [V11_outs m c]; exact BI.Entails.refl _) (hpost2 := fun _ => .rfl)

/-- THE FRAME: every execution terminates and every argument array ends as launched (no item of @main writes one). -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c (Proc.devRef .tc main_arg0) (Finset.mem_filter.mpr ⟨StableHlo.devRef_mem_tcRefs main_arg0, by decide⟩)).trans (V13_main_arg0 m (outs m) c),
      (h c (Proc.devRef .tc main_arg1) (Finset.mem_filter.mpr ⟨StableHlo.devRef_mem_tcRefs main_arg1, by decide⟩)).trans (V13_main_arg1 m (outs m) c),
      (h c (Proc.devRef .tc main_arg2) (Finset.mem_filter.mpr ⟨StableHlo.devRef_mem_tcRefs main_arg2, by decide⟩)).trans (V13_main_arg2 m (outs m) c),
      (h c (Proc.devRef .tc main_arg3) (Finset.mem_filter.mpr ⟨StableHlo.devRef_mem_tcRefs main_arg3, by decide⟩)).trans (V13_main_arg3 m (outs m) c),
      (h c (Proc.devRef .tc main_arg4) (Finset.mem_filter.mpr ⟨StableHlo.devRef_mem_tcRefs main_arg4, by decide⟩)).trans (V13_main_arg4 m (outs m) c),
      (h c (Proc.devRef .tc main_arg5) (Finset.mem_filter.mpr ⟨StableHlo.devRef_mem_tcRefs main_arg5, by decide⟩)).trans (V13_main_arg5 m (outs m) c),
      (h c (Proc.devRef .tc main_arg6) (Finset.mem_filter.mpr ⟨StableHlo.devRef_mem_tcRefs main_arg6, by decide⟩)).trans (V13_main_arg6 m (outs m) c)⟩)
    (run_all m ρ)

/-- THE RESULT: every execution terminates with the result buffer at the last host stretch's term over what the
    regions leave, and every argument array as launched. -/
theorem result_all (ρ : Dev nD → PrngReg) :
    θ_run defs (onTc (τ := τ) (main (F := F))) ⟨m, fun _ => 0, ρ⟩ (fun r => ∀ c : Dev nD,
      r.2.mem ((c.tc : Thread nD τ).loc main_v82) = V13 m (outs m) c main_v82
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c (Proc.devRef .tc main_v82) (Finset.mem_filter.mpr ⟨StableHlo.devRef_mem_tcRefs main_v82, by decide⟩),
      (h c (Proc.devRef .tc main_arg0) (Finset.mem_filter.mpr ⟨StableHlo.devRef_mem_tcRefs main_arg0, by decide⟩)).trans (V13_main_arg0 m (outs m) c),
      (h c (Proc.devRef .tc main_arg1) (Finset.mem_filter.mpr ⟨StableHlo.devRef_mem_tcRefs main_arg1, by decide⟩)).trans (V13_main_arg1 m (outs m) c),
      (h c (Proc.devRef .tc main_arg2) (Finset.mem_filter.mpr ⟨StableHlo.devRef_mem_tcRefs main_arg2, by decide⟩)).trans (V13_main_arg2 m (outs m) c),
      (h c (Proc.devRef .tc main_arg3) (Finset.mem_filter.mpr ⟨StableHlo.devRef_mem_tcRefs main_arg3, by decide⟩)).trans (V13_main_arg3 m (outs m) c),
      (h c (Proc.devRef .tc main_arg4) (Finset.mem_filter.mpr ⟨StableHlo.devRef_mem_tcRefs main_arg4, by decide⟩)).trans (V13_main_arg4 m (outs m) c),
      (h c (Proc.devRef .tc main_arg5) (Finset.mem_filter.mpr ⟨StableHlo.devRef_mem_tcRefs main_arg5, by decide⟩)).trans (V13_main_arg5 m (outs m) c),
      (h c (Proc.devRef .tc main_arg6) (Finset.mem_filter.mpr ⟨StableHlo.devRef_mem_tcRefs main_arg6, by decide⟩)).trans (V13_main_arg6 m (outs m) c)⟩)
    (run_all m ρ)

end Cert.KernelIdeal.Hand

end
-- ==== Proof.Spec.lean ====
/- What the two programs compute, as named functions of the argument arrays (the graph-convolution network with
   symmetric degree normalisation, two layers, then a mean over the nodes of each graph):

   * `srcIdx` / `dstIdx`: the edge list's source and target rows, each followed by 0 … n−1 (the self-loops);
   * `deg`: the number of edges arriving at each node; `dinv`: deg^(−1/2) where deg > 0, else 0;
   * `norm e = dinv(src e) · dinv(dst e)`;
   * `agg xw ei b`: node d receives Σ over the edges e into d of xw[src e] · norm e, plus the bias b;
   * `relu`; the projections are the plain matrix products `proj`;
   * the reference pools by adding each node's row into its graph's row (`poolRef`) and counts the nodes of a graph the
     same way (`cntRef`); the kernel pools by the product of the 64 × 50176 membership matrix (`ohPad`) with the padded
     node features (`hPad`), `pool`, and counts by the membership matrix's row sums (`cntKer`);
   * both divide the pooled sums by max(count, 1).
   The operations are spelled exactly as the two programs print them, so that each program's run states its result as
   `refOut` resp. `kerOut` of the arguments. -/
import proofs.«429279_j53317724013285_2_alg».proof.Proof.Gen.KernelIdeal
import proofs.«429279_j53317724013285_2_alg».proof.Proof.Gen.ReferenceIdeal
import Idealize.ShloMosaic.PureOps.Ideal
import Idealize.ShloMosaic.Lib.ValueIdx

noncomputable section

namespace Cert.Spec

open Cert.KernelIdeal Cert.KernelIdeal.Gen Idealize.ShloMosaic

variable {F : FTy → Type} [FloatOps F]

abbrev EdgeIdx (F : FTy → Type) := (⟨S2x800000, .i32⟩ : BufTy).Contents (Elt F)
abbrev Idx850k (F : FTy → Type) := (⟨S850000, .i32⟩ : BufTy).Contents (Elt F)
abbrev Batch (F : FTy → Type) := (⟨S50000, .i32⟩ : BufTy).Contents (Elt F)
abbrev Nodes (F : FTy → Type) := (⟨S50000x128, .f32⟩ : BufTy).Contents (Elt F)
abbrev Mat (F : FTy → Type) := (⟨S128x128, .f32⟩ : BufTy).Contents (Elt F)
abbrev Bias (F : FTy → Type) := (⟨S128, .f32⟩ : BufTy).Contents (Elt F)
abbrev Pooled (F : FTy → Type) := (⟨S64x128, .f32⟩ : BufTy).Contents (Elt F)

/-- Row 0 of the edge list, then 0 … 49999: where each message comes from. -/
def srcIdx (ei : EdgeIdx F) : Idx850k F :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- Row 1 of the edge list, then 0 … 49999: where each message goes. -/
def dstIdx (ei : EdgeIdx F) : Idx850k F :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A negative index counts from the end. -/
def wrap (i : Idx850k F) : Idx850k F :=
  select (cmpi .slt i (broadcastInDim S850000 ![] bcast_S_S850000 (constantI S_ 32 0#32))) (addi i (broadcastInDim S850000 ![] bcast_S_S850000 (constantI S_ 32 50000#32))) i

/-- The number of edges (self-loop included) arriving at each node. -/
def deg (ei : EdgeIdx F) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dstIdx ei)) (broadcastInDim S850000 ![] bcast_S_S850000 (constant S_ .f32 0x3F800000#32))

/-- deg^(−1/2) where the degree is positive, 0 elsewhere. -/
def dinv (ei : EdgeIdx F) : (⟨S50000, .f32⟩ : BufTy).Contents (Elt F) :=
  select (cmpf .ogt (deg ei) (broadcastInDim S50000 ![] bcast_S_S50000 (constant S_ .f32 0x00000000#32))) (Host.rsqrt (deg ei)) (broadcastInDim S50000 ![] bcast_S_S50000 (id (constant S_ .f32 0x00000000#32)))

/-- The weight of each edge: dinv at its source times dinv at its target. -/
def norm (ei : EdgeIdx F) : (⟨S850000, .f32⟩ : BufTy).Contents (Elt F) :=
  mulf (Host.gather gather_S50000_S850000x1_S850000_n_0_n_n_0_1_1 (dinv ei) (broadcastInDim S850000x1 ![0] bcast_S850000_S850000x1_0 (wrap (srcIdx ei)))) (Host.gather gather_S50000_S850000x1_S850000_n_0_n_n_0_1_1 (dinv ei) (broadcastInDim S850000x1 ![0] bcast_S850000_S850000x1_0 (wrap (dstIdx ei))))

/-- One aggregation: every node adds up its incoming messages xw[src] · nrm, then the bias. -/
def agg (xw : Nodes F) (nrm : (⟨S850000, .f32⟩ : BufTy).Contents (Elt F)) (ei : EdgeIdx F) (b : Bias F) : Nodes F :=
  addf (Host.scatterAdd scatter_S50000x128_S850000x1_S850000x128_1_0_0_1 (broadcastInDim S50000x128 ![] bcast_S_S50000x128 (constant S_ .f32 0x00000000#32)) (broadcastInDim S850000x1 ![0] bcast_S850000_S850000x1_0 (dstIdx ei)) (mulf (Host.gather gather_S50000x128_S850000x1_S850000x128_1_0_n_n_0_1_1128 xw (broadcastInDim S850000x1 ![0] bcast_S850000_S850000x1_0 (wrap (srcIdx ei)))) (broadcastInDim S850000x128 ![0, 1] bcast_S850000x1_S850000x128_0_1 (broadcastInDim S850000x1 ![0] bcast_S850000_S850000x1_0 nrm)))) (broadcastInDim S50000x128 ![0, 1] bcast_S1x128_S50000x128_0_1 (broadcastInDim S1x128 ![1] bcast_S128_S1x128_1 b))

def relu (x : Nodes F) : Nodes F :=
  maximumf x (broadcastInDim S50000x128 ![] bcast_S_S50000x128 (constant S_ .f32 0x00000000#32))

/-- The reference's projection: the host's matrix product. -/
def proj (x : Nodes F) (w : Mat F) : Nodes F :=
  Host.dotGeneral Cert.ReferenceIdeal.dot_S50000x128_S128x128_S50000x128_1_0_0_1_n_n none x w

/-- max(count, 1), spread over the 128 features. -/
def denom (cnt : (⟨S64, .f32⟩ : BufTy).Contents (Elt F)) : Pooled F :=
  broadcastInDim S64x128 ![0, 1] bcast_S64x1_S64x128_0_1 (broadcastInDim S64x1 ![0] bcast_S64_S64x1_0 (maximumf cnt (broadcastInDim S64 ![] bcast_S_S64 (constant S_ .f32 0x3F800000#32))))

/-! ## The reference's pooling -/

def poolRef (batch : Batch F) (y : Nodes F) : Pooled F :=
  Host.scatterAdd Cert.ReferenceIdeal.scatter_S64x128_S50000x1_S50000x128_1_0_0_1 (broadcastInDim S64x128 ![] Cert.ReferenceIdeal.Gen.bcast_S_S64x128 (constant S_ .f32 0x00000000#32)) (broadcastInDim Cert.ReferenceIdeal.S50000x1 ![0] Cert.ReferenceIdeal.Gen.bcast_S50000_S50000x1_0 batch) y

def cntRef (batch : Batch F) : (⟨S64, .f32⟩ : BufTy).Contents (Elt F) :=
  Host.scatterAdd Cert.ReferenceIdeal.scatter_S64_S50000x1_S50000_n_0_0_1 (broadcastInDim S64 ![] bcast_S_S64 (constant S_ .f32 0x00000000#32)) (broadcastInDim Cert.ReferenceIdeal.S50000x1 ![0] Cert.ReferenceIdeal.Gen.bcast_S50000_S50000x1_0 batch) (broadcastInDim S50000 ![] bcast_S_S50000 (constant S_ .f32 0x3F800000#32))

/-- The reference: two layers (the edge weights recomputed for the second, from the same edge list), the pooled sums over the counts. -/
def refOut (x : Nodes F) (ei : EdgeIdx F) (batch : Batch F) (W1 : Mat F) (b1 : Bias F) (W2 : Mat F) (b2 : Bias F) : Pooled F :=
  Host.divf (poolRef batch (agg (proj (relu (agg (proj x W1) (norm ei) ei b1)) W2) (norm ei) ei b2)) (denom (cntRef batch))

/-! ## The kernel's pooling -/

/-- The membership matrix: entry (g, n) is 1 when node n belongs to graph g, else 0. -/
def onehot (batch : Batch F) : (⟨S64x50000, .bf16⟩ : BufTy).Contents (Elt F) :=
  uitofp .bf16 (cmpi .eq (broadcastInDim S64x50000 ![0, 1] bcast_S1x50000_S64x50000_0_1 (broadcastInDim S1x50000 ![1] bcast_S50000_S1x50000_1 batch)) (broadcastInDim S64x50000 ![0, 1] bcast_S64x1_S64x50000_0_1 (broadcastInDim S64x1 ![0] bcast_S64_S64x1_0 (iotaInDim S64 32 0))))

def cntKer (batch : Batch F) : (⟨S64, .f32⟩ : BufTy).Contents (Elt F) :=
  Host.reduceAdd (extf .f32 (onehot batch) bitsLt_bf16_f32) (constant S_ .f32 0x00000000#32) reducesTo_S64x50000_S64_d1 h_S_

/-- The membership matrix with 176 zero columns appended. -/
def ohPad (batch : Batch F) : (⟨S64x50176, .bf16⟩ : BufTy).Contents (Elt F) :=
  pad S64x50176 ![0, 0] ![0, 176] ![0, 0] (onehot batch) (sitofp .bf16 (constantI S_ 32 0#32)) pads_S64x50000_S64x50176_000_01760 h_S_

/-- The node features with 176 zero rows appended. -/
def hPad (y : Nodes F) : (⟨S50176x128, .bf16⟩ : BufTy).Contents (Elt F) :=
  pad S50176x128 ![0, 0] ![176, 0] ![0, 0] (truncf .bf16 y bitsLt_bf16_f32) (sitofp .bf16 (constantI S_ 32 0#32)) pads_S50000x128_S50176x128_01760_000 h_S_

end Cert.Spec

end
-- ==== Proof.KI.HostGlue.lean ====
/- What the host operations of the kernel program compute between its three kernel regions.

   The edge weights, the two aggregations, the membership matrix and its row sums, the two paddings and the final
   division are each a short straight line of array operations.  Every line is read off once, over an arbitrary
   valuation of the buffers before it, as the named function of Spec.lean applied to the buffers the line reads;
   a buffer a line does not write keeps its contents.  Chaining these facts from the launch memory to the end states
   what the buffers feeding each region, and the program's result, hold. -/
import proofs.«429279_j53317724013285_2_alg».proof.Proof.Gen.KernelIdeal.Regions
import proofs.«429279_j53317724013285_2_alg».proof.Proof.Spec
import Idealize.ShloMosaic.Lib.StableHlo.Run

set_option maxRecDepth 1032

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## Each line, over the valuation before it

`W` is any valuation of the buffers; each statement names what one buffer holds after one line of host operations, as a
function of what the buffers the line reads held before it. -/

section Lines

variable (W : Valuation τ sig (Elt F))

/-- The first line builds the source indices: row 0 of the edge list followed by 0 … 49999. -/
theorem line0_v5 : StableHlo.after hostOps0 W main_v5 = Cert.Spec.srcIdx (W main_arg1) := by
  dsimp only [hostOps0]; after_results <;> rfl

/-- … and the target indices: row 1 of the edge list followed by 0 … 49999. -/
theorem line0_v6 : StableHlo.after hostOps0 W main_v6 = Cert.Spec.dstIdx (W main_arg1) := by
  dsimp only [hostOps0]; after_results <;> rfl

/-- … where the degree is positive, -/
theorem line0_v12 : StableHlo.after hostOps0 W main_v12
    = cmpf .ogt (Cert.Spec.deg (W main_arg1)) (broadcastInDim S50000 ![] bcast_S_S50000 (constant S_ .f32 0x00000000#32)) := by
  dsimp only [hostOps0]; after_results <;> rfl

/-- … the degree's inverse square root, -/
theorem line0_v13 : StableHlo.after hostOps0 W main_v13 = Host.rsqrt (Cert.Spec.deg (W main_arg1)) := by
  dsimp only [hostOps0]; after_results <;> rfl

/-- … and the zero the selection falls back to. -/
theorem line0_cst_2 : StableHlo.after hostOps0 W main_cst_2 = (constant S_ .f32 0x00000000#32 : (⟨S_, .f32⟩ : BufTy).Contents (Elt F)) := by
  dsimp only [hostOps0]; after_results <;> rfl

/-- The selection: the second operand where the mask holds, the spread third operand elsewhere. -/
theorem line0_1_v14 : StableHlo.after hostOps0_1 W main_v14
    = select (W main_v12) (W main_v13) (broadcastInDim S50000 ![] bcast_S_S50000 (id (W main_cst_2))) := by
  dsimp only [hostOps0_1]; after_results <;> rfl

/-- The edge weights: the per-node factor gathered at the (wrapped) sources times the same at the (wrapped) targets. -/
theorem line0_2_v29 : StableHlo.after hostOps0_2 W main_v29
    = mulf (Host.gather gather_S50000_S850000x1_S850000_n_0_n_n_0_1_1 (W main_v14) (broadcastInDim S850000x1 ![0] bcast_S850000_S850000x1_0 (Cert.Spec.wrap (W main_v5))))
        (Host.gather gather_S50000_S850000x1_S850000_n_0_n_n_0_1_1 (W main_v14) (broadcastInDim S850000x1 ![0] bcast_S850000_S850000x1_0 (Cert.Spec.wrap (W main_v6)))) := by
  dsimp only [hostOps0_2]; after_results_simp <;> rfl

/-- The first aggregation, when the index buffers hold the edge list's sources and targets. -/
theorem line1_v46 (ei : Cert.Spec.EdgeIdx F) (h5 : W main_v5 = Cert.Spec.srcIdx ei) (h6 : W main_v6 = Cert.Spec.dstIdx ei) :
    StableHlo.after hostOps1 W main_v46 = Cert.Spec.agg (W main_v30) (W main_v29) ei (W main_arg4) := by
  dsimp only [hostOps1]; after_results_simp; rw [h5, h6]; rfl

/-- The rectifier. -/
theorem line1_1_v47 : StableHlo.after hostOps1_1 W main_v47 = Cert.Spec.relu (W main_v46) := by
  dsimp only [hostOps1_1]; after_results <;> rfl

/-- The second aggregation, when the index buffers hold the edge list's sources and targets. -/
theorem line2_v64 (ei : Cert.Spec.EdgeIdx F) (h5 : W main_v5 = Cert.Spec.srcIdx ei) (h6 : W main_v6 = Cert.Spec.dstIdx ei) :
    StableHlo.after hostOps2 W main_v64 = Cert.Spec.agg (W main_v48) (W main_v29) ei (W main_arg6) := by
  dsimp only [hostOps2]; after_results_simp; rw [h5, h6]; rfl

/-- The membership matrix. -/
theorem line2_v71 : StableHlo.after hostOps2 W main_v71 = Cert.Spec.onehot (W main_arg2) := by
  dsimp only [hostOps2]; after_results <;> rfl

/-- Its row sums: the number of nodes of each graph. -/
theorem line2_v73 : StableHlo.after hostOps2 W main_v73 = Cert.Spec.cntKer (W main_arg2) := by
  dsimp only [hostOps2]; after_results <;> rfl

/-- The integer zero the first padding value is converted from. -/
theorem line2_c_13 : StableHlo.after hostOps2 W main_c_13 = (constantI S_ 32 0#32 : (⟨S_, .i32⟩ : BufTy).Contents (Elt F)) := by
  dsimp only [hostOps2]; after_results <;> rfl

/-- The membership matrix padded with 176 columns. -/
theorem line2_1_v74 : StableHlo.after hostOps2_1 W main_v74
    = pad S64x50176 ![0, 0] ![0, 176] ![0, 0] (W main_v71) (sitofp .bf16 (W main_c_13)) pads_S64x50000_S64x50176_000_01760 h_S_ := by
  dsimp only [hostOps2_1]; after_results <;> rfl

/-- The features rounded to the narrow format. -/
theorem line2_2_v75 : StableHlo.after hostOps2_2 W main_v75 = truncf .bf16 (W main_v64) bitsLt_bf16_f32 := by
  dsimp only [hostOps2_2]; after_results <;> rfl

/-- The integer zero the second padding value is converted from. -/
theorem line2_2_c_14 : StableHlo.after hostOps2_2 W main_c_14 = (constantI S_ 32 0#32 : (⟨S_, .i32⟩ : BufTy).Contents (Elt F)) := by
  dsimp only [hostOps2_2]; after_results <;> rfl

/-- The rounded features padded with 176 rows. -/
theorem line2_3_v76 : StableHlo.after hostOps2_3 W main_v76
    = pad S50176x128 ![0, 0] ![176, 0] ![0, 0] (W main_v75) (sitofp .bf16 (W main_c_14)) pads_S50000x128_S50176x128_01760_000 h_S_ := by
  dsimp only [hostOps2_3]; after_results <;> rfl

/-- The last line divides the pooled sums by max(count, 1). -/
theorem line3_v82 : StableHlo.after hostOps3 W main_v82 = Host.divf (W main_v77) (Cert.Spec.denom (W main_v73)) := by
  dsimp only [hostOps3]; after_results <;> rfl

end Lines

/-! ## From the launch memory to the end

`m` is the launch memory, `c` a core, `outs` what the three regions leave.  The valuations `V0 … V13` between the items
are those of the conditional frame. -/

section Chain

variable (m : (ℓ : Loc nD τ sig) → Buf (Elt F) ℓ) (outs : Outs (F := F)) (c : Dev nD)

/-! ### The arguments are never written -/

theorem V3_arg0 : V3 m c main_arg0 = m ((c : Thread nD τ).loc main_arg0) :=
  (V3_of m c main_arg0 (by decide)).trans <| (V2_of m c main_arg0 (by decide)).trans <| (V1_of m c main_arg0 (by decide)).trans <| rfl
theorem V3_arg3 : V3 m c main_arg3 = m ((c : Thread nD τ).loc main_arg3) :=
  (V3_of m c main_arg3 (by decide)).trans <| (V2_of m c main_arg3 (by decide)).trans <| (V1_of m c main_arg3 (by decide)).trans <| rfl
theorem V4_arg4 : V4 m outs c main_arg4 = m ((c : Thread nD τ).loc main_arg4) :=
  (V4_of m outs c main_arg4 (by decide)).trans <| (V3_of m c main_arg4 (by decide)).trans <| (V2_of m c main_arg4 (by decide)).trans <| (V1_of m c main_arg4 (by decide)).trans <| rfl
theorem V6_arg5 : V6 m outs c main_arg5 = m ((c : Thread nD τ).loc main_arg5) :=
  (V6_of m outs c main_arg5 (by decide)).trans <| (V5_of m outs c main_arg5 (by decide)).trans <| (V4_of m outs c main_arg5 (by decide)).trans <| (V3_of m c main_arg5 (by decide)).trans <| (V2_of m c main_arg5 (by decide)).trans <| (V1_of m c main_arg5 (by decide)).trans <| rfl
theorem V7_arg2 : V7 m outs c main_arg2 = m ((c : Thread nD τ).loc main_arg2) :=
  (V7_of m outs c main_arg2 (by decide)).trans <| (V6_of m outs c main_arg2 (by decide)).trans <| (V5_of m outs c main_arg2 (by decide)).trans <| (V4_of m outs c main_arg2 (by decide)).trans <| (V3_of m c main_arg2 (by decide)).trans <| (V2_of m c main_arg2 (by decide)).trans <| (V1_of m c main_arg2 (by decide)).trans <| rfl
theorem V7_arg6 : V7 m outs c main_arg6 = m ((c : Thread nD τ).loc main_arg6) :=
  (V7_of m outs c main_arg6 (by decide)).trans <| (V6_of m outs c main_arg6 (by decide)).trans <| (V5_of m outs c main_arg6 (by decide)).trans <| (V4_of m outs c main_arg6 (by decide)).trans <| (V3_of m c main_arg6 (by decide)).trans <| (V2_of m c main_arg6 (by decide)).trans <| (V1_of m c main_arg6 (by decide)).trans <| rfl

/-! ### The edge indices and the edge weights, computed once before region 0 and read again after it -/

theorem V1_v5 : V1 m c main_v5 = Cert.Spec.srcIdx (m ((c : Thread nD τ).loc main_arg1)) := line0_v5 (V0 m c)
theorem V1_v6 : V1 m c main_v6 = Cert.Spec.dstIdx (m ((c : Thread nD τ).loc main_arg1)) := line0_v6 (V0 m c)
theorem V1_v12 : V1 m c main_v12
    = cmpf .ogt (Cert.Spec.deg (m ((c : Thread nD τ).loc main_arg1))) (broadcastInDim S50000 ![] bcast_S_S50000 (constant S_ .f32 0x00000000#32)) :=
  line0_v12 (V0 m c)
theorem V1_v13 : V1 m c main_v13 = Host.rsqrt (Cert.Spec.deg (m ((c : Thread nD τ).loc main_arg1))) := line0_v13 (V0 m c)
theorem V1_cst_2 : V1 m c main_cst_2 = (constant S_ .f32 0x00000000#32 : (⟨S_, .f32⟩ : BufTy).Contents (Elt F)) := line0_cst_2 (V0 m c)

/-- deg^(−1/2) where the degree is positive, 0 elsewhere. -/
theorem V2_v14 : V2 m c main_v14 = Cert.Spec.dinv (m ((c : Thread nD τ).loc main_arg1)) := by
  refine (line0_1_v14 (V1 m c)).trans ?_
  rw [V1_v12, V1_v13, V1_cst_2]; rfl

theorem V2_v5 : V2 m c main_v5 = Cert.Spec.srcIdx (m ((c : Thread nD τ).loc main_arg1)) := (V2_of m c main_v5 (by decide)).trans <| V1_v5 m c
theorem V2_v6 : V2 m c main_v6 = Cert.Spec.dstIdx (m ((c : Thread nD τ).loc main_arg1)) := (V2_of m c main_v6 (by decide)).trans <| V1_v6 m c

/-- The edge weights. -/
theorem V3_v29 : V3 m c main_v29 = Cert.Spec.norm (m ((c : Thread nD τ).loc main_arg1)) := by
  refine (line0_2_v29 (V2 m c)).trans ?_
  rw [V2_v14, V2_v5, V2_v6]; rfl

theorem V4_v5 : V4 m outs c main_v5 = Cert.Spec.srcIdx (m ((c : Thread nD τ).loc main_arg1)) := (V4_of m outs c main_v5 (by decide)).trans <| (V3_of m c main_v5 (by decide)).trans <| V2_v5 m c
theorem V4_v6 : V4 m outs c main_v6 = Cert.Spec.dstIdx (m ((c : Thread nD τ).loc main_arg1)) := (V4_of m outs c main_v6 (by decide)).trans <| (V3_of m c main_v6 (by decide)).trans <| V2_v6 m c
theorem V4_v29 : V4 m outs c main_v29 = Cert.Spec.norm (m ((c : Thread nD τ).loc main_arg1)) := (V4_of m outs c main_v29 (by decide)).trans <| V3_v29 m c
/-- Region 0 leaves its product in `main_v30`. -/
theorem V4_v30 : V4 m outs c main_v30 = outs 4 main_v30 c := Function.update_self _ _ _

/-! ### Between regions 0 and 1: the first aggregation and the rectifier -/

theorem V5_v46 : V5 m outs c main_v46
    = Cert.Spec.agg (outs 4 main_v30 c) (Cert.Spec.norm (m ((c : Thread nD τ).loc main_arg1))) (m ((c : Thread nD τ).loc main_arg1)) (m ((c : Thread nD τ).loc main_arg4)) := by
  refine (line1_v46 (V4 m outs c) (m ((c : Thread nD τ).loc main_arg1)) (V4_v5 m outs c) (V4_v6 m outs c)).trans ?_
  rw [V4_v30, V4_v29, V4_arg4]

theorem V6_v47 : V6 m outs c main_v47
    = Cert.Spec.relu (Cert.Spec.agg (outs 4 main_v30 c) (Cert.Spec.norm (m ((c : Thread nD τ).loc main_arg1))) (m ((c : Thread nD τ).loc main_arg1)) (m ((c : Thread nD τ).loc main_arg4))) := by
  refine (line1_1_v47 (V5 m outs c)).trans ?_
  rw [V5_v46]

/-! ### Between regions 1 and 2: the second aggregation, the membership matrix, the paddings -/

theorem V7_v5 : V7 m outs c main_v5 = Cert.Spec.srcIdx (m ((c : Thread nD τ).loc main_arg1)) := (V7_of m outs c main_v5 (by decide)).trans <| (V6_of m outs c main_v5 (by decide)).trans <| (V5_of m outs c main_v5 (by decide)).trans <| V4_v5 m outs c
theorem V7_v6 : V7 m outs c main_v6 = Cert.Spec.dstIdx (m ((c : Thread nD τ).loc main_arg1)) := (V7_of m outs c main_v6 (by decide)).trans <| (V6_of m outs c main_v6 (by decide)).trans <| (V5_of m outs c main_v6 (by decide)).trans <| V4_v6 m outs c
theorem V7_v29 : V7 m outs c main_v29 = Cert.Spec.norm (m ((c : Thread nD τ).loc main_arg1)) := (V7_of m outs c main_v29 (by decide)).trans <| (V6_of m outs c main_v29 (by decide)).trans <| (V5_of m outs c main_v29 (by decide)).trans <| V4_v29 m outs c
/-- Region 1 leaves its product in `main_v48`. -/
theorem V7_v48 : V7 m outs c main_v48 = outs 7 main_v48 c := Function.update_self _ _ _

theorem V8_v64 : V8 m outs c main_v64
    = Cert.Spec.agg (outs 7 main_v48 c) (Cert.Spec.norm (m ((c : Thread nD τ).loc main_arg1))) (m ((c : Thread nD τ).loc main_arg1)) (m ((c : Thread nD τ).loc main_arg6)) := by
  refine (line2_v64 (V7 m outs c) (m ((c : Thread nD τ).loc main_arg1)) (V7_v5 m outs c) (V7_v6 m outs c)).trans ?_
  rw [V7_v48, V7_v29, V7_arg6]

theorem V8_v71 : V8 m outs c main_v71 = Cert.Spec.onehot (m ((c : Thread nD τ).loc main_arg2)) := by
  refine (line2_v71 (V7 m outs c)).trans ?_
  rw [V7_arg2]

theorem V8_v73 : V8 m outs c main_v73 = Cert.Spec.cntKer (m ((c : Thread nD τ).loc main_arg2)) := by
  refine (line2_v73 (V7 m outs c)).trans ?_
  rw [V7_arg2]

theorem V8_c_13 : V8 m outs c main_c_13 = (constantI S_ 32 0#32 : (⟨S_, .i32⟩ : BufTy).Contents (Elt F)) := line2_c_13 (V7 m outs c)

theorem V9_v74 : V9 m outs c main_v74 = Cert.Spec.ohPad (m ((c : Thread nD τ).loc main_arg2)) := by
  refine (line2_1_v74 (V8 m outs c)).trans ?_
  rw [V8_v71, V8_c_13]; rfl

theorem V9_v64 : V9 m outs c main_v64
    = Cert.Spec.agg (outs 7 main_v48 c) (Cert.Spec.norm (m ((c : Thread nD τ).loc main_arg1))) (m ((c : Thread nD τ).loc main_arg1)) (m ((c : Thread nD τ).loc main_arg6)) :=
  (V9_of m outs c main_v64 (by decide)).trans <| V8_v64 m outs c

theorem V10_v75 : V10 m outs c main_v75
    = truncf .bf16 (Cert.Spec.agg (outs 7 main_v48 c) (Cert.Spec.norm (m ((c : Thread nD τ).loc main_arg1))) (m ((c : Thread nD τ).loc main_arg1)) (m ((c : Thread nD τ).loc main_arg6))) bitsLt_bf16_f32 := by
  refine (line2_2_v75 (V9 m outs c)).trans ?_
  rw [V9_v64]

theorem V10_c_14 : V10 m outs c main_c_14 = (constantI S_ 32 0#32 : (⟨S_, .i32⟩ : BufTy).Contents (Elt F)) := line2_2_c_14 (V9 m outs c)

/-- The padded membership matrix, as region 2 reads it. -/
theorem V11_v74 : V11 m outs c main_v74 = Cert.Spec.ohPad (m ((c : Thread nD τ).loc main_arg2)) :=
  (V11_of m outs c main_v74 (by decide)).trans <| (V10_of m outs c main_v74 (by decide)).trans <| V9_v74 m outs c

/-- The padded features, as region 2 reads them. -/
theorem V11_v76 : V11 m outs c main_v76
    = Cert.Spec.hPad (Cert.Spec.agg (outs 7 main_v48 c) (Cert.Spec.norm (m ((c : Thread nD τ).loc main_arg1))) (m ((c : Thread nD τ).loc main_arg1)) (m ((c : Thread nD τ).loc main_arg6))) := by
  refine (line2_3_v76 (V10 m outs c)).trans ?_
  rw [V10_v75, V10_c_14]; rfl

/-! ### After region 2: the division by the counts -/

theorem V12_v73 : V12 m outs c main_v73 = Cert.Spec.cntKer (m ((c : Thread nD τ).loc main_arg2)) :=
  (V12_of m outs c main_v73 (by decide)).trans <| (V11_of m outs c main_v73 (by decide)).trans <| (V10_of m outs c main_v73 (by decide)).trans <| (V9_of m outs c main_v73 (by decide)).trans <| V8_v73 m outs c
/-- Region 2 leaves the pooled sums in `main_v77`. -/
theorem V12_v77 : V12 m outs c main_v77 = outs 12 main_v77 c := Function.update_self _ _ _

/-- The program's result. -/
theorem V13_v82 : V13 m outs c main_v82
    = Host.divf (outs 12 main_v77 c) (Cert.Spec.denom (Cert.Spec.cntKer (m ((c : Thread nD τ).loc main_arg2)))) := by
  refine (line3_v82 (V12 m outs c)).trans ?_
  rw [V12_v77, V12_v73]

end Chain

end Cert.KernelIdeal.Hand

end
-- ==== Proof.SpecIdeal.lean ====
/- The kernel's pooling over the extended reals, and the kernel's whole result as a function of the arguments: the
   membership matrix (padded) times the padded node features, a sum over all 50176 columns, over max(count, 1). -/
import proofs.«429279_j53317724013285_2_alg».proof.Proof.Spec
import Idealize.ShloMosaic.PureOps.Ideal.Laws

noncomputable section

namespace Cert.Spec

open Cert.KernelIdeal Cert.KernelIdeal.Gen Idealize.ShloMosaic

/-- Entry (g, f) of the pooled sums: Σ over the 50176 (padded) nodes n of member(g, n) · feature(n, f). -/
def pool (o : (⟨S64x50176, .bf16⟩ : BufTy).Contents (Elt Ideal)) (h : (⟨S50176x128, .bf16⟩ : BufTy).Contents (Elt Ideal)) : Pooled Ideal :=
  fun i => ∑ n : Fin 50176, ((o (ValueIdx.ix2 (n0 := 64) (n1 := 50176) (i 0) n) : EReal) * (h (ValueIdx.ix2 (n0 := 50176) (n1 := 128) n (i 1)) : EReal) : EReal)

/-- The kernel: the same two layers (the edge weights computed once), pooled by the membership product. -/
def kerOut (x : Nodes Ideal) (ei : EdgeIdx Ideal) (batch : Batch Ideal) (W1 : Mat Ideal) (b1 : Bias Ideal) (W2 : Mat Ideal) (b2 : Bias Ideal) : Pooled Ideal :=
  Host.divf (pool (ohPad batch) (hPad (agg (proj (relu (agg (proj x W1) (norm ei) ei b1)) W2) (norm ei) ei b2))) (denom (cntKer batch))

end Cert.Spec

end
-- ==== Proof.KI.LinValue.lean ====
/- What the two projection regions (x · W₁ and h · W₂) leave in their output arrays over the extended reals: the body's
   5000 × 128 output tile is the row tile times the whole 128 × 128 matrix, entry (r, c) = Σ over k < 128 of
   tile(r, k) · matrix(k, c); tile t sits at rows 5000 t … 5000 t + 4999 of the array, so what point t writes back is
   that row block of the plain matrix product of the two input arrays, and the ten tiles cover the 50000 rows. -/
import proofs.«429279_j53317724013285_2_alg».proof.Proof.Gen.KernelIdeal.Launch
import proofs.«429279_j53317724013285_2_alg».proof.Proof.Gen.KernelIdeal.Skeleton
import proofs.«429279_j53317724013285_2_alg».proof.Proof.Gen.KernelIdeal.Points
import proofs.«429279_j53317724013285_2_alg».proof.Proof.KI.LinDefs
import proofs.«429279_j53317724013285_2_alg».proof.Proof.SpecIdeal
import Idealize.ShloMosaic.Lib.Pipeline.FrameBody
import Idealize.ShloMosaic.Lib.Pipeline.Frame
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The two contractions, read at an index

Both the tile product of the body (5000 rows) and the host's product (50000 rows) contract axis 1 of the left operand
with axis 0 of the right one: at result index (r, c) and contraction position k the operands are read at (r, k) and (k, c). -/

theorem lhsTile_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsTile_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsTile_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsTile_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The tile product into a zero accumulator at (r, c): Σ over k < 128 of a(r, k) · b(k, c). -/
theorem tileDot_apply (a : FVec Ideal S5000x128 .bf16) (b : FVec Ideal S128x128 .bf16) (j : S5000x128.Idx) :
    FloatOps.matmul dot_S5000x128_S128x128_S5000x128_1_0_0_1_n_n none a b (constant (F := Ideal) S5000x128 .f32 0x00000000#32) j
      = ∑ k : Fin 128, a (ix2 (n0 := 5000) (n1 := 128) (j 0) k) * b (ix2 (n0 := 128) (n1 := 128) k (j 1)) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = ix2 (n0 := 5000) (n1 := 128) (j 0) k := funext fun a => Fin.ext (by
    match a with
    | ⟨0, _⟩ => exact lhsTile_0 _ _
    | ⟨1, _⟩ => exact (lhsTile_1 _ _).trans hk)
  have er : dot_S5000x128_S128x128_S5000x128_1_0_0_1_n_n.rhsIdx j ((ValueIdx.contrEquiv1 dot_S5000x128_S128x128_S5000x128_1_0_0_1_n_n 128 rfl rfl).symm k) = ix2 (n0 := 128) (n1 := 128) k (j 1) := funext fun a => Fin.ext (by
    match a with
    | ⟨0, _⟩ => exact (rhsTile_0 _ _).trans hk
    | ⟨1, _⟩ => exact rhsTile_1 _ _)
  rw [el, er]

theorem lhsWhole_0 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem lhsWhole_1 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rhsWhole_0 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rhsWhole_1 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

/-- The host's product at (r, c): Σ over k < 128 of x(r, k) · w(k, c). -/
theorem proj_apply (x : Cert.Spec.Nodes Ideal) (w : Cert.Spec.Mat Ideal) (i : S50000x128.Idx) :
    Cert.Spec.proj x w i = ∑ k : Fin 128, (x (ix2 (n0 := 50000) (n1 := 128) (i 0) k) : EReal) * (w (ix2 (n0 := 128) (n1 := 128) k (i 1)) : EReal) := by
  unfold Cert.Spec.proj
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k) = ix2 (n0 := 50000) (n1 := 128) (i 0) k := funext fun a => Fin.ext (by
    match a with
    | ⟨0, _⟩ => exact lhsWhole_0 _ _
    | ⟨1, _⟩ => exact (lhsWhole_1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k) = ix2 (n0 := 128) (n1 := 128) k (i 1) := funext fun a => Fin.ext (by
    match a with
    | ⟨0, _⟩ => exact (rhsWhole_0 _ _).trans hk
    | ⟨1, _⟩ => exact rhsWhole_1 _ _)
  rw [el, er]

/-- Region 0's payload at (r, c): the format changes are the identity, the product is the sum. -/
theorem pay0_apply (x0 : FVec Ideal S5000x128 .f32) (x1 : FVec Ideal S128x128 .f32) (j : S5000x128.Idx) :
    k0_pay1 (F := Ideal) x0 x1 j = ∑ k : Fin 128, x0 (ix2 (n0 := 5000) (n1 := 128) (j 0) k) * x1 (ix2 (n0 := 128) (n1 := 128) k (j 1)) := by
  unfold k0_pay1
  exact tileDot_apply _ _ j

/-- Region 1's payload likewise; its cast to the same shape is the identity. -/
theorem pay1_apply (x0 : FVec Ideal S5000x128 .f32) (x1 : FVec Ideal S128x128 .f32) (j : S5000x128.Idx) :
    k1_pay1 (F := Ideal) x0 x1 j = ∑ k : Fin 128, x0 (ix2 (n0 := 5000) (n1 := 128) (j 0) k) * x1 (ix2 (n0 := 128) (n1 := 128) k (j 1)) := by
  unfold k1_pay1
  rw [shapeCast_self]
  exact tileDot_apply _ _ j

/-- A tile's product against the whole product. If the tile `a` is row block `n` of `x` (its (r, k) is `x`'s
    (5000 n + r, k)) and `b` is `w`, then entry (r, c) of the tile's sum is entry (5000 n + r, c) of x · w. -/
theorem tileSum_eq_proj (x : Cert.Spec.Nodes Ideal) (w : Cert.Spec.Mat Ideal) (a : FVec Ideal S5000x128 .f32) (b : FVec Ideal S128x128 .f32) (n : Nat)
    (ha : ∀ (y : S5000x128.Idx) (i : S50000x128.Idx), (i 0).val = n * 5000 + (y 0).val → (i 1).val = (y 1).val → a y = x i)
    (hb : b = w) (j : S5000x128.Idx) (i : S50000x128.Idx) (h0 : (i 0).val = n * 5000 + (j 0).val) (h1 : (i 1).val = (j 1).val) :
    ∑ k : Fin 128, a (ix2 (n0 := 5000) (n1 := 128) (j 0) k) * b (ix2 (n0 := 128) (n1 := 128) k (j 1)) = Cert.Spec.proj x w i := by
  rw [proj_apply]
  refine Finset.sum_congr rfl fun k _ => ?_
  rw [ha (ix2 (n0 := 5000) (n1 := 128) (j 0) k) (ix2 (n0 := 50000) (n1 := 128) (i 0) k) h0 rfl, hb]
  have hc : (j 1 : Fin 128) = (i 1 : Fin 128) := Fin.ext h1.symm
  rw [hc]

variable (V : (c : Dev nD) → (b : Ref sig .tc) → Buf (Elt Ideal) ((c : Thread nD τ).loc b))

/-- The body loads and stores its whole buffers: offsets zero on both axes. -/
theorem off_zero : (![0, 0] : Fin 2 → Nat) = fun _ => 0 := funext fun a => by fin_cases a <;> rfl

/-! ## Region 0: the blocks, the write-back, the cover -/

/-- The index maps over the ten points: the row tile and the output tile are tile t, the matrix is its one block. -/
theorem tiles0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row tile t of the left array: its (r, k) is the array's (5000 t + r, k). -/
theorem rowTile0_apply (c : Dev nD) (t : Fin cfg0.N) (y : S5000x128.Idx) (i : S50000x128.Idx)
    (h0 : (i 0).val = t.val * 5000 + (y 0).val) (h1 : (i 1).val = (y 1).val) :
    (iblk0 (F := Ideal) V c 0 t : Vec Ideal S5000x128 .f32) y = (V c main_arg0 : S50000x128.Idx → Elt Ideal .f32) i := by
  obtain ⟨e0, e1, -⟩ := tiles0 t
  show V c main_arg0 (((cfg0.win 0).blk t).view.emb y) = V c main_arg0 i
  have he : ((cfg0.win 0).blk t).view.emb y = i := by
    funext a; apply Fin.ext
    match a with
    | ⟨0, _⟩ => show win0_0.index t (0 : Fin 2) * 5000 + 1 * (y 0).val = (i 0).val; rw [e0, h0]; omega
    | ⟨1, _⟩ => show win0_0.index t (1 : Fin 2) * 128 + 1 * (y 1).val = (i 1).val; rw [e1, h1]; omega
  rw [he]

/-- The matrix's one block is the matrix. -/
theorem matTile0_eq (c : Dev nD) (t : Fin cfg0.N) :
    (iblk0 (F := Ideal) V c 1 t : Vec Ideal S128x128 .f32) = (V c main_arg3 : S128x128.Idx → Elt Ideal .f32) := by
  obtain ⟨-, -, e0, e1, -⟩ := tiles0 t
  funext y
  show V c main_arg3 (((cfg0.win 1).blk t).view.emb y) = V c main_arg3 y
  have he : ((cfg0.win 1).blk t).view.emb y = y := by
    funext a; apply Fin.ext
    match a with
    | ⟨0, _⟩ => show win0_1.index t (0 : Fin 2) * 128 + 1 * (y 0).val = (y 0).val; rw [e0]; omega
    | ⟨1, _⟩ => show win0_1.index t (1 : Fin 2) * 128 + 1 * (y 1).val = (y 1).val; rw [e1]; omega
  rw [he]

/-- What point t writes back is row block t of the product of the two input arrays. -/
theorem flushed0_eq (c : Dev nD) (x : Cert.Spec.Nodes Ideal) (w : Cert.Spec.Mat Ideal) (hx : V c main_arg0 = x) (hw : V c main_arg3 = w) (t : Fin cfg0.N) :
    (dat0 (F := Ideal) V c).flushed 2 t = ((cfg0.win 2).blk t).view.read (Elt Ideal) (Cert.Spec.proj x w) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x128) off_zero]
  obtain ⟨-, -, -, -, e0, e1⟩ := tiles0 t
  funext j
  show k0_pay1 (F := Ideal) (iblk0 V c 0 t) (iblk0 V c 1 t) j = Cert.Spec.proj x w (((cfg0.win 2).blk t).view.emb j)
  refine (pay0_apply _ _ j).trans (tileSum_eq_proj x w _ _ t.val (fun y i h0 h1 => ?_) ?_ j _ ?_ ?_)
  · rw [← hx]; exact rowTile0_apply V c t y i h0 h1
  · rw [← hw]; exact matTile0_eq V c t
  · show win0_2.index t (0 : Fin 2) * 5000 + 1 * (j 0).val = t.val * 5000 + (j 0).val; rw [e0]; omega
  · show win0_2.index t (1 : Fin 2) * 128 + 1 * (j 1).val = (j 1).val; rw [e1]; omega

/-- An index of the array is in point t's block iff each coordinate is in the block's range on its axis. -/
theorem mem_tile0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r lies in the tile of point r / 5000, which writes back. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e0, e1⟩ := tiles0 ⟨(i 0).val / 5000, ht⟩
  refine ⟨⟨(i 0).val / 5000, ht⟩, flush0_2 _, ?_⟩
  rw [mem_tile0]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e1]; omega

/-- Region 0's output array after its ten write-backs is the product of its two input arrays. -/
theorem arr0 (c : Dev nD) (x : Cert.Spec.Nodes Ideal) (w : Cert.Spec.Mat Ideal) (hx : V c main_arg0 = x) (hw : V c main_arg3 = w) :
    (dat0 (F := Ideal) V c).arrAt 2 cfg0.N = Cert.Spec.proj x w :=
  (dat0 (F := Ideal) V c).arrAt_eq_of_cover 2 (Cert.Spec.proj x w) (fun t _ => flushed0_eq V c x w hx hw t) cover0

/-! ## Region 1: the blocks, the write-back, the cover -/

/-- The index maps over the ten points: the row tile and the output tile are tile t, the matrix is its one block. -/
theorem tiles1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row tile t of the left array: its (r, k) is the array's (5000 t + r, k). -/
theorem rowTile1_apply (c : Dev nD) (t : Fin cfg1.N) (y : S5000x128.Idx) (i : S50000x128.Idx)
    (h0 : (i 0).val = t.val * 5000 + (y 0).val) (h1 : (i 1).val = (y 1).val) :
    (iblk1 (F := Ideal) V c 0 t : Vec Ideal S5000x128 .f32) y = (V c main_v47 : S50000x128.Idx → Elt Ideal .f32) i := by
  obtain ⟨e0, e1, -⟩ := tiles1 t
  show V c main_v47 (((cfg1.win 0).blk t).view.emb y) = V c main_v47 i
  have he : ((cfg1.win 0).blk t).view.emb y = i := by
    funext a; apply Fin.ext
    match a with
    | ⟨0, _⟩ => show win1_0.index t (0 : Fin 2) * 5000 + 1 * (y 0).val = (i 0).val; rw [e0, h0]; omega
    | ⟨1, _⟩ => show win1_0.index t (1 : Fin 2) * 128 + 1 * (y 1).val = (i 1).val; rw [e1, h1]; omega
  rw [he]

/-- The matrix's one block is the matrix. -/
theorem matTile1_eq (c : Dev nD) (t : Fin cfg1.N) :
    (iblk1 (F := Ideal) V c 1 t : Vec Ideal S128x128 .f32) = (V c main_arg5 : S128x128.Idx → Elt Ideal .f32) := by
  obtain ⟨-, -, e0, e1, -⟩ := tiles1 t
  funext y
  show V c main_arg5 (((cfg1.win 1).blk t).view.emb y) = V c main_arg5 y
  have he : ((cfg1.win 1).blk t).view.emb y = y := by
    funext a; apply Fin.ext
    match a with
    | ⟨0, _⟩ => show win1_1.index t (0 : Fin 2) * 128 + 1 * (y 0).val = (y 0).val; rw [e0]; omega
    | ⟨1, _⟩ => show win1_1.index t (1 : Fin 2) * 128 + 1 * (y 1).val = (y 1).val; rw [e1]; omega
  rw [he]

/-- What point t writes back is row block t of the product of the two input arrays. -/
theorem flushed1_eq (c : Dev nD) (x : Cert.Spec.Nodes Ideal) (w : Cert.Spec.Mat Ideal) (hx : V c main_v47 = x) (hw : V c main_arg5 = w) (t : Fin cfg1.N) :
    (dat1 (F := Ideal) V c).flushed 2 t = ((cfg1.win 2).blk t).view.read (Elt Ideal) (Cert.Spec.proj x w) := by
  show (cfg1.win 2).cut (grid1.coords t) ((dat1 V c).after 2 t) = _
  rw [after1_2]
  unfold out1_2
  rw [View.canon_unit_zero off_zero]
  simp only [View.ld_unit_zero (S := S5000x128) off_zero, View.ld_unit_zero (S := S128x128) off_zero]
  obtain ⟨-, -, -, -, e0, e1⟩ := tiles1 t
  funext j
  show k1_pay1 (F := Ideal) (iblk1 V c 0 t) (iblk1 V c 1 t) j = Cert.Spec.proj x w (((cfg1.win 2).blk t).view.emb j)
  refine (pay1_apply _ _ j).trans (tileSum_eq_proj x w _ _ t.val (fun y i h0 h1 => ?_) ?_ j _ ?_ ?_)
  · rw [← hx]; exact rowTile1_apply V c t y i h0 h1
  · rw [← hw]; exact matTile1_eq V c t
  · show win1_2.index t (0 : Fin 2) * 5000 + 1 * (j 0).val = t.val * 5000 + (j 0).val; rw [e0]; omega
  · show win1_2.index t (1 : Fin 2) * 128 + 1 * (j 1).val = (j 1).val; rw [e1]; omega

/-- An index of the array is in point t's block iff each coordinate is in the block's range on its axis. -/
theorem mem_tile1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Row r lies in the tile of point r / 5000, which writes back. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, e0, e1⟩ := tiles1 ⟨(i 0).val / 5000, ht⟩
  refine ⟨⟨(i 0).val / 5000, ht⟩, flush1_2 _, ?_⟩
  rw [mem_tile1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e1]; omega

/-- Region 1's output array after its ten write-backs is the product of its two input arrays. -/
theorem arr1 (c : Dev nD) (x : Cert.Spec.Nodes Ideal) (w : Cert.Spec.Mat Ideal) (hx : V c main_v47 = x) (hw : V c main_arg5 = w) :
    (dat1 (F := Ideal) V c).arrAt 2 cfg1.N = Cert.Spec.proj x w :=
  (dat1 (F := Ideal) V c).arrAt_eq_of_cover 2 (Cert.Spec.proj x w) (fun t _ => flushed1_eq V c x w hx hw t) cover1

end Cert.KernelIdeal.Hand

end
-- ==== Proof.KI.PoolValue.lean ====
/- What the pooling region leaves in its output array, over the extended reals: the 64 × 128 array ends holding the
   product of the (padded) 64 × 50176 membership matrix with the (padded) 50176 × 128 feature matrix — entry (g, f) is
   the sum over all 50176 columns n of member(g, n) · feature(n, f).

   The region contracts 6272 columns per grid point. Its accumulator after point n holds, at (g, f), the sum over the
   blocks s ≤ n of the block products Σ_k member(g, 6272·s + k) · feature(6272·s + k, f) (by induction on the point:
   the first point adds its product to zero, every later one to what the point before left); eight blocks of 6272
   columns are the 50176 columns; and only the last point writes the accumulator back, to a block that is the whole
   array. -/
import proofs.«429279_j53317724013285_2_alg».proof.Proof.Gen.KernelIdeal.Launch
import proofs.«429279_j53317724013285_2_alg».proof.Proof.Gen.KernelIdeal.Skeleton
import proofs.«429279_j53317724013285_2_alg».proof.Proof.Gen.KernelIdeal.Points
import Idealize.ShloMosaic.Lib.Pipeline.FrameBody
import Idealize.ShloMosaic.Lib.Pipeline.Frame
import proofs.«429279_j53317724013285_2_alg».proof.Proof.KI.PoolDefs
import proofs.«429279_j53317724013285_2_alg».proof.Proof.SpecIdeal
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

-- the TensorCore's buffer contents when the region is entered
variable (V : (c : Dev nD) → (b : Ref sig .tc) → Buf (Elt Ideal) ((c : Thread nD τ).loc b))

/-! ## One point's step at an entry

The body's product contracts axis 1 of the membership block with axis 0 of the feature block: at output entry (g, f)
and contraction position k the two operands are read at (g, k) and (k, f). -/

theorem pool_dotL0 (j : S64x128.Idx) (k : dot_S64x6272_S6272x128_S64x128_1_0_0_1_n_n.contr.Idx) :
    (dot_S64x6272_S6272x128_S64x128_1_0_0_1_n_n.lhsIdx j k 0).val = (j 0).val := rfl
theorem pool_dotL1 (j : S64x128.Idx) (k : dot_S64x6272_S6272x128_S64x128_1_0_0_1_n_n.contr.Idx) :
    (dot_S64x6272_S6272x128_S64x128_1_0_0_1_n_n.lhsIdx j k 1).val = (k ⟨0, by decide⟩).val :=
  dot_S64x6272_S6272x128_S64x128_1_0_0_1_n_n.lhsIdx_val_of_single rfl j k
theorem pool_dotR0 (j : S64x128.Idx) (k : dot_S64x6272_S6272x128_S64x128_1_0_0_1_n_n.contr.Idx) :
    (dot_S64x6272_S6272x128_S64x128_1_0_0_1_n_n.rhsIdx j k 0).val = (k ⟨0, by decide⟩).val :=
  dot_S64x6272_S6272x128_S64x128_1_0_0_1_n_n.rhsIdx_val_of_single rfl j k
theorem pool_dotR1 (j : S64x128.Idx) (k : dot_S64x6272_S6272x128_S64x128_1_0_0_1_n_n.contr.Idx) :
    (dot_S64x6272_S6272x128_S64x128_1_0_0_1_n_n.rhsIdx j k 1).val = (j 1).val := rfl

/-- The zero the first point stores is the extended real 0. -/
theorem k2_pay1_apply (i : S64x128.Idx) : (k2_pay1 (F := Ideal) i : EReal) = 0 := by
  unfold k2_pay1
  simp only [shapeCast_self]
  show Ideal.ofBits .f32 0x00000000#32 = 0
  exact Ideal.ofBits_zero_f32

/-- One point's step at entry (g, f): what the accumulator held, plus row g of the membership block times column f of
    the feature block. -/
theorem k2_pay2_apply (v3 : Vec Ideal S64x128 .f32) (v4 : Vec Ideal S64x6272 .bf16) (v6 : Vec Ideal S6272x128 .bf16)
    (g : Fin 64) (f : Fin 128) :
    (k2_pay2 (F := Ideal) v3 v4 v6 (ix2 g f) : EReal)
      = (v3 (ix2 g f) : EReal) + ∑ k : Fin 6272, (v4 (ix2 g k) : EReal) * (v6 (ix2 k f) : EReal) := by
  unfold k2_pay2
  simp only [shapeCast_self]
  rw [addf_apply]
  congr 1
  simp only [matmul]
  rw [Ideal.matmul_constant_zero_apply]
  rw [← Equiv.sum_comp (contrEquiv1 dot_S64x6272_S6272x128_S64x128_1_0_0_1_n_n 6272 rfl rfl).symm]
  refine Finset.sum_congr rfl fun k _ => ?_
  congr 2
  · funext a
    apply Fin.ext
    match a with
    | ⟨0, _⟩ => exact pool_dotL0 _ _
    | ⟨1, _⟩ => exact (pool_dotL1 _ _).trans (contrEquiv1_symm_val _ _ _ _ k)
  · funext a
    apply Fin.ext
    match a with
    | ⟨0, _⟩ => exact (pool_dotR0 _ _).trans (contrEquiv1_symm_val _ _ _ _ k)
    | ⟨1, _⟩ => exact pool_dotR1 _ _

/-! ## The input blocks, read where their windows' index maps say

At point t the membership window stages the column block t (rows 0 … 63, columns 6272·t … 6272·t + 6271) and the
feature window the row block t (rows 6272·t … 6272·t + 6271, columns 0 … 127). -/

/-- The membership window's block index at point t is (0, t). -/
theorem index2_0 : ∀ t : Fin cfg2.N, win2_0.index t (0 : Fin 2) = 0 ∧ win2_0.index t (1 : Fin 2) = t.val :=
  (by decide +kernel : ∀ t : Fin grid2.N, win2_0.index t (0 : Fin 2) = 0 ∧ win2_0.index t (1 : Fin 2) = t.val)
/-- The feature window's block index at point t is (t, 0). -/
theorem index2_1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)

/-- The membership block at point t, at its literal type. -/
abbrev mblk2 (c : Dev nD) (t : Fin cfg2.N) : Vec Ideal S64x6272 .bf16 := iblk2 (F := Ideal) V c 0 t
/-- The feature block at point t, at its literal type. -/
abbrev fblk2 (c : Dev nD) (t : Fin cfg2.N) : Vec Ideal S6272x128 .bf16 := iblk2 (F := Ideal) V c 1 t

/-- Entry (g, k) of the membership block at point t is entry (g, 6272·t + k) of the membership matrix. -/
theorem mblk2_apply (c : Dev nD) (o : (⟨S64x50176, .bf16⟩ : BufTy).Contents (Elt Ideal)) (ho : V c main_v74 = o)
    (t : Fin cfg2.N) (g : Fin 64) (k : Fin 6272) (n : Fin 50176) (hn : n.val = 6272 * t.val + k.val) :
    (mblk2 V c t (ix2 g k) : EReal) = (o (ix2 g n) : EReal) := by
  subst ho
  unfold mblk2 iblk2
  rw [View.read_apply]
  show V c main_v74 _ = V c main_v74 _
  congr 1
  funext a
  apply Fin.ext
  match a with
  | ⟨0, _⟩ => show win2_0.index t 0 * 64 + 1 * g.val = g.val; rw [(index2_0 t).1]; omega
  | ⟨1, _⟩ => show win2_0.index t 1 * 6272 + 1 * k.val = n.val; rw [(index2_0 t).2, hn]; omega

/-- Entry (k, f) of the feature block at point t is entry (6272·t + k, f) of the feature matrix. -/
theorem fblk2_apply (c : Dev nD) (h : (⟨S50176x128, .bf16⟩ : BufTy).Contents (Elt Ideal)) (hh : V c main_v76 = h)
    (t : Fin cfg2.N) (k : Fin 6272) (f : Fin 128) (n : Fin 50176) (hn : n.val = 6272 * t.val + k.val) :
    (fblk2 V c t (ix2 k f) : EReal) = (h (ix2 n f) : EReal) := by
  subst hh
  unfold fblk2 iblk2
  rw [View.read_apply]
  show V c main_v76 _ = V c main_v76 _
  congr 1
  funext a
  apply Fin.ext
  match a with
  | ⟨0, _⟩ => show win2_1.index t 0 * 6272 + 1 * k.val = n.val; rw [(index2_1 t).1, hn]; omega
  | ⟨1, _⟩ => show win2_1.index t 1 * 128 + 1 * f.val = f.val; rw [(index2_1 t).2]; omega

/-! ## The accumulator in closed form -/

/-- Block s's share of entry (g, f) of the product: the sum over the block's 6272 columns (nothing past the eighth
    block). -/
def blockSum2 (o : (⟨S64x50176, .bf16⟩ : BufTy).Contents (Elt Ideal)) (h : (⟨S50176x128, .bf16⟩ : BufTy).Contents (Elt Ideal))
    (g : Fin 64) (f : Fin 128) (s : ℕ) : EReal :=
  if hs : s < 8 then
    ∑ k : Fin 6272, ((o (ix2 g ⟨6272 * s + k.val, by have := k.isLt; omega⟩) : EReal)
      * (h (ix2 ⟨6272 * s + k.val, by have := k.isLt; omega⟩ f) : EReal) : EReal)
  else 0

/-- The step of point t adds block t's share to what the accumulator held. -/
theorem step2_apply (c : Dev nD) (o : (⟨S64x50176, .bf16⟩ : BufTy).Contents (Elt Ideal))
    (h : (⟨S50176x128, .bf16⟩ : BufTy).Contents (Elt Ideal)) (ho : V c main_v74 = o) (hh : V c main_v76 = h)
    (t : Fin cfg2.N) (v3 : Vec Ideal S64x128 .f32) (g : Fin 64) (f : Fin 128) :
    (k2_pay2 (F := Ideal) v3 (mblk2 V c t) (fblk2 V c t) (ix2 g f) : EReal)
      = (v3 (ix2 g f) : EReal) + blockSum2 o h g f t.val := by
  have ht : t.val < 8 := by have := t.isLt; have hN : cfg2.N = 8 := N_2; omega
  refine (k2_pay2_apply v3 (mblk2 V c t) (fblk2 V c t) g f).trans ?_
  unfold blockSum2
  rw [dif_pos ht]
  congr 1
  refine Finset.sum_congr rfl fun k _ => ?_
  rw [mblk2_apply V c o ho t g k ⟨6272 * t.val + k.val, by have := k.isLt; omega⟩ rfl,
    fblk2_apply V c h hh t k f ⟨6272 * t.val + k.val, by have := k.isLt; omega⟩ rfl]

/-- THE ACCUMULATOR AFTER POINT n, at entry (g, f): the shares of the blocks 0 … n. -/
theorem acc2_apply (c : Dev nD) (o : (⟨S64x50176, .bf16⟩ : BufTy).Contents (Elt Ideal))
    (h : (⟨S50176x128, .bf16⟩ : BufTy).Contents (Elt Ideal)) (ho : V c main_v74 = o) (hh : V c main_v76 = h)
    (g : Fin 64) (f : Fin 128) : ∀ (n : ℕ) (hn : n < cfg2.N),
      (acc2 (F := Ideal) V c n hn (ix2 g f) : EReal) = ∑ s ∈ Finset.range (n + 1), blockSum2 o h g f s
  | 0, hn => by
    rw [acc2_zero]
    refine (step2_apply V c o h ho hh ⟨0, hn⟩ (k2_pay1 (F := Ideal)) g f).trans ?_
    rw [k2_pay1_apply, zero_add, Finset.sum_range_one]
  | n + 1, hn => by
    rw [acc2_succ]
    refine (step2_apply V c o h ho hh ⟨n + 1, hn⟩ (acc2 (F := Ideal) V c n (Nat.lt_of_succ_lt hn)) g f).trans ?_
    rw [acc2_apply c o h ho hh g f n (Nat.lt_of_succ_lt hn), Finset.sum_range_succ _ (n + 1)]

/-! ## Eight blocks of 6272 columns are the 50176 columns -/

/-- Column 6272·s + k is column k of block s. -/
def colEquiv2 : Fin 8 × Fin 6272 ≃ Fin 50176 where
  toFun p := ⟨6272 * p.1.val + p.2.val, by have := p.1.isLt; have := p.2.isLt; omega⟩
  invFun n := (⟨n.val / 6272, by have := n.isLt; omega⟩, ⟨n.val % 6272, by omega⟩)
  left_inv p := by
    obtain ⟨⟨s, hs⟩, ⟨k, hk⟩⟩ := p
    refine Prod.ext (Fin.ext ?_) (Fin.ext ?_)
    · show (6272 * s + k) / 6272 = s; omega
    · show (6272 * s + k) % 6272 = k; omega
  right_inv n := by
    apply Fin.ext
    show 6272 * (n.val / 6272) + n.val % 6272 = n.val
    omega

/-- The eight blocks' shares add up to the sum over all 50176 columns (addition on the extended reals is commutative
    and associative: nothing needs finiteness). -/
theorem sum_blockSum2 (o : (⟨S64x50176, .bf16⟩ : BufTy).Contents (Elt Ideal))
    (h : (⟨S50176x128, .bf16⟩ : BufTy).Contents (Elt Ideal)) (g : Fin 64) (f : Fin 128) :
    ∑ s ∈ Finset.range 8, blockSum2 o h g f s
      = ∑ n : Fin 50176, ((o (ix2 g n) : EReal) * (h (ix2 n f) : EReal) : EReal) := by
  rw [Finset.sum_range, ← Equiv.sum_comp colEquiv2, Fintype.sum_prod_type]
  refine Finset.sum_congr rfl fun s _ => ?_
  unfold blockSum2
  rw [dif_pos s.isLt]
  rfl

/-- So the accumulator after the last point (t = 7) holds the whole product. -/
theorem acc2_last (c : Dev nD) (o : (⟨S64x50176, .bf16⟩ : BufTy).Contents (Elt Ideal))
    (h : (⟨S50176x128, .bf16⟩ : BufTy).Contents (Elt Ideal)) (ho : V c main_v74 = o) (hh : V c main_v76 = h)
    (t : Fin cfg2.N) (ht : t.val = 7) : acc2 (F := Ideal) V c t.val t.isLt = Cert.Spec.pool o h := by
  funext i
  obtain ⟨g, f, rfl⟩ : ∃ (g : Fin 64) (f : Fin 128), i = ix2 g f := ⟨i 0, i 1, eq_ix2 i⟩
  refine (acc2_apply V c o h ho hh g f t.val t.isLt).trans ?_
  rw [ht]
  exact sum_blockSum2 o h g f

/-! ## The array after the run -/

/-- The output window's block index at the last point is (0, 0): its block is the whole array. -/
theorem index2_2 : (fun a => win2_2.index t2_7 a * main_v77.ty.shape.size a) = fun _ => 0 :=
  funext fun a => by fin_cases a <;> decide +kernel

/-- THE POOLING REGION'S RESULT: after the eight points the 64 × 128 array holds the product of the membership matrix
    with the feature matrix. -/
theorem arr2 (c : Dev nD) (o : (⟨S64x50176, .bf16⟩ : BufTy).Contents (Elt Ideal))
    (h : (⟨S50176x128, .bf16⟩ : BufTy).Contents (Elt Ideal)) (ho : V c main_v74 = o) (hh : V c main_v76 = h) :
    (dat2 (F := Ideal) V c).arrAt 2 cfg2.N = Cert.Spec.pool o h := by
  have hN : cfg2.N = 8 := N_2
  refine (dat2 (F := Ideal) V c).arrAt_eq_of_cover 2 (Cert.Spec.pool o h) ?_ ?_
  · -- only the last point writes back, and it writes the accumulator, which is the product
    intro t hf
    have h7 : t.val = 7 := by have := (flush2_2 t).mp hf; have := t.isLt; omega
    obtain rfl : t = t2_7 := Fin.ext h7
    show (cfg2.win 2).cut (grid2.coords t2_7) ((dat2 (F := Ideal) V c).after 2 t2_7) = _
    rw [after2_2, acc2_last V c o h ho hh t2_7 rfl]
    exact (Memref.read_access_unit_zero (Elt Ideal) main_v77 index2_2
      (fun a => by rw [congrFun index2_2 a]; simp) (Cert.Spec.pool o h)).symm
  · -- and its block, at offsets (0, 0) and of the array's own sizes, covers the array
    intro i
    refine ⟨t2_7, (flush2_2 t2_7).mpr rfl, ?_⟩
    show i ∈ ((View.whole main_v77).slice (win2_2.rect t2_7)).set
    rw [View.set_slice_whole]
    exact View.mem_set_unit_zero index2_2 _ i

end Cert.KernelIdeal.Hand

end
-- ==== Proof.KI.Result.lean ====
/- The idealized kernel program's result as a function of its arguments: each region's output array is read as a matrix
   product of the region's input arrays, each host stretch as the aggregation it spells, and the three are chained —
   x·W₁ aggregated and rectified, that times W₂ aggregated, that pooled by the membership matrix, over the counts. -/
import proofs.«429279_j53317724013285_2_alg».proof.Proof.KI.Run
import proofs.«429279_j53317724013285_2_alg».proof.Proof.KI.HostGlue
import proofs.«429279_j53317724013285_2_alg».proof.Proof.KI.LinValue
import proofs.«429279_j53317724013285_2_alg».proof.Proof.KI.PoolValue
import proofs.«429279_j53317724013285_2_alg».proof.Proof.SpecIdeal

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (c : Dev nD)

/-- Region 0 leaves x · W₁. -/
theorem o4_eq : o4 m c = Cert.Spec.proj (m ((c : Thread nD τ).loc main_arg0)) (m ((c : Thread nD τ).loc main_arg3)) := by
  unfold o4
  exact arr0 (En0 m) c _ _ (V3_arg0 m c) (V3_arg3 m c)

/-- Region 1 leaves relu(aggregate(x · W₁) + b₁) · W₂. -/
theorem o7_eq : o7 m c = Cert.Spec.proj (Cert.Spec.relu (Cert.Spec.agg (Cert.Spec.proj (m ((c : Thread nD τ).loc main_arg0)) (m ((c : Thread nD τ).loc main_arg3))) (Cert.Spec.norm (m ((c : Thread nD τ).loc main_arg1))) (m ((c : Thread nD τ).loc main_arg1)) (m ((c : Thread nD τ).loc main_arg4)))) (m ((c : Thread nD τ).loc main_arg5)) := by
  unfold o7
  refine arr1 (En1 m) c _ _ ?_ (V6_arg5 m (outs4 m) c)
  show V6 m (outs4 m) c main_v47 = _
  rw [V6_v47 m (outs4 m) c, show outs4 m 4 main_v30 c = o4 m c from Function.update_self .., o4_eq]

/-- Read after region 1, the second stage of the regions' results is region 1's array. -/
theorem outs7_7 : outs7 m 7 main_v48 c = o7 m c := by
  show Function.update (V6 m (outs4 m) c) main_v48 (o7 m c) main_v48 = _
  exact Function.update_self ..

/-- Region 2 leaves the membership matrix times the padded second-layer features. -/
theorem o12_eq : o12 m c = Cert.Spec.pool (Cert.Spec.ohPad (m ((c : Thread nD τ).loc main_arg2))) (Cert.Spec.hPad (Cert.Spec.agg (Cert.Spec.proj (Cert.Spec.relu (Cert.Spec.agg (Cert.Spec.proj (m ((c : Thread nD τ).loc main_arg0)) (m ((c : Thread nD τ).loc main_arg3))) (Cert.Spec.norm (m ((c : Thread nD τ).loc main_arg1))) (m ((c : Thread nD τ).loc main_arg1)) (m ((c : Thread nD τ).loc main_arg4)))) (m ((c : Thread nD τ).loc main_arg5))) (Cert.Spec.norm (m ((c : Thread nD τ).loc main_arg1))) (m ((c : Thread nD τ).loc main_arg1)) (m ((c : Thread nD τ).loc main_arg6)))) := by
  unfold o12
  refine arr2 (En2 m) c _ _ (V11_v74 m (outs7 m) c) ?_
  show V11 m (outs7 m) c main_v76 = _
  rw [V11_v76 m (outs7 m) c, outs7_7 m c, o7_eq]

/-- The result buffer after the last host stretch is `kerOut` of the arguments. -/
theorem result_eq : V13 m (outs m) c main_v82
    = Cert.Spec.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [V13_v82 m (outs m) c, outs_12, o12_eq]
  rfl

end Cert.KernelIdeal.Hand

end
-- ==== Proof.RefValue.lean ====
/- The reference program's result, as the run states it (one composed term of the launch memory), is `refOut` of
   the seven argument arrays: the named functions of Spec.lean are the pieces of that very term, so the two sides
   unfold to the same expression. Stated for every float family first, where the comparison is syntactic, then read
   at the extended reals. -/
import proofs.«429279_j53317724013285_2_alg».proof.Proof.RefRun
import proofs.«429279_j53317724013285_2_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 16384 in
set_option maxHeartbeats 4000000 in
/-- For every float family: the result term is the two aggregation layers, pooled by the scatter of the rows into
    their graphs' rows, over max(count, 1). -/
theorem res_eq_gen {F : FTy → Type} [FloatOps F] (m : (ℓ : Loc nD τ sig) → Buf (Elt F) ℓ) (c : Dev nD) :
    Cert.ReferenceIdeal.ValueP.res_out0 (F := F) m c
      = Cert.Spec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.ReferenceIdeal.ValueP.res_out0 Cert.ReferenceIdeal.ValueP.res_main_v102 Cert.Spec.refOut Cert.Spec.poolRef Cert.Spec.cntRef Cert.Spec.denom
    Cert.Spec.agg Cert.Spec.norm Cert.Spec.dinv Cert.Spec.deg Cert.Spec.wrap Cert.Spec.srcIdx Cert.Spec.dstIdx
    Cert.Spec.relu Cert.Spec.proj
  rfl

/-- At the extended reals. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_out0 (F := Ideal) m c
      = Cert.Spec.refOut (m ((c.tc : Thread _ _).loc Cert.ReferenceIdeal.main_arg0)) (m ((c.tc : Thread _ _).loc Cert.ReferenceIdeal.main_arg1)) (m ((c.tc : Thread _ _).loc Cert.ReferenceIdeal.main_arg2)) (m ((c.tc : Thread _ _).loc Cert.ReferenceIdeal.main_arg3)) (m ((c.tc : Thread _ _).loc Cert.ReferenceIdeal.main_arg4)) (m ((c.tc : Thread _ _).loc Cert.ReferenceIdeal.main_arg5)) (m ((c.tc : Thread _ _).loc Cert.ReferenceIdeal.main_arg6)) :=
  res_eq_gen (F := Ideal) m c

end Cert.ReferenceIdeal.RefValue

end
-- ==== Proof.SpecAlgebra.lean ====
/- The kernel's pooling equals the reference's, over the extended reals.

   The reference adds row n of the node features into row batch(n) of a 64 x 128 array of zeros (a scatter whose
   update (n, f) lands on (batch n, f) when 0 ≤ batch n < 64, read signed, and is dropped otherwise), and counts the
   nodes of a graph by scattering ones the same way. The kernel multiplies the 64 x 50176 membership matrix — entry
   (g, n) is 1 when batch n = g and n < 50000, else 0 — with the node features padded by 176 zero rows, and counts by
   the membership matrix's row sums. Entry (g, f) of the product is Σ over n < 50176 of member(g, n) · feature(n, f);
   the terms from 50000 on vanish, a weight 0 removes its term (0 · z = 0 for every extended real z) and a weight 1
   keeps it, so the product is Σ over the n < 50000 with batch n = g of feature(n, f) — the scatter's sum, since
   for g < 64 the word batch n equals the word of g exactly when it reads, signed, as g. -/
import proofs.«429279_j53317724013285_2_alg».proof.Proof.SpecIdeal
import Idealize.ShloMosaic.Lib.IdealHost
import Idealize.ShloMosaic.Lib.KernelVsHost
import Idealize.ShloMosaic.Lib.StableHlo.Predicate

noncomputable section

namespace Cert.Spec

open Cert.KernelIdeal Cert.KernelIdeal.Gen Idealize.ShloMosaic Idealize.ShloMosaic.ValueIdx
open scoped BigOperators

/-! ## Sums -/

/-- A sum over `Fin n` whose terms vanish from `m` on is the sum of its first `m` terms. -/
theorem sum_fin_castLE {M : Type} [AddCommMonoid M] {m n : ℕ} (h : m ≤ n) (F : Fin n → M)
    (hz : ∀ k : Fin n, m ≤ k.val → F k = 0) : ∑ k, F k = ∑ k : Fin m, F (Fin.castLE h k) := by
  have e : ∑ k : Fin m, F (Fin.castLE h k) = ∑ x ∈ Finset.univ.map (Fin.castLEEmb h), F x :=
    (Finset.sum_map Finset.univ (Fin.castLEEmb h) F).symm
  rw [e]
  symm
  refine Finset.sum_subset (Finset.subset_univ _) fun x _ hx => hz x ?_
  by_contra hlt
  exact hx (Finset.mem_map.2 ⟨⟨x.val, by omega⟩, Finset.mem_univ _, Fin.ext rfl⟩)

/-- A sum over the indices of a one-axis shape is the sum over the axis's coordinates. -/
theorem sum_idx1 {M : Type} [AddCommMonoid M] {n : ℕ} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

/-- A weight 1 keeps its term and a weight 0 removes it: on the extended reals `0 * z = 0` for every `z`. -/
theorem ite_one_zero_mul (p : Prop) [Decidable p] (z : EReal) :
    (if p then (1 : EReal) else 0) * z = if p then z else 0 := by
  by_cases h : p
  · rw [if_pos h, if_pos h, one_mul]
  · rw [if_neg h, if_neg h, zero_mul]

/-! ## Words -/

/-- A one-bit equality compare, converted to a float, is 1 where the words are equal and 0 elsewhere. -/
theorem uitofp_cmpi_eq {w : ℕ} (a b : BitVec w) :
    (FloatOps.uitofp (F := Ideal) .bf16 (IntOp.cmpi .eq a b) : EReal) = if a = b then 1 else 0 := by
  by_cases h : a = b
  · rw [if_pos h, StableHlo.Predicate.cmpi_eq_iff.2 h]
    show (((1#1 : BitVec 1).toNat : ℝ) : EReal) = 1
    simp
  · rw [if_neg h, eq_zero_of_ne_one (fun e => h (StableHlo.Predicate.cmpi_eq_iff.1 e))]
    show (((0#1 : BitVec 1).toNat : ℝ) : EReal) = 0
    simp

/-- A 32-bit word is the word of a number below 2³¹ exactly when it reads, signed, as that number. -/
theorem eq_ofNat_iff_toInt (x : BitVec 32) (g : ℕ) (hg : g < 2 ^ 31) :
    x = BitVec.ofNat 32 g ↔ x.toInt = (g : ℤ) := by
  constructor
  · intro e
    rw [e]
    exact StableHlo.Predicate.toInt_ofNat_small g hg
  · intro e
    apply BitVec.eq_of_toInt_eq
    rw [e, StableHlo.Predicate.toInt_ofNat_small g hg]

/-- The integer zero converted to a float is zero. -/
theorem sitofp_zero_scalar (i : S_.Idx) : (sitofp (F := Ideal) .bf16 (constantI S_ 32 0#32) i : EReal) = 0 := by
  show ((((0#32 : BitVec 32).toInt : ℝ)) : EReal) = 0
  simp

/-! ## A matrix padded at the high end of one axis, read at an index -/

/-- Columns appended: inside the original extent the operand, beyond it the padding value. -/
theorem pad_hi_cols_apply {α : Type} {R C C' : ℕ} (hi : Fin 2 → ℕ) (x : (⟨2, ![R, C]⟩ : Shape).Idx → α) {u : Shape}
    (v : u.Idx → α) (h : (⟨2, ![R, C]⟩ : Shape).Pads ![0, 0] hi ![0, 0] ⟨2, ![R, C']⟩) (hu : 0 < u.numel)
    (r : Fin R) (c : Fin C') :
    pad ⟨2, ![R, C']⟩ ![0, 0] hi ![0, 0] x v h hu (ix2 r c)
      = if hc : c.val < C then x (ix2 r ⟨c.val, hc⟩) else v (Shape.Idx.first hu) := by
  by_cases hc : c.val < C
  · rw [dif_pos hc]
    refine pad_apply_of_inside _ _ _ x v h hu _ (ix2 r ⟨c.val, hc⟩) fun a => ?_
    match a with
    | ⟨0, _⟩ => show r.val = 0 + r.val * (0 + 1); omega
    | ⟨1, _⟩ => show c.val = 0 + c.val * (0 + 1); omega
  · rw [dif_neg hc]
    refine pad_apply_of_not_inside _ _ _ x v h hu _ (1 : Fin 2) fun hh => hc ?_
    have h3 : c.val / 1 < C := hh.2.2
    omega

/-- Rows appended: inside the original extent the operand, beyond it the padding value. -/
theorem pad_hi_rows_apply {α : Type} {R R' C : ℕ} (hi : Fin 2 → ℕ) (x : (⟨2, ![R, C]⟩ : Shape).Idx → α) {u : Shape}
    (v : u.Idx → α) (h : (⟨2, ![R, C]⟩ : Shape).Pads ![0, 0] hi ![0, 0] ⟨2, ![R', C]⟩) (hu : 0 < u.numel)
    (r : Fin R') (c : Fin C) :
    pad ⟨2, ![R', C]⟩ ![0, 0] hi ![0, 0] x v h hu (ix2 r c)
      = if hr : r.val < R then x (ix2 ⟨r.val, hr⟩ c) else v (Shape.Idx.first hu) := by
  by_cases hr : r.val < R
  · rw [dif_pos hr]
    refine pad_apply_of_inside _ _ _ x v h hu _ (ix2 ⟨r.val, hr⟩ c) fun a => ?_
    match a with
    | ⟨0, _⟩ => show r.val = 0 + r.val * (0 + 1); omega
    | ⟨1, _⟩ => show c.val = 0 + c.val * (0 + 1); omega
  · rw [dif_neg hr]
    refine pad_apply_of_not_inside _ _ _ x v h hu _ (0 : Fin 2) fun hh => hr ?_
    have h3 : r.val / 1 < R := hh.2.2
    omega

/-! ## Where a scatter's update lands -/

/-- An update lands on `i` exactly when, on every axis, its start (read signed) plus its window coordinate is
    `i`'s coordinate: in range then, and dropped otherwise. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro e a
    split at e
    · next h =>
      have e' := congrArg (fun f : s.Idx => (f a).val) (Option.some.inj e)
      have e'' : (d.start j idx a + (d.window j a : ℤ)).toNat = (i a).val := e'
      have := (h a).1
      omega
    · cases e
  · intro hall
    split
    · next h =>
      refine congrArg some (funext fun a => Fin.ext ?_)
      have := hall a
      show (d.start j idx a + (d.window j a : ℤ)).toNat = (i a).val
      omega
    · next h =>
      refine absurd (fun a => ?_) h
      have := hall a
      have := (i a).isLt
      omega

/-! ### The reference's two scatters: rows into the row the index names, ones into the entry it names -/

theorem start_rows_0 (idx : IVec Cert.ReferenceIdeal.S50000x1 32) (j : S50000x128.Idx) :
    Cert.ReferenceIdeal.scatter_S64x128_S50000x1_S50000x128_1_0_0_1.start j idx (0 : Fin 2) = (idx (ix2 (n0 := 50000) (n1 := 1) (j (0 : Fin 2)) 0)).toInt := by
  unfold ScatterDims.start
  rw [dif_pos (by decide)]
  refine congrArg (fun k => (idx k).toInt) (funext fun b => ?_)
  match b with
  | ⟨0, _⟩ => rfl
  | ⟨1, _⟩ => rfl

theorem start_rows_1 (idx : IVec Cert.ReferenceIdeal.S50000x1 32) (j : S50000x128.Idx) :
    Cert.ReferenceIdeal.scatter_S64x128_S50000x1_S50000x128_1_0_0_1.start j idx (1 : Fin 2) = 0 := by
  unfold ScatterDims.start
  rw [dif_neg (by decide)]

theorem window_rows_0 (j : S50000x128.Idx) : Cert.ReferenceIdeal.scatter_S64x128_S50000x1_S50000x128_1_0_0_1.window j (0 : Fin 2) = 0 := by
  unfold ScatterDims.window
  rw [dif_neg (by decide)]

theorem window_rows_1 (j : S50000x128.Idx) : Cert.ReferenceIdeal.scatter_S64x128_S50000x1_S50000x128_1_0_0_1.window j (1 : Fin 2) = (j (1 : Fin 2)).val := by
  unfold ScatterDims.window
  rw [dif_pos (by decide)]
  rfl

/-- Update (n, f) lands on (g, f') exactly when the index at n reads, signed, as g, and f = f'. -/
theorem resultIdx?_rows (idx : IVec Cert.ReferenceIdeal.S50000x1 32) (j : S50000x128.Idx) (i : S64x128.Idx) :
    Cert.ReferenceIdeal.scatter_S64x128_S50000x1_S50000x128_1_0_0_1.resultIdx? j idx = some i ↔
      (idx (ix2 (n0 := 50000) (n1 := 1) (j (0 : Fin 2)) 0)).toInt = (((i (0 : Fin 2)).val : ℕ) : ℤ)
        ∧ (j (1 : Fin 2)).val = (i (1 : Fin 2)).val := by
  rw [resultIdx?_eq_some_iff]
  constructor
  · intro h
    have a0 := h (0 : Fin 2)
    have a1 := h (1 : Fin 2)
    rw [start_rows_0, window_rows_0] at a0
    rw [start_rows_1, window_rows_1] at a1
    exact ⟨by omega, by omega⟩
  · rintro ⟨e0, e1⟩
    refine Fin.forall_fin_two.2 ⟨?_, ?_⟩
    · rw [start_rows_0, window_rows_0]; omega
    · rw [start_rows_1, window_rows_1]; omega

theorem start_cnt_0 (idx : IVec Cert.ReferenceIdeal.S50000x1 32) (j : S50000.Idx) :
    Cert.ReferenceIdeal.scatter_S64_S50000x1_S50000_n_0_0_1.start j idx (0 : Fin 1) = (idx (ix2 (n0 := 50000) (n1 := 1) (j (0 : Fin 1)) 0)).toInt := by
  unfold ScatterDims.start
  rw [dif_pos (by decide)]
  refine congrArg (fun k => (idx k).toInt) (funext fun b => ?_)
  match b with
  | ⟨0, _⟩ => rfl
  | ⟨1, _⟩ => rfl

theorem window_cnt_0 (j : S50000.Idx) : Cert.ReferenceIdeal.scatter_S64_S50000x1_S50000_n_0_0_1.window j (0 : Fin 1) = 0 := by
  unfold ScatterDims.window
  rw [dif_neg (by decide)]

/-- Update n lands on g exactly when the index at n reads, signed, as g. -/
theorem resultIdx?_cnt (idx : IVec Cert.ReferenceIdeal.S50000x1 32) (j : S50000.Idx) (i : S64.Idx) :
    Cert.ReferenceIdeal.scatter_S64_S50000x1_S50000_n_0_0_1.resultIdx? j idx = some i ↔
      (idx (ix2 (n0 := 50000) (n1 := 1) (j (0 : Fin 1)) 0)).toInt = (((i (0 : Fin 1)).val : ℕ) : ℤ) := by
  rw [resultIdx?_eq_some_iff]
  constructor
  · intro h
    have a0 := h (0 : Fin 1)
    rw [start_cnt_0, window_cnt_0] at a0
    omega
  · intro e0
    refine Fin.forall_fin_one.2 ?_
    rw [start_cnt_0, window_cnt_0]
    omega

/-- The graph indices as a 50000 x 1 column, read at (n, 0). -/
theorem batchCol_apply (batch : Batch Ideal) (k : Fin 50000) :
    broadcastInDim Cert.ReferenceIdeal.S50000x1 ![0] Cert.ReferenceIdeal.Gen.bcast_S50000_S50000x1_0 batch
      (ix2 (n0 := 50000) (n1 := 1) k 0) = batch (ix1 k) := by
  refine broadcastInDim_apply ![0] Cert.ReferenceIdeal.Gen.bcast_S50000_S50000x1_0 batch
    (ix2 (n0 := 50000) (n1 := 1) k 0) (ix1 k) fun a => ?_
  match a with
  | ⟨0, _⟩ => rfl

/-- The host's accumulating scatter at an index: the operand there plus the updates that land there. -/
theorem hostScatterAdd_apply {s si u : Shape} {φ : FTy} {w : ℕ} (d : ScatterDims s si u) (x : FVec Ideal s φ)
    (idx : IVec si w) (upd : FVec Ideal u φ) (i : s.Idx) :
    Host.scatterAdd d x idx upd i = x i + ∑ j ∈ Finset.univ.filter (fun j => d.resultIdx? j idx = some i), upd j := rfl

/-! ## The membership matrix and the padded operands, read at an index -/

/-- Entry (g, n) of the membership matrix: 1 when node n's graph index is the word of g, else 0. -/
theorem onehot_apply (batch : Batch Ideal) (g : Fin 64) (n : Fin 50000) :
    (onehot batch (ix2 g n) : EReal) = if (batch (ix1 n) : BitVec 32) = BitVec.ofNat 32 g.val then 1 else 0 := by
  have e1 : broadcastInDim S64x50000 ![0, 1] bcast_S1x50000_S64x50000_0_1
      (broadcastInDim S1x50000 ![1] bcast_S50000_S1x50000_1 batch) (ix2 g n) = batch (ix1 n) := by
    refine (broadcastInDim_oneRow_apply bcast_S1x50000_S64x50000_0_1 _ g n).trans ?_
    refine broadcastInDim_apply ![1] bcast_S50000_S1x50000_1 batch (ix2 (0 : Fin 1) n) (ix1 n) fun a => ?_
    match a with
    | ⟨0, _⟩ => rfl
  have e2 : broadcastInDim S64x50000 ![0, 1] bcast_S64x1_S64x50000_0_1
      (broadcastInDim S64x1 ![0] bcast_S64_S64x1_0 (iotaInDim S64 32 0)) (ix2 g n) = BitVec.ofNat 32 g.val := by
    refine (broadcastInDim_apply ![0, 1] bcast_S64x1_S64x50000_0_1 _ (ix2 g n) (ix2 g (0 : Fin 1)) fun a => ?_).trans ?_
    · match a with
      | ⟨0, _⟩ => rfl
      | ⟨1, _⟩ => rfl
    · refine (broadcastInDim_apply ![0] bcast_S64_S64x1_0 _ (ix2 g (0 : Fin 1)) (ix1 g) fun a => ?_).trans ?_
      · match a with
        | ⟨0, _⟩ => rfl
      · rfl
  show (FloatOps.uitofp (F := Ideal) .bf16 (IntOp.cmpi .eq
      (broadcastInDim S64x50000 ![0, 1] bcast_S1x50000_S64x50000_0_1
        (broadcastInDim S1x50000 ![1] bcast_S50000_S1x50000_1 batch) (ix2 g n))
      (broadcastInDim S64x50000 ![0, 1] bcast_S64x1_S64x50000_0_1
        (broadcastInDim S64x1 ![0] bcast_S64_S64x1_0 (iotaInDim S64 32 0)) (ix2 g n))) : EReal) = _
  rw [e1, e2, uitofp_cmpi_eq]

/-- The padded membership matrix inside the original columns. -/
theorem ohPad_apply_lt (batch : Batch Ideal) (g : Fin 64) (n : Fin 50176) (hn : n.val < 50000) :
    (ohPad batch (ix2 g n) : EReal)
      = if (batch (ix1 ⟨n.val, hn⟩) : BitVec 32) = BitVec.ofNat 32 g.val then 1 else 0 := by
  have e := pad_hi_cols_apply (R := 64) (C := 50000) (C' := 50176) ![0, 176] (onehot batch)
    (sitofp (F := Ideal) .bf16 (constantI S_ 32 0#32)) pads_S64x50000_S64x50176_000_01760 h_S_ g n
  rw [dif_pos hn] at e
  exact e.trans (onehot_apply batch g ⟨n.val, hn⟩)

/-- The padded membership matrix in the appended columns. -/
theorem ohPad_apply_ge (batch : Batch Ideal) (g : Fin 64) (n : Fin 50176) (hn : 50000 ≤ n.val) :
    (ohPad batch (ix2 g n) : EReal) = 0 := by
  have e := pad_hi_cols_apply (R := 64) (C := 50000) (C' := 50176) ![0, 176] (onehot batch)
    (sitofp (F := Ideal) .bf16 (constantI S_ 32 0#32)) pads_S64x50000_S64x50176_000_01760 h_S_ g n
  rw [dif_neg (by omega)] at e
  exact e.trans (sitofp_zero_scalar _)

/-- The padded node features inside the original rows (a change of float format is the identity). -/
theorem hPad_apply_lt (y : Nodes Ideal) (n : Fin 50176) (f : Fin 128) (hn : n.val < 50000) :
    (hPad y (ix2 n f) : EReal) = y (ix2 ⟨n.val, hn⟩ f) := by
  have e := pad_hi_rows_apply (R := 50000) (R' := 50176) (C := 128) ![176, 0] (truncf .bf16 y bitsLt_bf16_f32)
    (sitofp (F := Ideal) .bf16 (constantI S_ 32 0#32)) pads_S50000x128_S50176x128_01760_000 h_S_ n f
  rw [dif_pos hn] at e
  exact e

/-! ## The two poolings as sums over the nodes -/

/-- The kernel's pooled entry (g, f): the sum, over the nodes n < 50000 whose graph index is the word of g, of
    feature (n, f). -/
theorem pool_apply (batch : Batch Ideal) (y : Nodes Ideal) (i : S64x128.Idx) :
    pool (ohPad batch) (hPad y) i
      = ∑ k : Fin 50000, if (batch (ix1 k) : BitVec 32) = BitVec.ofNat 32 (i (0 : Fin 2)).val
          then (y (ix2 (n0 := 50000) (n1 := 128) k (i (1 : Fin 2))) : EReal) else 0 := by
  show ∑ n : Fin 50176, ((ohPad batch (ix2 (n0 := 64) (n1 := 50176) (i (0 : Fin 2)) n) : EReal)
      * (hPad y (ix2 (n0 := 50176) (n1 := 128) n (i (1 : Fin 2))) : EReal)) = _
  refine (sum_fin_castLE (m := 50000) (n := 50176) (by decide) _ fun k hk => ?_).trans
    (Finset.sum_congr rfl fun k _ => ?_)
  · have e := ohPad_apply_ge batch (i (0 : Fin 2)) k hk
    exact (congrArg (fun a : EReal => a * (hPad y (ix2 (n0 := 50176) (n1 := 128) k (i (1 : Fin 2))) : EReal)) e).trans
      (zero_mul _)
  · have e1 := ohPad_apply_lt batch (i (0 : Fin 2)) (Fin.castLE (by decide) k) k.isLt
    have e2 := hPad_apply_lt y (Fin.castLE (by decide) k) (i (1 : Fin 2)) k.isLt
    exact (congrArg₂ (fun a b : EReal => a * b) e1 e2).trans (ite_one_zero_mul _ _)

/-- The reference's pooled entry (g, f): zero plus the sum, over the nodes whose graph index reads, signed, as g, of
    feature (n, f). -/
theorem poolRef_apply (batch : Batch Ideal) (y : Nodes Ideal) (i : S64x128.Idx) :
    poolRef batch y i
      = 0 + ∑ k : Fin 50000, if (batch (ix1 k) : BitVec 32).toInt = (((i (0 : Fin 2)).val : ℕ) : ℤ)
          then (y (ix2 (n0 := 50000) (n1 := 128) k (i (1 : Fin 2))) : EReal) else 0 := by
  refine (hostScatterAdd_apply _ _ _ _ i).trans ?_
  have h0 : (broadcastInDim S64x128 ![] Cert.ReferenceIdeal.Gen.bcast_S_S64x128
      (constant (F := Ideal) S_ .f32 0x00000000#32) i : EReal) = 0 :=
    (broadcastInDim_scalar_apply _ _ i).trans Ideal.ofBits_zero_f32
  rw [h0]
  refine congrArg (fun z => (0 : EReal) + z) ?_
  refine (Finset.sum_filter _ _).trans ((sum_idx2 _).trans (Finset.sum_congr rfl fun a _ => ?_))
  have hiff : ∀ b : Fin 128,
      Cert.ReferenceIdeal.scatter_S64x128_S50000x1_S50000x128_1_0_0_1.resultIdx? (ix2 (n0 := 50000) (n1 := 128) a b)
          (broadcastInDim Cert.ReferenceIdeal.S50000x1 ![0] Cert.ReferenceIdeal.Gen.bcast_S50000_S50000x1_0 batch) = some i
        ↔ ((batch (ix1 a) : BitVec 32).toInt = (((i (0 : Fin 2)).val : ℕ) : ℤ) ∧ b = i (1 : Fin 2)) := fun b => by
    refine (resultIdx?_rows _ (ix2 (n0 := 50000) (n1 := 128) a b) i).trans ?_
    show (broadcastInDim Cert.ReferenceIdeal.S50000x1 ![0] Cert.ReferenceIdeal.Gen.bcast_S50000_S50000x1_0 batch
        (ix2 (n0 := 50000) (n1 := 1) a 0)).toInt = _ ∧ b.val = (i (1 : Fin 2)).val ↔ _
    rw [batchCol_apply]
    exact and_congr Iff.rfl Fin.val_inj
  by_cases hA : (batch (ix1 a) : BitVec 32).toInt = (((i (0 : Fin 2)).val : ℕ) : ℤ)
  · rw [if_pos hA]
    refine (Finset.sum_eq_single (i (1 : Fin 2)) (fun b _ hb => ?_) (fun h => ?_)).trans ?_
    · exact if_neg fun h => hb ((hiff b).1 h).2
    · exact absurd (Finset.mem_univ _) h
    · exact if_pos ((hiff _).2 ⟨hA, rfl⟩)
  · rw [if_neg hA]
    exact Finset.sum_eq_zero fun b _ => if_neg fun h => hA ((hiff b).1 h).1

/-- The kernel's count of graph g: zero plus the number of nodes whose graph index is the word of g. -/
theorem cntKer_apply (batch : Batch Ideal) (g : S64.Idx) :
    cntKer (F := Ideal) batch g
      = 0 + ∑ k : Fin 50000, if (batch (ix1 k) : BitVec 32) = BitVec.ofNat 32 (g (0 : Fin 1)).val
          then (1 : EReal) else 0 := by
  have hR : S64x50000.Reduces [1] S64 := by decide
  refine (hostReduceAdd_apply _ _ reducesTo_S64x50000_S64_d1 h_S_ g).trans ?_
  rw [Ideal.hostReduceAdd_single reducesTo_S64x50000_S64_d1 hR]
  have h0 : (constant (F := Ideal) S_ .f32 0x00000000#32 (Shape.Idx.first h_S_) : EReal) = 0 := Ideal.ofBits_zero_f32
  rw [h0]
  refine congrArg (fun z => (0 : EReal) + z) (Finset.sum_congr rfl fun k _ => ?_)
  have hl : hR.lift g k = ix2 (n0 := 64) (n1 := 50000) (g (0 : Fin 1)) k := by
    funext c
    apply Fin.ext
    match c with
    | ⟨0, _⟩ => rfl
    | ⟨1, _⟩ => rfl
  rw [hl]
  exact onehot_apply batch (g (0 : Fin 1)) k

/-- The reference's count of graph g: zero plus the number of nodes whose graph index reads, signed, as g. -/
theorem cntRef_apply (batch : Batch Ideal) (g : S64.Idx) :
    cntRef batch g
      = 0 + ∑ k : Fin 50000, if (batch (ix1 k) : BitVec 32).toInt = (((g (0 : Fin 1)).val : ℕ) : ℤ)
          then (1 : EReal) else 0 := by
  refine (hostScatterAdd_apply _ _ _ _ g).trans ?_
  have h0 : (broadcastInDim S64 ![] bcast_S_S64 (constant (F := Ideal) S_ .f32 0x00000000#32) g : EReal) = 0 :=
    (broadcastInDim_scalar_apply _ _ g).trans Ideal.ofBits_zero_f32
  rw [h0]
  refine congrArg (fun z => (0 : EReal) + z) ?_
  refine (Finset.sum_filter _ _).trans ((sum_idx1 _).trans (Finset.sum_congr rfl fun k _ => ?_))
  have h1 : (broadcastInDim S50000 ![] bcast_S_S50000 (constant (F := Ideal) S_ .f32 0x3F800000#32) (ix1 k) : EReal) = 1 :=
    (broadcastInDim_scalar_apply _ _ _).trans Ideal.ofBits_one_f32
  rw [h1]
  refine if_congr ?_ rfl rfl
  refine (resultIdx?_cnt _ (ix1 k) g).trans ?_
  show (broadcastInDim Cert.ReferenceIdeal.S50000x1 ![0] Cert.ReferenceIdeal.Gen.bcast_S50000_S50000x1_0 batch
      (ix2 (n0 := 50000) (n1 := 1) k 0)).toInt = _ ↔ _
  rw [batchCol_apply]

/-! ## The kernel's pooling and count are the reference's -/

/-- A graph number is below 2³¹, so its word reads, signed, as itself. -/
theorem lt_two_pow_31_of_lt_64 {n : ℕ} (h : n < 64) : n < 2 ^ 31 := lt_trans h (by norm_num)

theorem pool_eq_poolRef (batch : Batch Ideal) (y : Nodes Ideal) : pool (ohPad batch) (hPad y) = poolRef batch y := by
  funext i
  rw [pool_apply, poolRef_apply, zero_add]
  refine Finset.sum_congr rfl fun k _ => if_congr ?_ rfl rfl
  exact eq_ofNat_iff_toInt _ _ (lt_two_pow_31_of_lt_64 (i (0 : Fin 2)).isLt)

theorem cntKer_eq_cntRef (batch : Batch Ideal) : cntKer (F := Ideal) batch = cntRef batch := by
  funext g
  rw [cntKer_apply, cntRef_apply]
  refine congrArg (fun z => (0 : EReal) + z) (Finset.sum_congr rfl fun k _ => if_congr ?_ rfl rfl)
  exact eq_ofNat_iff_toInt _ _ (lt_two_pow_31_of_lt_64 (g (0 : Fin 1)).isLt)

theorem kerOut_eq_refOut (x : Nodes Ideal) (ei : EdgeIdx Ideal) (batch : Batch Ideal) (W1 : Mat Ideal) (b1 : Bias Ideal)
    (W2 : Mat Ideal) (b2 : Bias Ideal) :
    kerOut x ei batch W1 b1 W2 b2 = refOut x ei batch W1 b1 W2 b2 := by
  unfold kerOut refOut
  rw [pool_eq_poolRef, cntKer_eq_cntRef]

end Cert.Spec

end
-- ==== Proof.lean ====
/- The proof of `Cert.Claim`: the kernel (a two-layer graph convolution whose two projections and whose pooling are three
   tiled kernel regions: a row-tiled matrix product twice, and a 64-row membership matrix times the node features
   accumulated over eight column blocks) against its plain reference.
   * The three frames: the word-level and the idealized kernel programs by the launch over @main's segments (host
     stretches and the three regions, each region's body run once symbolically); the reference by its run.
   * `preserves`: the ideal pass rewrote nothing.
   * `algebraic`: over the extended reals the kernel's result is `kerOut` of the arguments (the regions' arrays read as
     matrix products, the host stretches as the shared aggregation), the reference's is `refOut`, and the two agree:
     a row-tiled product is the whole product, a 0/1-weighted sum over all nodes is the sum over a graph's nodes, and the
     row sums of the membership matrix count them. -/
import proofs.«429279_j53317724013285_2_alg».proof.Defs
import proofs.«429279_j53317724013285_2_alg».proof.Proof.Gen.Kernel
import proofs.«429279_j53317724013285_2_alg».proof.Proof.Gen.KernelIdeal
import proofs.«429279_j53317724013285_2_alg».proof.Proof.Gen.ReferenceIdeal
import proofs.«429279_j53317724013285_2_alg».proof.Proof.Gen.Pre_finite_inputs
import proofs.«429279_j53317724013285_2_alg».proof.Proof.K.Run
import proofs.«429279_j53317724013285_2_alg».proof.Proof.KI.Result
import proofs.«429279_j53317724013285_2_alg».proof.Proof.RefRun
import proofs.«429279_j53317724013285_2_alg».proof.Proof.RefValue
import proofs.«429279_j53317724013285_2_alg».proof.Proof.SpecAlgebra
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) := fun m ρ _ =>
  Cert.Kernel.Hand.frame_all (F := Bits) m ρ

theorem frame_ki : Cert.frame_KernelIdeal (hKernelIdeal := Cert.KernelIdeal.Gen.facts) (hPre_finite_inputs := Cert.Pre_finite_inputs.Gen.facts) := fun m ρ _ =>
  Cert.KernelIdeal.Hand.frame_all (F := Ideal) m ρ

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.ValueP.run (F := Ideal) m ρ)

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.kerOut (m ((c.tc : Thread _ _).loc Cert.KernelIdeal.main_arg0)) (m ((c.tc : Thread _ _).loc Cert.KernelIdeal.main_arg1)) (m ((c.tc : Thread _ _).loc Cert.KernelIdeal.main_arg2)) (m ((c.tc : Thread _ _).loc Cert.KernelIdeal.main_arg3)) (m ((c.tc : Thread _ _).loc Cert.KernelIdeal.main_arg4)) (m ((c.tc : Thread _ _).loc Cert.KernelIdeal.main_arg5)) (m ((c.tc : Thread _ _).loc Cert.KernelIdeal.main_arg6)), ?_, ?_⟩
  · refine (θ_run Cert.KernelIdeal.defs _ _).mono (fun _ h c => ⟨(h c).1.trans (Cert.KernelIdeal.Hand.result_eq m c), (h c).2⟩)
      (Cert.KernelIdeal.Hand.result_all (F := Ideal) m ρ)
  · refine (θ_run Cert.ReferenceIdeal.defs _ _).mono (fun _ h c => ⟨(h c).1.trans ?_, (h c).2⟩)
      (Cert.ReferenceIdeal.ValueP.run (F := Ideal) m' ρ')
    refine (Cert.ReferenceIdeal.RefValue.res_eq m' c).trans ?_
    rw [(hagree c).1, (hagree c).2.1, (hagree c).2.2.1, (hagree c).2.2.2.1, (hagree c).2.2.2.2.1,
      (hagree c).2.2.2.2.2.1, (hagree c).2.2.2.2.2.2]
    exact (Cert.Spec.kerOut_eq_refOut _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
